-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S3x32x64 : Shape := ⟨3, ![3, 32, 64]⟩
abbrev S3x64 : Shape := ⟨2, ![3, 64]⟩
abbrev S3x64x64 : Shape := ⟨3, ![3, 64, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S3x32x64 : S_.BroadcastsInDim S3x32x64 (![] : Fin 0 → Fin S3x32x64.rank)
  reducesTo_S3x32x64_S_d0_1_2 : S3x32x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : FVec F S3x64 .f32) (main_arg8 : IVec S2x1600000 32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : IVec S1x1600000 32 := (extractStridedSlice S1x1600000 ![0, 0] · slices_S2x1600000_S1x1600000_0_0) main_arg8
  let main_v40 : IVec S1600000 32 := shapeCast S1600000 main_v39 shapeCasts_S1x1600000_S1600000
  let main_c_14 : IVec S_ 32 := constantI S_ 32 4294867296#32
  let main_v41 : IVec S1600000 32 := broadcastInDim S1600000 ![] bcast_S_S1600000 main_c_14
  let main_v42 : IVec S1600000 1 := cmpi .sge main_v40 main_v41
  let main_v43 : IVec S1x1600000 32 := (extractStridedSlice S1x1600000 ![0, 0] · slices_S2x1600000_S1x1600000_0_0) main_arg8
  let main_v44 : IVec S1600000 32 := shapeCast S1600000 main_v43 shapeCasts_S1x1600000_S1600000
  let main_c_15 : IVec S_ 32 := constantI S_ 32 100000#32
  let main_v45 : IVec S1600000 32 := broadcastInDim S1600000 ![] bcast_S_S1600000 main_c_15
  let main_v46 : IVec S1600000 1 := cmpi .slt main_v44 main_v45
  let main_v47 : IVec S1600000 1 := andi main_v42 main_v46
  let main_c_16 : IVec S_ 1 := constantI S_ 1 1#1
  let main_v48 : IVec S_ 1 := (fun x v => Host.reduce IntOp.andi x v reducesTo_S1600000_S_d0 h_S_) main_v47 main_c_16
  let main_v49 : IVec S_ 1 := andi main_v38 main_v48
  main_v49

def fn_part1 {F : FTy → Type} [FloatOps F] (main_arg4 : FVec F S3x64x64 .f32) (main_arg5 : FVec F S3x64 .f32) (main_arg6 : FVec F S3x64x64 .f32) (main_arg7 : FVec F S3x64 .f32) (main_arg8 : IVec S2x1600000 32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S1600000x32 .f32) (main_arg2 : FVec F S3x32x64 .f32) (main_arg3 : FVec F S3x64 .f32) (main_arg4 : FVec F S3x64x64 .f32) (main_arg5 : FVec F S3x64 .f32) (main_arg6 : FVec F S3x64x64 .f32) (main_arg7 : FVec F S3x64 .f32) (main_arg8 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S3x32x64 .f32 := Host.absf main_arg2
  let main_cst_2 : FVec F S_ .f32 := constant S_ .f32 0x7F800000#32
  let main_v10 : FVec F S3x32x64 .f32 := broadcastInDim S3x32x64 ![] bcast_S_S3x32x64 main_cst_2
  let main_v11 : IVec S3x32x64 1 := cmpf .olt main_v9 main_v10
  let main_c_3 : IVec S_ 1 := constantI S_ 1 1#1
  let main_v12 : IVec S_ 1 := (fun x v => Host.reduce IntOp.andi x v reducesTo_S3x32x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S1600000x32 : Shape := ⟨2, ![1600000, 32]⟩
abbrev S3x32x64 : Shape := ⟨3, ![3, 32, 64]⟩
abbrev S3x64 : Shape := ⟨2, ![3, 64]⟩
abbrev S3x64x64 : Shape := ⟨3, ![3, 64, 64]⟩
abbrev S2x1600000 : Shape := ⟨2, ![2, 1600000]⟩
abbrev S1x1600000 : Shape := ⟨2, ![1, 1600000]⟩
abbrev S1600000 : Shape := ⟨1, ![1600000]⟩
abbrev S1x32x64 : Shape := ⟨3, ![1, 32, 64]⟩
abbrev S32x64 : Shape := ⟨2, ![32, 64]⟩
abbrev S1x64 : Shape := ⟨2, ![1, 64]⟩
abbrev S64 : Shape := ⟨1, ![64]⟩
abbrev S1600000x64 : Shape := ⟨2, ![1600000, 64]⟩
abbrev S12800x32 : Shape := ⟨2, ![12800, 32]⟩
abbrev S12800x64 : Shape := ⟨2, ![12800, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x64x64 : Shape := ⟨3, ![1, 64, 64]⟩
abbrev S64x64 : Shape := ⟨2, ![64, 64]⟩
abbrev S5000x64 : Shape := ⟨2, ![5000, 64]⟩

abbrev nBuf : Space → Nat
  | .hbm => 163
  | .vmem => 48
  | .smem => 0
  | _ => 0

abbrev hbmTy0_0 (i : Nat) : BufTy := match i % 128 with
  | 0 => ⟨S100000x64, .f32⟩
  | 1 => ⟨S1600000x32, .f32⟩
  | 2 => ⟨S3x32x64, .f32⟩
  | 3 => ⟨S3x64, .f32⟩
  | 4 => ⟨S3x64x64, .f32⟩
  | 5 => ⟨S3x64, .f32⟩
  | 6 => ⟨S3x64x64, .f32⟩
  | 7 => ⟨S3x64, .f32⟩
  | 8 => ⟨S2x1600000, .i32⟩
  | 9 => ⟨S1x1600000, .i32⟩
  | 10 => ⟨S1600000, .i32⟩
  | 11 => ⟨S1x1600000, .i32⟩
  | 12 => ⟨S1600000, .i32⟩
  | 13 => ⟨S1x32x64, .f32⟩
  | 14 => ⟨S32x64, .f32⟩
  | 15 => ⟨S1x64, .f32⟩
  | 16 => ⟨S64, .f32⟩
  | 17 => ⟨S1x64, .f32⟩
  | 18 => ⟨S1600000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x64, .f32⟩
  | 38 => ⟨S1600000x64, .i1⟩
  | 39 => ⟨S_, .f32⟩
  | 40 => ⟨S1600000x64, .f32⟩
  | 41 => ⟨S1600000x64, .f32⟩
  | 42 => ⟨S1600000x64, .f32⟩
  | 43 => ⟨S_, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64x64, .f32⟩
  | 51 => ⟨S64x64, .f32⟩
  | 52 => ⟨S1x64, .f32⟩
  | 53 => ⟨S64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S1x64, .f32⟩
  | 60 => ⟨S100000x64, .f32⟩
  | 61 => ⟨S1x32x64, .f32⟩
  | 62 => ⟨S32x64, .f32⟩
  | 63 => ⟨S1x64, .f32⟩
  | 64 => ⟨S64, .f32⟩
  | 65 => ⟨S1x64, .f32⟩
  | 66 => ⟨S1600000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1, .i32⟩
  | 76 => ⟨S_, .i32⟩
  | 77 => ⟨S1600000x1, .i32⟩
  | 78 => ⟨S1600000x1, .i1⟩
  | 79 => ⟨S1x1, .i32⟩
  | 80 => ⟨S1600000x1, .i32⟩
  | 81 => ⟨S1600000x1, .i1⟩
  | 82 => ⟨S1600000x1, .i1⟩
  | 83 => ⟨S_, .i1⟩
  | 84 => ⟨S1600000, .i1⟩
  | 85 => ⟨S1600000x64, .f32⟩
  | 86 => ⟨S1600000x64, .i1⟩
  | 87 => ⟨S_, .f32⟩
  | 88 => ⟨S1600000x64, .f32⟩
  | 89 => ⟨S1600000x64, .f32⟩
  | 90 => ⟨S1600000x64, .f32⟩
  | 91 => ⟨S_, .f32⟩
  | 92 => ⟨S1600000x64, .f32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S1x64x64, .f32⟩
  | 99 => ⟨S64x64, .f32⟩
  | 100 => ⟨S1x64, .f32⟩
  | 101 => ⟨S64, .f32⟩
  | 102 => ⟨S1x64x64, .f32⟩
  | 103 => ⟨S64x64, .f32⟩
  | 104 => ⟨S1x64, .f32⟩
  | 105 => ⟨S64, .f32⟩
  | 106 => ⟨S1x64, .f32⟩
  | 107 => ⟨S1x64, .f32⟩
  | 108 => ⟨S100000x64, .f32⟩
  | 109 => ⟨S1x32x64, .f32⟩
  | 110 => ⟨S32x64, .f32⟩
  | 111 => ⟨S1x64, .f32⟩
  | 112 => ⟨S64, .f32⟩
  | 113 => ⟨S1x64, .f32⟩
  | 114 => ⟨S1600000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1, .i32⟩
  | 124 => ⟨S_, .i32⟩
  | 125 => ⟨S1600000x1, .i32⟩
  | 126 => ⟨S1600000x1, .i1⟩
  | 127 => ⟨S1x1, .i32⟩
  | _ => ⟨S100000x64, .f32⟩

abbrev hbmTy0_1 (i : Nat) : BufTy := match i % 128 with
  | 0 => ⟨S1600000x1, .i32⟩
  | 1 => ⟨S1600000x1, .i1⟩
  | 2 => ⟨S1600000x1, .i1⟩
  | 3 => ⟨S_, .i1⟩
  | 4 => ⟨S1600000, .i1⟩
  | 5 => ⟨S1600000x64, .f32⟩
  | 6 => ⟨S1600000x64, .i1⟩
  | 7 => ⟨S_, .f32⟩
  | 8 => ⟨S1600000x64, .f32⟩
  | 9 => ⟨S1600000x64, .f32⟩
  | 10 => ⟨S1600000x64, .f32⟩
  | 11 => ⟨S_, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S1x64x64, .f32⟩
  | 19 => ⟨S64x64, .f32⟩
  | 20 => ⟨S1x64, .f32⟩
  | 21 => ⟨S64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S1x64, .f32⟩
  | 28 => ⟨S100000x64, .f32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S12800x32, .f32⟩
  | .local _ .vmem, ⟨1, _⟩ => ⟨S12800x32, .f32⟩
  | .local _ .vmem, ⟨2, _⟩ => ⟨S32x64, .f32⟩
  | .local _ .vmem, ⟨3, _⟩ => ⟨S1x64, .f32⟩
  | .local _ .vmem, ⟨4, _⟩ => ⟨S12800x64, .f32⟩
  | .local _ .vmem, ⟨5, _⟩ => ⟨S12800x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S12800x32, .f32⟩
  | .local _ .vmem, ⟨17, _⟩ => ⟨S12800x32, .f32⟩
  | .local _ .vmem, ⟨18, _⟩ => ⟨S32x64, .f32⟩
  | .local _ .vmem, ⟨19, _⟩ => ⟨S1x64, .f32⟩
  | .local _ .vmem, ⟨20, _⟩ => ⟨S12800x64, .f32⟩
  | .local _ .vmem, ⟨21, _⟩ => ⟨S12800x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S12800x32, .f32⟩
  | .local _ .vmem, ⟨33, _⟩ => ⟨S12800x32, .f32⟩
  | .local _ .vmem, ⟨34, _⟩ => ⟨S32x64, .f32⟩
  | .local _ .vmem, ⟨35, _⟩ => ⟨S1x64, .f32⟩
  | .local _ .vmem, ⟨36, _⟩ => ⟨S12800x64, .f32⟩
  | .local _ .vmem, ⟨37, _⟩ => ⟨S12800x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_v11 : Ref sig .tc := ⟨.hbm, 42, rfl⟩
abbrev main_call1_cst : Ref sig .tc := ⟨.hbm, 43, rfl⟩
abbrev main_call1_v0 : Ref sig .tc := ⟨.hbm, 44, rfl⟩
abbrev main_v12 : Ref sig .tc := ⟨.hbm, 45, rfl⟩
abbrev main_cst : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v33 : Ref sig .tc := ⟨.hbm, 89, rfl⟩
abbrev main_v34 : Ref sig .tc := ⟨.hbm, 90, rfl⟩
abbrev main_call3_cst : Ref sig .tc := ⟨.hbm, 91, rfl⟩
abbrev main_call3_v0 : Ref sig .tc := ⟨.hbm, 92, rfl⟩
abbrev main_v35 : Ref sig .tc := ⟨.hbm, 93, rfl⟩
abbrev main_cst_0 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v56 : Ref sig .tc := ⟨.hbm, 137, rfl⟩
abbrev main_v57 : Ref sig .tc := ⟨.hbm, 138, rfl⟩
abbrev main_call5_cst : Ref sig .tc := ⟨.hbm, 139, rfl⟩
abbrev main_call5_v0 : Ref sig .tc := ⟨.hbm, 140, rfl⟩
abbrev main_v58 : Ref sig .tc := ⟨.hbm, 141, rfl⟩
abbrev main_cst_1 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_cst_2 : Ref sig .tc := ⟨.hbm, 157, rfl⟩
abbrev main_v73 : Ref sig .tc := ⟨.hbm, 158, rfl⟩
abbrev main_v74 : Ref sig .tc := ⟨.hbm, 159, rfl⟩
abbrev main_cst_3 : Ref sig .tc := ⟨.hbm, 160, rfl⟩
abbrev main_v75 : Ref sig .tc := ⟨.hbm, 161, rfl⟩
abbrev main_v76 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12800x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S12800x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12800x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S12800x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  shapeCasts_S64_S1x64 : S64.ShapeCasts S1x64
  inb_S12800x32_S12800x32_0_0 : ∀ a, (![0, 0] : Fin 2 → Nat) a + S12800x32.size a ≤ S12800x32.size a
  h_S12800x32 : 0 < S12800x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S12800x64_S12800x64_0_0 : ∀ a, (![0, 0] : Fin 2 → Nat) a + S12800x64.size a ≤ S12800x64.size a
  h_S12800x64 : 0 < S12800x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  slices_S3x32x64_S1x32x64_1_0_0 : S3x32x64.Slices ![1, 0, 0] S1x32x64
  slices_S3x64_S1x64_1_0 : S3x64.Slices ![1, 0] S1x64
  slices_S3x64x64_S1x64x64_1_0_0 : S3x64x64.Slices ![1, 0, 0] S1x64x64
  slices_S3x32x64_S1x32x64_2_0_0 : S3x32x64.Slices ![2, 0, 0] S1x32x64
  slices_S3x64_S1x64_2_0 : S3x64.Slices ![2, 0] S1x64
  slices_S3x64x64_S1x64x64_2_0_0 : S3x64x64.Slices ![2, 0, 0] S1x64x64
  reducesTo_S100000x64_S64_d0 : S100000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  dot_S12800x32_S32x64_S12800x64_1_0_0_1_n_n_wf : DotDims.WF S12800x32 S32x64 S12800x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x32.size a ≤ S1600000x32.size a
  hwx0_0 : ∀ i : grid0.Coords, EltTy.bits .f32 = 32 ∨ (Rect.block (s := S1600000x32) S12800x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12800x64.size a ≤ S1600000x64.size a
  hwx0_3 : ∀ i : grid0.Coords, EltTy.bits .f32 = 32 ∨ (Rect.block (s := S1600000x64) S12800x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12800x32.size a ≤ S1600000x32.size a
  hwx2_0 : ∀ i : grid2.Coords, EltTy.bits .f32 = 32 ∨ (Rect.block (s := S1600000x32) S12800x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S12800x64.size a ≤ S1600000x64.size a
  hwx2_3 : ∀ i : grid2.Coords, EltTy.bits .f32 = 32 ∨ (Rect.block (s := S1600000x64) S12800x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12800x32.size a ≤ S1600000x32.size a
  hwx4_0 : ∀ i : grid4.Coords, EltTy.bits .f32 = 32 ∨ (Rect.block (s := S1600000x32) S12800x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S12800x64.size a ≤ S1600000x64.size a
  hwx4_3 : ∀ i : grid4.Coords, EltTy.bits .f32 = 32 ∨ (Rect.block (s := S1600000x64) S12800x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)

variable [Facts₀]

def dot_S12800x32_S32x64_S12800x64_1_0_0_1_n_n : DotDims S12800x32 S32x64 S12800x64 where
  lhsContracting := [1]
  rhsContracting := [0]
  lhsNonContracting := [0]
  rhsNonContracting := [1]
  lhsBatch := []
  rhsBatch := []
  wf := dot_S12800x32_S32x64_S12800x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S12800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S12800x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S12800x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S12800x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg1) S12800x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S12800x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v72) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S3x32x64 : Shape := ⟨3, ![3, 32, 64]⟩
abbrev S3x64 : Shape := ⟨2, ![3, 64]⟩
abbrev S3x64x64 : Shape := ⟨3, ![3, 64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x32x64 : Shape := ⟨3, ![1, 32, 64]⟩
abbrev S32x64 : Shape := ⟨2, ![32, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩

abbrev nBuf : Space → Nat
  | .hbm => 160
  | .vmem => 0
  | .smem => 0
  | _ => 0

abbrev hbmTy0_0 (i : Nat) : BufTy := match i % 128 with
  | 0 => ⟨S100000x64, .f32⟩
  | 1 => ⟨S1600000x32, .f32⟩
  | 2 => ⟨S3x32x64, .f32⟩
  | 3 => ⟨S3x64, .f32⟩
  | 4 => ⟨S3x64x64, .f32⟩
  | 5 => ⟨S3x64, .f32⟩
  | 6 => ⟨S3x64x64, .f32⟩
  | 7 => ⟨S3x64, .f32⟩
  | 8 => ⟨S2x1600000, .i32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1x32x64, .f32⟩
  | 23 => ⟨S32x64, .f32⟩
  | 24 => ⟨S1600000x64, .f32⟩
  | 25 => ⟨S1600000x64, .f32⟩
  | 26 => ⟨S1x64, .f32⟩
  | 27 => ⟨S64, .f32⟩
  | 28 => ⟨S1x64, .f32⟩
  | 29 => ⟨S1600000x64, .f32⟩
  | 30 => ⟨S1600000x64, .f32⟩
  | 31 => ⟨S_, .f32⟩
  | 32 => ⟨S1600000x64, .f32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S100000x64, .f32⟩
  | 39 => ⟨S1x64x64, .f32⟩
  | 40 => ⟨S64x64, .f32⟩
  | 41 => ⟨S100000x64, .f32⟩
  | 42 => ⟨S1x64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S1x64x64, .f32⟩
  | 51 => ⟨S64x64, .f32⟩
  | 52 => ⟨S100000x64, .f32⟩
  | 53 => ⟨S1x64, .f32⟩
  | 54 => ⟨S64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1x32x64, .f32⟩
  | 71 => ⟨S32x64, .f32⟩
  | 72 => ⟨S1600000x64, .f32⟩
  | 73 => ⟨S1600000x64, .f32⟩
  | 74 => ⟨S1x64, .f32⟩
  | 75 => ⟨S64, .f32⟩
  | 76 => ⟨S1x64, .f32⟩
  | 77 => ⟨S1600000x64, .f32⟩
  | 78 => ⟨S1600000x64, .f32⟩
  | 79 => ⟨S_, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S1x64, .f32⟩
  | 91 => ⟨S64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1x32x64, .f32⟩
  | 119 => ⟨S32x64, .f32⟩
  | 120 => ⟨S1600000x64, .f32⟩
  | 121 => ⟨S1600000x64, .f32⟩
  | 122 => ⟨S1x64, .f32⟩
  | 123 => ⟨S64, .f32⟩
  | 124 => ⟨S1x64, .f32⟩
  | 125 => ⟨S1600000x64, .f32⟩
  | 126 => ⟨S1600000x64, .f32⟩
  | 127 => ⟨S_, .f32⟩
  | _ => ⟨S100000x64, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S100000x64, .f32⟩
  | 7 => ⟨S1x64x64, .f32⟩
  | 8 => ⟨S64x64, .f32⟩
  | 9 => ⟨S100000x64, .f32⟩
  | 10 => ⟨S1x64, .f32⟩
  | 11 => ⟨S64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S1x64x64, .f32⟩
  | 19 => ⟨S64x64, .f32⟩
  | 20 => ⟨S100000x64, .f32⟩
  | 21 => ⟨S1x64, .f32⟩
  | 22 => ⟨S64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call2_cst : Ref sig .tc := ⟨.hbm, 58, rfl⟩
abbrev main_call2_v0 : Ref sig .tc := ⟨.hbm, 59, rfl⟩
abbrev main_v42 : Ref sig .tc := ⟨.hbm, 60, rfl⟩
abbrev main_c_1 : Ref sig .tc := ⟨.hbm, 61, rfl⟩
abbrev main_v43 : Ref sig .tc := ⟨.hbm, 62, rfl⟩
abbrev main_v44 : Ref sig .tc := ⟨.hbm, 63, rfl⟩
abbrev main_c_2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call3_cst : Ref sig .tc := ⟨.hbm, 79, rfl⟩
abbrev main_call3_v0 : Ref sig .tc := ⟨.hbm, 80, rfl⟩
abbrev main_v59 : Ref sig .tc := ⟨.hbm, 81, rfl⟩
abbrev main_cst_3 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call4_cst : Ref sig .tc := ⟨.hbm, 95, rfl⟩
abbrev main_call4_v0 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call5_cst : Ref sig .tc := ⟨.hbm, 106, rfl⟩
abbrev main_call5_v0 : Ref sig .tc := ⟨.hbm, 107, rfl⟩
abbrev main_v81 : Ref sig .tc := ⟨.hbm, 108, rfl⟩
abbrev main_c_4 : Ref sig .tc := ⟨.hbm, 109, rfl⟩
abbrev main_v82 : Ref sig .tc := ⟨.hbm, 110, rfl⟩
abbrev main_v83 : Ref sig .tc := ⟨.hbm, 111, rfl⟩
abbrev main_c_5 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_call6_cst : Ref sig .tc := ⟨.hbm, 127, rfl⟩
abbrev main_call6_v0 : Ref sig .tc := ⟨.hbm, 128, rfl⟩
abbrev main_v98 : Ref sig .tc := ⟨.hbm, 129, rfl⟩
abbrev main_cst_6 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_call7_cst : Ref sig .tc := ⟨.hbm, 143, rfl⟩
abbrev main_call7_v0 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_7 : Ref sig .tc := ⟨.hbm, 154, rfl⟩
abbrev main_v120 : Ref sig .tc := ⟨.hbm, 155, rfl⟩
abbrev main_v121 : Ref sig .tc := ⟨.hbm, 156, rfl⟩
abbrev main_cst_8 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  bcast_S1x64_S100000x64_0_1 : S1x64.BroadcastsInDim S100000x64 (![0, 1] : Fin 2 → Fin S100000x64.rank)
  slices_S3x32x64_S1x32x64_1_0_0 : S3x32x64.Slices ![1, 0, 0] S1x32x64
  slices_S3x64_S1x64_1_0 : S3x64.Slices ![1, 0] S1x64
  slices_S3x64x64_S1x64x64_1_0_0 : S3x64x64.Slices ![1, 0, 0] S1x64x64
  slices_S3x32x64_S1x32x64_2_0_0 : S3x32x64.Slices ![2, 0, 0] S1x32x64
  slices_S3x64_S1x64_2_0 : S3x64.Slices ![2, 0] S1x64
  slices_S3x64x64_S1x64x64_2_0_0 : S3x64x64.Slices ![2, 0, 0] S1x64x64
  reducesTo_S100000x64_S64_d0 : S100000x64.ReducesTo [0] S64
  h_S_ : 0 < S_.numel
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  dot_S1600000x32_S32x64_S1600000x64_1_0_0_1_n_n_wf : DotDims.WF S1600000x32 S32x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The arithmetic of one GINE layer, row by row, on the extended reals.

  An edge's projected attributes are one row of `ea · W + b` (`projRow`): the sum over the 32 attribute
  columns of attribute × weight, plus the bias.  A node's update (`updRow`) is the two-layer perceptron
  applied to `z = h + agg`: the hidden row is `max (z · W₁ + b₁) 0`, the output row `hidden · W₂ + b₂`,
  clamped below at `0` in every layer but the last.  Both are stated for ONE row, so the same definition
  reads a block of a tiled array and the whole array.
-/
import Idealize.ShloMosaic.PureOps.Ideal

namespace Cert.Spec

open scoped BigOperators

/-- Row `x` of the edge attributes, projected: `(x · W + b) j`. -/
noncomputable def projRow (x : Fin 32 → EReal) (W : Fin 32 → Fin 64 → EReal) (b : Fin 64 → EReal) (j : Fin 64) : EReal :=
  (∑ k : Fin 32, x k * W k j) + b j

/-- The hidden row of the node update: `max ((h + a) · W₁ + b₁) 0` at column `k`. -/
noncomputable def hidRow (h a : Fin 64 → EReal) (W1 : Fin 64 → Fin 64 → EReal) (b1 : Fin 64 → EReal) (k : Fin 64) : EReal :=
  max ((∑ k' : Fin 64, (h k' + a k') * W1 k' k) + b1 k) 0

/-- The node update before its closing clamp: `hidden · W₂ + b₂` at column `j`. -/
noncomputable def outRow (h a : Fin 64 → EReal) (W1 : Fin 64 → Fin 64 → EReal) (b1 : Fin 64 → EReal)
    (W2 : Fin 64 → Fin 64 → EReal) (b2 : Fin 64 → EReal) (j : Fin 64) : EReal :=
  (∑ k : Fin 64, hidRow h a W1 b1 k * W2 k j) + b2 j

/-- The node update of an inner layer: the output row clamped below at `0`. -/
noncomputable def updRow (h a : Fin 64 → EReal) (W1 : Fin 64 → Fin 64 → EReal) (b1 : Fin 64 → EReal)
    (W2 : Fin 64 → Fin 64 → EReal) (b2 : Fin 64 → EReal) (j : Fin 64) : EReal :=
  max (outRow h a W1 b1 W2 b2 j) 0

end Cert.Spec
-- ==== Proof.Layer.lean ====
/-
  One GINE layer and the three-layer network as functions of whole arrays, on the extended reals.

  The irregular steps — gathering each edge's source row and summing the messages into their destination
  rows — enter as two opaque functions `gth` and `sct`: both programs perform them with the same host
  operations, so nothing about them is opened.  What is spelled out is the regular arithmetic between
  them: a message is `max (gathered + projected attributes) 0`, and a node's new state the perceptron of
  Spec.lean applied to its old state plus its summed messages.  The weights of layer `l` are read straight
  off the stacked arguments: `We l k j`, `be l j`, and so on.
-/
import Idealize.ShloMosaic.PureOps.Ideal
import Idealize.ShloMosaic.Lib.ValueIdx
import proofs.«424603_j55843164783469_3_alg».proof.Proof.Spec

namespace Cert.Layer

open Idealize.ShloMosaic Idealize.ShloMosaic.ValueIdx

/-- Node states: a [100000, 64] array. -/
abbrev Nodes := (⟨2, ![100000, 64]⟩ : Shape).Idx → EReal
/-- Per-edge rows: a [1600000, 64] array. -/
abbrev Edges := (⟨2, ![1600000, 64]⟩ : Shape).Idx → EReal
/-- Edge attributes: a [1600000, 32] array. -/
abbrev EAttr := (⟨2, ![1600000, 32]⟩ : Shape).Idx → EReal

/-- The messages of one layer: `max (g + ea · W + b) 0`, the projection grouped as one summand. -/
noncomputable def msg (g : Edges) (EA : EAttr) (W : Fin 32 → Fin 64 → EReal) (b : Fin 64 → EReal) : Edges :=
  fun i => max (g i + Spec.projRow (fun k => EA (ix2 (i 0) k)) W b (i 1)) 0

/-- The node update of an inner layer, row by row. -/
noncomputable def upd (H agg : Nodes) (W1 : Fin 64 → Fin 64 → EReal) (b1 : Fin 64 → EReal)
    (W2 : Fin 64 → Fin 64 → EReal) (b2 : Fin 64 → EReal) : Nodes :=
  fun i => Spec.updRow (fun k => H (ix2 (i 0) k)) (fun k => agg (ix2 (i 0) k)) W1 b1 W2 b2 (i 1)

/-- The node update of the last layer (no closing clamp), row by row. -/
noncomputable def out (H agg : Nodes) (W1 : Fin 64 → Fin 64 → EReal) (b1 : Fin 64 → EReal)
    (W2 : Fin 64 → Fin 64 → EReal) (b2 : Fin 64 → EReal) : Nodes :=
  fun i => Spec.outRow (fun k => H (ix2 (i 0) k)) (fun k => agg (ix2 (i 0) k)) W1 b1 W2 b2 (i 1)

/-- One inner layer: gather, message, sum into destinations, update. -/
noncomputable def inner (gth : Nodes → Edges) (sct : Edges → Nodes) (EA : EAttr)
    (W : Fin 32 → Fin 64 → EReal) (b : Fin 64 → EReal) (W1 : Fin 64 → Fin 64 → EReal) (b1 : Fin 64 → EReal)
    (W2 : Fin 64 → Fin 64 → EReal) (b2 : Fin 64 → EReal) (H : Nodes) : Nodes :=
  upd H (sct (msg (gth H) EA W b)) W1 b1 W2 b2

/-- The last layer. -/
noncomputable def last (gth : Nodes → Edges) (sct : Edges → Nodes) (EA : EAttr)
    (W : Fin 32 → Fin 64 → EReal) (b : Fin 64 → EReal) (W1 : Fin 64 → Fin 64 → EReal) (b1 : Fin 64 → EReal)
    (W2 : Fin 64 → Fin 64 → EReal) (b2 : Fin 64 → EReal) (H : Nodes) : Nodes :=
  out H (sct (msg (gth H) EA W b)) W1 b1 W2 b2

/-- The three layers, the weights of layer `l` read off the stacked arrays. -/
noncomputable def net (gth : Nodes → Edges) (sct : Edges → Nodes) (EA : EAttr)
    (We : Fin 3 → Fin 32 → Fin 64 → EReal) (be : Fin 3 → Fin 64 → EReal)
    (W1 : Fin 3 → Fin 64 → Fin 64 → EReal) (b1 : Fin 3 → Fin 64 → EReal)
    (W2 : Fin 3 → Fin 64 → Fin 64 → EReal) (b2 : Fin 3 → Fin 64 → EReal) (X : Nodes) : Nodes :=
  last gth sct EA (We 2) (be 2) (W1 2) (b1 2) (W2 2) (b2 2)
    (inner gth sct EA (We 1) (be 1) (W1 1) (b1 1) (W2 1) (b2 1)
      (inner gth sct EA (We 0) (be 0) (W1 0) (b1 0) (W2 0) (b2 0) X))

end Cert.Layer
-- ==== Proof.ChainDefs.lean ====
/-
  The kernel program's host-side pieces between its six tiled regions, named once.

  Between two regions the program runs plain array operations: it slices the stacked weights, gathers each
  edge's source row, adds the projected attributes, clamps at zero, and sums the messages into their destination
  rows.  The contents of every buffer at every boundary are a fold of those operations from the launch memory;
  `wdown` reads such a fold at one buffer, down to the launch memory or to the output of the last region that
  wrote it.  Named here: the scatter-add from zeros into destination rows (`sctK`), the destination
  index vector (`dstK`), the message array from gathered rows and projected attributes (`msgK`), and
  the closing mean over the nodes (`meanK`).
-/
import proofs.«424603_j55843164783469_3_alg».proof.Proof.Gen.KernelIdeal.Frame
import proofs.«424603_j55843164783469_3_alg».proof.Proof.Layer
import Idealize.ShloMosaic.Lib.StableHlo.Run
import Idealize.ShloMosaic.PureOps.Ideal
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem

section EdgeAttrAcross
variable {F : FTy → Type} [FloatOps F] (m : (ℓ : Loc nD τ sig) → Buf (Elt F) ℓ) (ρ : Dev nD → PrngReg)

/-- The edge attributes are an input window of each edge-projection region: the region leaves them as it found them. -/
theorem W2_arg1 (c : Dev nD) : W2 m ρ c (Proc.devRef .tc main_arg1) = W1 m ρ c (Proc.devRef .tc main_arg1) :=
  (W2_arr m ρ c 0).trans (((dat0 (V1 m ρ) c).arrAt_in 0 rfl _).trans (A_eq0 (V1 m ρ) c 0))
theorem W9_arg1 (c : Dev nD) : W9 m ρ c (Proc.devRef .tc main_arg1) = W8 m ρ c (Proc.devRef .tc main_arg1) :=
  (W9_arr m ρ c 0).trans (((dat2 (V8 m ρ) c).arrAt_in 0 rfl _).trans (A_eq2 (V8 m ρ) c 0))
theorem W16_arg1 (c : Dev nD) : W16 m ρ c (Proc.devRef .tc main_arg1) = W15 m ρ c (Proc.devRef .tc main_arg1) :=
  (W16_arr m ρ c 0).trans (((dat4 (V15 m ρ) c).arrAt_in 0 rfl _).trans (A_eq4 (V15 m ρ) c 0))

end EdgeAttrAcross

/-- Read a boundary's contents at a buffer: through a run of host stretches in one pass, across each region that does not
    touch the buffer, and across an edge-projection region for the edge attributes it only reads. -/
macro "wdown" : tactic => `(tactic| (
  repeat (first
    | (dsimp only [W22, W20, W19, W18, W17, W15, W13, W12, W11, W10, W8, W6, W5, W4, W3, W1, V20, V15, V13, V8, V6, V1]; after_results_simp)
    | (dsimp only [V21, V16, V14, V9, V7, V2])
    | (rw [W2_of_ne]; rotate_left; decide)
    | (rw [W7_of_ne]; rotate_left; decide)
    | (rw [W9_of_ne]; rotate_left; decide)
    | (rw [W14_of_ne]; rotate_left; decide)
    | (rw [W16_of_ne]; rotate_left; decide)
    | (rw [W21_of_ne]; rotate_left; decide)
    | rw [W2_arg1]
    | rw [W9_arg1]
    | rw [W16_arg1])))

/-- The [100000, 64] array of zeros the messages are summed into. -/
abbrev zerosN : FVec Ideal S100000x64 .f32 :=
  broadcastInDim S100000x64 ![] bcast_S_S100000x64 (constant (F := Ideal) S_ .f32 0x00000000#32)

/-- The [1600000, 64] array of zeros a message is clamped against. -/
abbrev zerosE : FVec Ideal S1600000x64 .f32 :=
  broadcastInDim S1600000x64 ![] bcast_S_S1600000x64 (constant (F := Ideal) S_ .f32 0x00000000#32)

/-- Row 1 of the edge index: each edge's destination node. -/
def dstK (x8 : IVec S2x1600000 32) : IVec S1600000 32 :=
  shapeCast S1600000 (extractStridedSlice S1x1600000 ![1, 0] x8 slices_S2x1600000_S1x1600000_1_0) shapeCasts_S1x1600000_S1600000

/-- The messages summed into their destination rows, from zeros. -/
def sctK (d : IVec S1600000 32) (M : FVec Ideal S1600000x64 .f32) :
    FVec Ideal S100000x64 .f32 :=
  Host.scatterAdd (F := Ideal) scatter_S100000x64_S1600000x1_S1600000x64_1_0_0_1 zerosN
    (broadcastInDim S1600000x1 ![0] bcast_S1600000_S1600000x1_0 d) M

/-- The message array: gathered source rows plus projected attributes, clamped below at zero. -/
def msgK (G P : FVec Ideal S1600000x64 .f32) : FVec Ideal S1600000x64 .f32 :=
  maximumf (F := Ideal) (addf (F := Ideal) G P) zerosE

/-- The closing mean over the 100000 nodes: the column sums divided by 100000. -/
def meanK (H : FVec Ideal S100000x64 .f32) : FVec Ideal S1x64 .f32 :=
  Host.divf (F := Ideal) (broadcastInDim S1x64 ![1] bcast_S64_S1x64_1
      (Host.reduceAdd (F := Ideal) H (constant (F := Ideal) S_ .f32 0x00000000#32) reducesTo_S100000x64_S64_d0 h_S_))
    (broadcastInDim S1x64 ![] bcast_S_S1x64 (constant (F := Ideal) S_ .f32 0x47C35000#32))

variable (m : (ℓ : Loc nD τ sig) → Buf (Elt Ideal) ℓ) (ρ : Dev nD → PrngReg)

set_option maxHeartbeats 4000000 in
/-- The returned array is the mean of what the last node-update region wrote. -/
theorem result_eq (c : Dev nD) :
    W22 (F := Ideal) m ρ c (Proc.devRef .tc main_v76) = meanK (W21 m ρ c (Proc.devRef .tc main_v72)) := by
  wdown
  all_goals rfl

/-- A message at an index: `max (g + p) 0`. -/
theorem msgK_apply (G P : FVec Ideal S1600000x64 .f32) (i : S1600000x64.Idx) :
    msgK G P i = max (G i + P i) 0 := by
  unfold msgK
  show max (G i + P i) (Ideal.ofBits .f32 0x00000000#32) = _
  rw [Ideal.ofBits_zero_f32]

end Cert.KernelIdeal.Chain

end
-- ==== Proof.SrcRange.lean ====
/-
  The source indices lie in a known range, and so the guarded row gather is the plain one.

  The statement's precondition closes with a conjunct about the first row of the edge list: every source
  index `s` satisfies `-100000 ≤ s < 100000`, read as a signed 32-bit word.  The first part of this file
  decodes that conjunct out of the precondition's predicate: the predicate is a chain of one-bit conjunctions whose
  last member is an all-reduction by `and` of the elementwise test `(s ≥ -100000) ∧ (s < 100000)`, so the
  whole being `1` makes the test `1` at every edge, and a signed comparison that came out `1` is the
  corresponding inequality between the words' integer values.

  The second part reads the kernel program's row gather.  It first wraps a negative index around the
  table, `w = if s < 0 then s + 100000 else s`, then keeps the gathered row only where `0 ≤ w ≤ 99999`
  and puts a not-a-number row elsewhere.  For `-100000 ≤ s < 0` the sum `s + 100000` does not overflow and
  lies in `[0, 100000)`; for `0 ≤ s < 100000` the index is kept; in both cases the guard holds.  The guard
  is taken as an `and` over a one-element axis, which is `1` because every element under it is, and then
  laid along the 64 columns of the row.  So the selection always takes its first branch: the gather itself.
-/
import proofs.«424603_j55843164783469_3_alg».proof.Proof.Gen.KernelIdeal.Launch
import proofs.«424603_j55843164783469_3_alg».proof.Proof.Gen.Pre_finite_inputs
import Idealize.ShloMosaic.PureOps.Ideal
import Idealize.ShloMosaic.Lib.StableHlo.Run
import Idealize.ShloMosaic.Lib.ReduceAll
import Idealize.ShloMosaic.Lib.StableHlo.Predicate
import Idealize.ShloMosaic.Lib.ValueIdx
import Idealize.ShloMosaic.Lib.ValueLayout

noncomputable section

namespace Cert.KernelIdeal.SrcRange

open Cert.KernelIdeal Idealize.ShloMosaic Idealize.ShloMosaic.ValueIdx

/-! ## Words -/

theorem ofBool_eq_one (b : Bool) : BitVec.ofBool b = 1#1 ↔ b = true := by cases b <;> decide

/-- The same with the one-bit word `1` written as a numeral, as a selection's test writes it. -/
theorem ofBool_eq_one' (b : Bool) : BitVec.ofBool b = (1 : BitVec 1) ↔ b = true := by cases b <;> decide

theorem toInt_zero : (0#32 : BitVec 32).toInt = 0 := by decide
theorem toInt_size : (100000#32 : BitVec 32).toInt = 100000 := by decide
theorem toInt_last : (99999#32 : BitVec 32).toInt = 99999 := by decide
theorem toInt_negSize : (4294867296#32 : BitVec 32).toInt = -100000 := by decide

/-- The two signed tests of the precondition, both `1` at a word, bound its integer value. -/
theorem range_of_tests (v : BitVec 32) (h0 : IntOp.cmpi .sge v 4294867296#32 = 1#1)
    (h1 : IntOp.cmpi .slt v 100000#32 = 1#1) : -100000 ≤ v.toInt ∧ v.toInt < 100000 := by
  unfold IntOp.cmpi at h0 h1
  simp only [ofBool_eq_one, BitVec.slt, BitVec.sle, decide_eq_true_eq, toInt_size, toInt_negSize] at h0 h1
  exact ⟨h0, h1⟩

/-- A source index wrapped around the table: a negative one has the table's height added. -/
def wrap (v : BitVec 32) : BitVec 32 :=
  Scalar.select (IntOp.cmpi .slt v 0#32) (IntOp.addi v 100000#32) v

/-- A word in `[-100000, 100000)` wraps to a word in `[0, 99999]`: both of the gather's guards hold. -/
theorem wrap_guards (v : BitVec 32) (h0 : -100000 ≤ v.toInt) (h1 : v.toInt < 100000) :
    IntOp.cmpi .sge (wrap v) 0#32 = 1#1 ∧ IntOp.cmpi .sle (wrap v) 99999#32 = 1#1 := by
  unfold wrap IntOp.cmpi IntOp.addi Scalar.select
  simp only [ofBool_eq_one, ofBool_eq_one', BitVec.slt, BitVec.sle, decide_eq_true_eq, toInt_zero, toInt_last]
  by_cases hv : v.toInt < 0
  · rw [if_pos hv, BitVec.toInt_add, toInt_size, Int.bmod_def]
    constructor <;> (split <;> omega)
  · rw [if_neg hv]
    omega

/-! ## A reduction by `and` of an array of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_ones f l fun n hn => h n (List.mem_cons_of_mem _ hn)

/-- Reducing by `and`, from `1`, an array that is `1` everywhere gives `1` everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_ones x _ fun n _ => hx n

/-! ## The first row of the edge list, as a vector -/

/-- Row 0 of a [2, 1600000] array cut out and flattened reads, at `e`, the array at `(0, e)`. -/
theorem row0_apply {α : Type} (x : (⟨2, ![2, 1600000]⟩ : Shape).Idx → α)
    (hs : (⟨2, ![2, 1600000]⟩ : Shape).Slices ![0, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![0, 0] x hs) hc (ix1 e) = x (ix2 (0 : Fin 2) e) := by
  rw [shapeCast_1a_a_apply, slice2_axis0_apply 0 x hs (0 : Fin 1) e (0 : Fin 2) rfl]

/-! ## The precondition decoded -/

/-- The source index of every edge lies in `[-100000, 100000)`. -/
def InRange (x8 : (⟨S2x1600000, .i32⟩ : BufTy).Contents (Elt Ideal)) : Prop :=
  ∀ e : Fin 1600000, -100000 ≤ (x8 (ix2 0 e)).toInt ∧ (x8 (ix2 0 e)).toInt < 100000

instance : Subsingleton (⟨0, ![]⟩ : Shape).Idx := ⟨fun a b => funext fun d => d.elim0⟩

/-- The precondition's last conjunct, read back: the predicate being `1` bounds every source index. -/
theorem inRange_of_pre [Cert.Pre_finite_inputs.Facts]
    (x0 : (⟨S100000x64, .f32⟩ : BufTy).Contents (Elt Ideal)) (x1 : (⟨S1600000x32, .f32⟩ : BufTy).Contents (Elt Ideal))
    (x2 : (⟨S3x32x64, .f32⟩ : BufTy).Contents (Elt Ideal)) (x3 : (⟨S3x64, .f32⟩ : BufTy).Contents (Elt Ideal))
    (x4 : (⟨S3x64x64, .f32⟩ : BufTy).Contents (Elt Ideal)) (x5 : (⟨S3x64, .f32⟩ : BufTy).Contents (Elt Ideal))
    (x6 : (⟨S3x64x64, .f32⟩ : BufTy).Contents (Elt Ideal)) (x7 : (⟨S3x64, .f32⟩ : BufTy).Contents (Elt Ideal))
    (x8 : (⟨S2x1600000, .i32⟩ : BufTy).Contents (Elt Ideal))
    (h : Cert.Pre_finite_inputs.fn (F := Ideal) x0 x1 x2 x3 x4 x5 x6 x7 x8 = (fun _ => 1#1)) : InRange x8 := by
  intro e
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 (ix1 e)
  obtain ⟨hge, hlt⟩ := IntOp.andi_eq_one.1 h2
  rw [← row0_apply x8 Cert.Pre_finite_inputs.Facts.slices_S2x1600000_S1x1600000_0_0
    Cert.Pre_finite_inputs.Facts.shapeCasts_S1x1600000_S1600000 e]
  exact range_of_tests _ hge hlt

/-! ## The kernel program's row gather -/

/-- The source indices as the kernel program cuts them out of the edge list: row 0, flattened. -/
def srcK (x8 : (⟨S2x1600000, .i32⟩ : BufTy).Contents (Elt Ideal)) : (⟨S1600000, .i32⟩ : BufTy).Contents (Elt Ideal) :=
  shapeCast S1600000 (extractStridedSlice S1x1600000 ![0, 0] x8 Gen.slices_S2x1600000_S1x1600000_0_0)
    Gen.shapeCasts_S1x1600000_S1600000

/-- The gather's start indices: each source index wrapped around the table, as a one-column array. -/
def idxK (s : (⟨S1600000, .i32⟩ : BufTy).Contents (Elt Ideal)) : (⟨S1600000x1, .i32⟩ : BufTy).Contents (Elt Ideal) :=
  broadcastInDim S1600000x1 ![0] Gen.bcast_S1600000_S1600000x1_0
    (select (cmpi .slt s (broadcastInDim S1600000 ![] Gen.bcast_S_S1600000 (constantI S_ 32 0#32)))
      (addi s (broadcastInDim S1600000 ![] Gen.bcast_S_S1600000 (constantI S_ 32 100000#32)))
      s)

/-- The guarded gather: the gathered rows where the wrapped index is in `[0, 99999]`, a not-a-number row elsewhere. -/
def takeK (H : (⟨S100000x64, .f32⟩ : BufTy).Contents (Elt Ideal)) (s : (⟨S1600000, .i32⟩ : BufTy).Contents (Elt Ideal)) :
    (⟨S1600000x64, .f32⟩ : BufTy).Contents (Elt Ideal) :=
  select
    (broadcastInDim S1600000x64 ![0] Gen.bcast_S1600000_S1600000x64_0
      (Host.reduce IntOp.andi
        (andi
          (cmpi .sge (idxK s) (broadcastInDim S1600000x1 ![] Gen.bcast_S_S1600000x1 (constantI S_ 32 0#32)))
          (cmpi .sle (idxK s)
            (broadcastInDim S1600000x1 ![0, 1] Gen.bcast_S1x1_S1600000x1_0_1
              (broadcastInDim S1x1 ![1] Gen.bcast_S1_S1x1_1 (constantI S1 32 99999#32)))))
        (constantI S_ 1 1#1) Gen.reducesTo_S1600000x1_S1600000_d1 Gen.h_S_))
    (Host.gather gather_S100000x64_S1600000x1_S1600000x64_1_0_n_n_0_1_164 H (idxK s))
    (broadcastInDim S1600000x64 ![] Gen.bcast_S_S1600000x64 (constant (F := Ideal) S_ .f32 0x7FC00000#32))

/-- The kernel program's source vector at edge `e` is the edge list at `(0, e)`. -/
theorem srcK_apply (x8 : (⟨S2x1600000, .i32⟩ : BufTy).Contents (Elt Ideal)) (e : Fin 1600000) :
    srcK x8 (ix1 e) = x8 (ix2 0 e) :=
  row0_apply x8 _ _ e

/-- A start index is the wrapped source index of its edge. -/
theorem idxK_apply (s : (⟨S1600000, .i32⟩ : BufTy).Contents (Elt Ideal)) (j : S1600000x1.Idx) :
    idxK s j = wrap (s (ix1 (n := 1600000) (j 0))) := by
  unfold idxK
  rw [broadcastInDim_apply ![0] Gen.bcast_S1600000_S1600000x1_0 _ j (ix1 (n := 1600000) (j 0)) (fun a => by
    obtain rfl : a = 0 := Subsingleton.elim _ _
    rw [if_neg (by decide)]; rfl)]
  rfl

/-- Under the range fact both guards hold at every start index. -/
theorem guards_one (x8 : (⟨S2x1600000, .i32⟩ : BufTy).Contents (Elt Ideal)) (hr : InRange x8) (j : S1600000x1.Idx) :
    andi
      (cmpi .sge (idxK (srcK x8)) (broadcastInDim S1600000x1 ![] Gen.bcast_S_S1600000x1 (constantI S_ 32 0#32)))
      (cmpi .sle (idxK (srcK x8))
        (broadcastInDim S1600000x1 ![0, 1] Gen.bcast_S1x1_S1600000x1_0_1
          (broadcastInDim S1x1 ![1] Gen.bcast_S1_S1x1_1 (constantI S1 32 99999#32)))) j = 1#1 := by
  show IntOp.andi (IntOp.cmpi .sge (idxK (srcK x8) j) 0#32) (IntOp.cmpi .sle (idxK (srcK x8) j) 99999#32) = 1#1
  rw [idxK_apply, srcK_apply x8 (j 0)]
  obtain ⟨g0, g1⟩ := wrap_guards _ (hr (j 0)).1 (hr (j 0)).2
  rw [g0, g1]
  decide

/-- Under the range fact the guarded gather is the gather. -/
theorem takeK_eq_gather (H : (⟨S100000x64, .f32⟩ : BufTy).Contents (Elt Ideal))
    (x8 : (⟨S2x1600000, .i32⟩ : BufTy).Contents (Elt Ideal)) (hr : InRange x8) :
    takeK H (srcK x8) = Host.gather gather_S100000x64_S1600000x1_S1600000x64_1_0_n_n_0_1_164 H (idxK (srcK x8)) := by
  funext i
  unfold takeK
  rw [select_apply]
  have hm : broadcastInDim S1600000x64 ![0] Gen.bcast_S1600000_S1600000x64_0
      (Host.reduce IntOp.andi
        (andi
          (cmpi .sge (idxK (srcK x8)) (broadcastInDim S1600000x1 ![] Gen.bcast_S_S1600000x1 (constantI S_ 32 0#32)))
          (cmpi .sle (idxK (srcK x8))
            (broadcastInDim S1600000x1 ![0, 1] Gen.bcast_S1x1_S1600000x1_0_1
              (broadcastInDim S1x1 ![1] Gen.bcast_S1_S1x1_1 (constantI S1 32 99999#32)))))
        (constantI S_ 1 1#1) Gen.reducesTo_S1600000x1_S1600000_d1 Gen.h_S_) i = 1#1 := by
    unfold broadcastInDim
    exact reduce_andi_ones _ _ _ _ (guards_one x8 hr) rfl _
  rw [hm, select_one]

/-! ## The host operations read as these functions

What the buffers hold after the host operations before each layer's first launch: the source vector after the
opening operations, and the guarded gather of the node states after each layer's gather operations.  The
operations of the three layers are the same functions, applied to different buffers.  A typed reference's
transport of contents along its type equation is the identity when the reference's type is the stated one
by computation. -/

open Idealize.ShloMosaic.StableHlo in
/-- Contents carried to a reference's buffer and back are unchanged. -/
theorem ofBuf_toBuf {T : BufTy} {Val : EltTy → Type} (x : TRef sig T) (v : T.Contents Val) :
    x.ofBuf (x.toBuf v) = v := by
  obtain ⟨r, h, h2, h3⟩ := x
  subst h
  rfl

section Readings

open Idealize.ShloMosaic.StableHlo

variable (V : Valuation τ sig (Elt Ideal))

theorem ofBuf_src (h) (h2) (h3) (v : main_v1.ty.Contents (Elt Ideal)) :
    (TRef.of main_v1 h h2 h3 : TRef sig ⟨S1600000, .i32⟩).ofBuf v = v := rfl

theorem ofBuf_nodes0 (h) (h2) (h3) (v : main_arg0.ty.Contents (Elt Ideal)) :
    (TRef.of main_arg0 h h2 h3 : TRef sig ⟨S100000x64, .f32⟩).ofBuf v = v := rfl

theorem ofBuf_nodes1 (h) (h2) (h3) (v : main_v26.ty.Contents (Elt Ideal)) :
    (TRef.of main_v26 h h2 h3 : TRef sig ⟨S100000x64, .f32⟩).ofBuf v = v := rfl

theorem ofBuf_nodes2 (h) (h2) (h3) (v : main_v49.ty.Contents (Elt Ideal)) :
    (TRef.of main_v49 h h2 h3 : TRef sig ⟨S100000x64, .f32⟩).ofBuf v = v := rfl

theorem toBuf_take0 (h) (h2) (h3) (v : (⟨S1600000x64, .f32⟩ : BufTy).Contents (Elt Ideal)) :
    (TRef.of main_v10 h h2 h3 : TRef sig ⟨S1600000x64, .f32⟩).toBuf v = v := rfl

theorem toBuf_take1 (h) (h2) (h3) (v : (⟨S1600000x64, .f32⟩ : BufTy).Contents (Elt Ideal)) :
    (TRef.of main_v33 h h2 h3 : TRef sig ⟨S1600000x64, .f32⟩).toBuf v = v := rfl

theorem toBuf_take2 (h) (h2) (h3) (v : (⟨S1600000x64, .f32⟩ : BufTy).Contents (Elt Ideal)) :
    (TRef.of main_v56 h h2 h3 : TRef sig ⟨S1600000x64, .f32⟩).toBuf v = v := rfl

/-- After the opening host operations the source vector is row 0 of the edge list, flattened. -/
theorem after_hostOps0_src :
    StableHlo.after (Gen.hostOps0 (F := Ideal)) V (Proc.devRef .tc main_v1) = srcK (V (Proc.devRef .tc main_arg8)) := by
  after_results; rfl

/-- After the first layer's gather operations its result is the guarded gather of the input node states. -/
theorem after_hostOps1_take :
    StableHlo.after (Gen.hostOps1 (F := Ideal)) V (Proc.devRef .tc main_v10)
      = takeK (V (Proc.devRef .tc main_arg0)) (V (Proc.devRef .tc main_v1)) := by
  after_results_simp
  simp only [ofBuf_toBuf]
  rw [ofBuf_src, ofBuf_nodes0, toBuf_take0]
  rfl

/-- The same for the second layer, over the first layer's node states. -/
theorem after_hostOps3_take :
    StableHlo.after (Gen.hostOps3 (F := Ideal)) V (Proc.devRef .tc main_v33)
      = takeK (V (Proc.devRef .tc main_v26)) (V (Proc.devRef .tc main_v1)) := by
  after_results_simp
  simp only [ofBuf_toBuf]
  rw [ofBuf_src, ofBuf_nodes1, toBuf_take1]
  rfl

/-- The same for the third layer, over the second layer's node states. -/
theorem after_hostOps5_take :
    StableHlo.after (Gen.hostOps5 (F := Ideal)) V (Proc.devRef .tc main_v56)
      = takeK (V (Proc.devRef .tc main_v49)) (V (Proc.devRef .tc main_v1)) := by
  after_results_simp
  simp only [ofBuf_toBuf]
  rw [ofBuf_src, ofBuf_nodes2, toBuf_take2]
  rfl

end Readings

end Cert.KernelIdeal.SrcRange

end
-- ==== Proof.ChainParts.lean ====
/-
  The kernel program's launch arguments and layer weights by name, its two irregular steps as functions,
  and what the clamp-at-zero stretch of each layer leaves.

  `gK` gathers each edge's source row the way the kernel program does: through the wrapped index, with an
  out-of-range row replaced by a fill value.  `sK` sums per-edge rows into their destination rows, from zeros.
  The weights of layer `l` are read straight off the stacked arguments.
-/
import proofs.«424603_j55843164783469_3_alg».proof.Proof.ChainDefs
import proofs.«424603_j55843164783469_3_alg».proof.Proof.SrcRange

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ)

/-- The node features as launched. -/
abbrev arg0 (c : Dev nD) : FVec Ideal S100000x64 .f32 := m ((c : Thread nD τ).loc main_arg0)
/-- The edge attributes as launched. -/
abbrev arg1 (c : Dev nD) : FVec Ideal S1600000x32 .f32 := m ((c : Thread nD τ).loc main_arg1)
/-- The stacked edge-projection weights. -/
abbrev arg2 (c : Dev nD) : FVec Ideal S3x32x64 .f32 := m ((c : Thread nD τ).loc main_arg2)
/-- The stacked edge-projection biases. -/
abbrev arg3 (c : Dev nD) : FVec Ideal S3x64 .f32 := m ((c : Thread nD τ).loc main_arg3)
/-- The stacked first perceptron weights. -/
abbrev arg4 (c : Dev nD) : FVec Ideal S3x64x64 .f32 := m ((c : Thread nD τ).loc main_arg4)
/-- The stacked first perceptron biases. -/
abbrev arg5 (c : Dev nD) : FVec Ideal S3x64 .f32 := m ((c : Thread nD τ).loc main_arg5)
/-- The stacked second perceptron weights. -/
abbrev arg6 (c : Dev nD) : FVec Ideal S3x64x64 .f32 := m ((c : Thread nD τ).loc main_arg6)
/-- The stacked second perceptron biases. -/
abbrev arg7 (c : Dev nD) : FVec Ideal S3x64 .f32 := m ((c : Thread nD τ).loc main_arg7)
/-- The edge list: row 0 the sources, row 1 the destinations. -/
abbrev arg8 (c : Dev nD) : IVec S2x1600000 32 := m ((c : Thread nD τ).loc main_arg8)

abbrev WeK (c : Dev nD) : Fin 3 → Fin 32 → Fin 64 → EReal := fun l k j => arg2 m c (ix3 l k j)
abbrev beK (c : Dev nD) : Fin 3 → Fin 64 → EReal := fun l j => arg3 m c (ix2 l j)
abbrev W1K (c : Dev nD) : Fin 3 → Fin 64 → Fin 64 → EReal := fun l k j => arg4 m c (ix3 l k j)
abbrev b1K (c : Dev nD) : Fin 3 → Fin 64 → EReal := fun l j => arg5 m c (ix2 l j)
abbrev W2K (c : Dev nD) : Fin 3 → Fin 64 → Fin 64 → EReal := fun l k j => arg6 m c (ix3 l k j)
abbrev b2K (c : Dev nD) : Fin 3 → Fin 64 → EReal := fun l j => arg7 m c (ix2 l j)

/-- Each edge's source row, as the kernel program gathers it. -/
def gK (c : Dev nD) : Cert.Layer.Nodes → Cert.Layer.Edges :=
  fun H => SrcRange.takeK H (SrcRange.srcK (arg8 m c))

/-- Per-edge rows summed into their destination rows. -/
def sK (c : Dev nD) : Cert.Layer.Edges → Cert.Layer.Nodes :=
  fun M => sctK (dstK (arg8 m c)) M

/-- A message array built from gathered rows `G` and projected attributes given index by index is the layer's
    message function. -/
theorem msgK_eq_msg (G : Cert.Layer.Edges) (EA : Cert.Layer.EAttr) (W : Fin 32 → Fin 64 → EReal) (b : Fin 64 → EReal) :
    msgK G (fun i => Cert.Spec.projRow (fun k => EA (ix2 (i 0) k)) W b (i 1)) = Cert.Layer.msg G EA W b := by
  funext i
  rw [msgK_apply]
  rfl

variable (V : Valuation τ sig (Elt Ideal))

set_option maxHeartbeats 1000000 in
/-- Layer 0's clamp: the sum of gathered rows and projected attributes against zeros. -/
theorem relu0 : StableHlo.after (hostOps1_2 (F := Ideal)) V (Proc.devRef .tc main_v12)
    = maximumf (F := Ideal) (V (Proc.devRef .tc main_v11)) zerosE := by
  after_results_simp
  simp only [SrcRange.ofBuf_toBuf]
  rfl

set_option maxHeartbeats 1000000 in
/-- Layer 1's clamp. -/
theorem relu1 : StableHlo.after (hostOps3_2 (F := Ideal)) V (Proc.devRef .tc main_v35)
    = maximumf (F := Ideal) (V (Proc.devRef .tc main_v34)) zerosE := by
  after_results_simp
  simp only [SrcRange.ofBuf_toBuf]
  rfl

set_option maxHeartbeats 1000000 in
/-- Layer 2's clamp. -/
theorem relu2 : StableHlo.after (hostOps5_2 (F := Ideal)) V (Proc.devRef .tc main_v58)
    = maximumf (F := Ideal) (V (Proc.devRef .tc main_v57)) zerosE := by
  after_results_simp
  simp only [SrcRange.ofBuf_toBuf]
  rfl

end Cert.KernelIdeal.Chain

end
-- ==== Proof.EdgeValue.lean ====
/-
  What the three edge-projection regions leave in their output arrays.

  Each region runs the same body over 125 blocks of 12800 edges: a block of attribute rows times the
  [32, 64] weight matrix, plus the bias row.  On the extended reals the narrowing of the operands is the
  identity and the product into a zero accumulator is a plain sum, so row r, column j of a block's result is
  (∑ k, ea r k * W k j) + b j — the projected row of Spec.lean.  Block t of the attributes is rows
  12800 t … 12800 t + 12799 of the attribute array and lands on the same rows of the output; the weight and
  bias windows always hold their whole arrays.  The 125 blocks tile the 1600000 rows, so the output array
  ends as ONE function of the three arrays the region finds: every edge's projected attribute row.

  The statements are generic in the contents V the region is entered at, so the same text serves the three
  layers; regions 2 and 4 repeat region 0 with their own windows.
-/
import proofs.«424603_j55843164783469_3_alg».proof.Proof.Gen.KernelIdeal.Frame
import proofs.«424603_j55843164783469_3_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.EdgeValue
open Cert.KernelIdeal Cert.KernelIdeal.Gen Idealize.ShloMosaic Idealize.ShloMosaic.ValueIdx
open Idealize.ShloMosaic.TcCoe
open Idealize.ShloMosaic.Pipeline (Dat)
open scoped BigOperators

/-! ## One block: the payload at an index -/

/-- The zero offsets of a whole-block access, however they are spelt. -/
theorem zero_off : (![0, 0] : Fin 2 → Nat) = fun _ => 0 := funext fun a => by
  match a with
  | ⟨0, _⟩ => rfl
  | ⟨1, _⟩ => rfl

/-- The contraction of a [12800,32] block with a [32,64] matrix: rows by columns over the 32 shared coordinates. -/
abbrev D := dot_S12800x32_S32x64_S12800x64_1_0_0_1_n_n

theorem lhs_row (i : S12800x64.Idx) (q : D.contr.Idx) : (D.lhsIdx i q 0).val = (i 0).val := by
  unfold DotDims.lhsIdx
  rw [dif_neg (show ¬(0 : Fin S12800x32.rank) ∈ D.lhsBatch by decide), dif_pos (show (0 : Fin S12800x32.rank) ∈ D.lhsNonContracting by decide)]
  rfl
theorem lhs_mid (i : S12800x64.Idx) (q : D.contr.Idx) : (D.lhsIdx i q 1).val = (q ⟨0, by decide⟩).val :=
  D.lhsIdx_val_of_single rfl i q
theorem rhs_mid (i : S12800x64.Idx) (q : D.contr.Idx) : (D.rhsIdx i q 0).val = (q ⟨0, by decide⟩).val :=
  D.rhsIdx_val_of_single rfl i q
theorem rhs_col (i : S12800x64.Idx) (q : D.contr.Idx) : (D.rhsIdx i q 1).val = (i 1).val := by
  unfold DotDims.rhsIdx
  rw [dif_neg (show ¬(1 : Fin S32x64.rank) ∈ D.rhsBatch by decide), dif_pos (show (1 : Fin S32x64.rank) ∈ D.rhsNonContracting by decide)]
  rfl

/-- The block product into a zero accumulator, read at row r and column j, is the sum over the shared coordinate. -/
theorem prod_apply {φ₁ φ₂ : FTy} (a : FVec Ideal S12800x32 φ₁) (b : FVec Ideal S32x64 φ₂) (r : Fin 12800) (j : Fin 64) :
    matmul D none a b (constant (F := Ideal) S12800x64 .f32 0x00000000#32) (ix2 r j) = ∑ k : Fin 32, a (ix2 r k) * b (ix2 k j) := by
  refine (Ideal.matmul_constant_zero_apply D none a b (ix2 r j)).trans ?_
  rw [← Equiv.sum_comp (contrEquiv1 D 32 rfl rfl).symm]
  refine Finset.sum_congr rfl fun k _ => ?_
  have hk := contrEquiv1_symm_val D 32 rfl rfl k
  have el : D.lhsIdx (ix2 r j) ((contrEquiv1 D 32 rfl rfl).symm k) = ix2 r k := funext fun ax => Fin.ext (by
    match ax with
    | ⟨0, _⟩ => exact lhs_row _ _
    | ⟨1, _⟩ => exact (lhs_mid _ _).trans hk)
  have er : D.rhsIdx (ix2 r j) ((contrEquiv1 D 32 rfl rfl).symm k) = ix2 k j := funext fun ax => Fin.ext (by
    match ax with
    | ⟨0, _⟩ => exact (rhs_mid _ _).trans hk
    | ⟨1, _⟩ => exact rhs_col _ _)
  rw [el, er]

/-- The bias row spread over the 12800 rows of a block reads, at any row, the bias at that column. -/
theorem bias_apply (b : FVec Ideal S1x64 .f32) (r : Fin 12800) (j : Fin 64) :
    broadcastTo S12800x64 b broadcasts_S1x64_S12800x64 (ix2 r j) = b (ix2 0 j) := by
  refine broadcastTo_apply b broadcasts_S1x64_S12800x64 (ix2 r j) (ix2 0 j) fun ax => ?_
  match ax with
  | ⟨0, _⟩ => rfl
  | ⟨1, _⟩ => rfl

/-- THE PAYLOAD AT AN INDEX: row r, column j of what the body stores is the projected row of the block's row r. -/
theorem pay_apply (v0 : Vec Ideal S12800x32 .f32) (v2 : Vec Ideal S32x64 .f32) (v6 : Vec Ideal S1x64 .f32) (r : Fin 12800) (j : Fin 64) :
    k0_pay1 (F := Ideal) v0 v2 v6 (ix2 r j)
      = Cert.Spec.projRow (fun k => v0 (ix2 r k)) (fun k j => v2 (ix2 k j)) (fun j => v6 (ix2 0 j)) j := by
  unfold k0_pay1 Cert.Spec.projRow
  simp only [shapeCast_self]
  refine (addf_apply _ _ (ix2 r j)).trans ?_
  rw [prod_apply, bias_apply]
  rfl

/-- ONE POINT OF A BLOCK. If row (y 0) of the attribute block is row (i 0) of the attribute array, the weight and
    bias blocks are the whole weight and bias arrays, and the columns agree, the payload at y is the projected
    row of edge (i 0) at column (i 1). -/
theorem block_point (x0 : Vec Ideal S12800x32 .f32) (x1 : Vec Ideal S32x64 .f32) (x2 : Vec Ideal S1x64 .f32)
    (A : Cert.Layer.EAttr) (W : S32x64.Idx → EReal) (B : S1x64.Idx → EReal)
    (y : S12800x64.Idx) (i : S1600000x64.Idx)
    (h0 : ∀ k : Fin 32, x0 (ix2 (y 0) k) = A (ix2 (i 0) k))
    (h1 : x1 = W) (h2 : x2 = B) (hj : (i 1).val = (y 1).val) :
    k0_pay1 (F := Ideal) x0 x1 x2 y
      = Cert.Spec.projRow (fun k => A (ix2 (i 0) k)) (fun k j => W (ix2 k j)) (fun j => B (ix2 0 j)) (i 1) := by
  subst h1 h2
  obtain ⟨r, j, rfl⟩ : ∃ (r : Fin 12800) (j : Fin 64), y = ix2 r j := ⟨y 0, y 1, eq_ix2 y⟩
  have hj' : (i 1 : Fin 64) = j := Fin.ext hj
  refine (pay_apply x0 x1 x2 r j).trans ?_
  unfold Cert.Spec.projRow
  rw [hj']
  exact congrArg (· + x2 (ix2 0 j)) (Finset.sum_congr rfl fun k _ => congrArg (· * x1 (ix2 k j)) (h0 k))

/-- The second and third projection bodies compute the first one's payload. -/
theorem pay2_same (v0 : Vec Ideal S12800x32 .f32) (v2 : Vec Ideal S32x64 .f32) (v6 : Vec Ideal S1x64 .f32) :
    k2_pay1 (F := Ideal) v0 v2 v6 = k0_pay1 (F := Ideal) v0 v2 v6 := rfl
theorem pay4_same (v0 : Vec Ideal S12800x32 .f32) (v2 : Vec Ideal S32x64 .f32) (v6 : Vec Ideal S1x64 .f32) :
    k4_pay1 (F := Ideal) v0 v2 v6 = k0_pay1 (F := Ideal) v0 v2 v6 := rfl

/-! ## Region 0 -/

section Region0

variable (V : (c : Dev nD) → (b : Ref sig .tc) → Buf (Elt Ideal) ((c : Thread nD τ).loc b))

/-- What the region leaves in its output array: every edge's projected attribute row, as one function of the
    three arrays the region finds. -/
abbrev proj0 (c : Dev nD) : Cert.Layer.Edges := fun i =>
  Cert.Spec.projRow (fun k => (V c (Pipeline.arrRef spec0 0) : Cert.Layer.EAttr) (ix2 (i 0) k))
    (fun k j => (V c (Pipeline.arrRef spec0 1) : S32x64.Idx → EReal) (ix2 k j))
    (fun j => (V c (Pipeline.arrRef spec0 2) : S1x64.Idx → EReal) (ix2 0 j)) (i 1)

/-- The index maps over the 125 points: the attribute and output windows sit at block row t, the weight and
    bias windows at the one block there is. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- WHAT POINT t WRITES BACK is block t of the projected rows: the attribute block's row r is edge
    12800 t + r, where the output block's row r lands; the weight and bias blocks are the whole arrays. -/
theorem flushed0_eq (c : Dev nD) (t : Fin cfg0.N) :
    (dat0 (F := Ideal) V c).flushed 3 t = ((cfg0.win 3).blk t).view.read (Elt Ideal) (proj0 V c) := by
  show (cfg0.win 3).cut (grid0.coords t) ((dat0 (F := Ideal) V c).after 3 t) = _
  rw [after0_3]
  unfold out0_3
  rw [View.canon_unit_zero zero_off]
  simp only [View.ld_unit_zero (S := S12800x32) zero_off, View.ld_unit_zero (S := S32x64) zero_off,
    View.ld_unit_zero (S := S1x64) zero_off]
  obtain ⟨e0, e1, e2, e3, e4, e5, e6, e7⟩ := idx_facts0 t
  refine funext fun (y : S12800x64.Idx) => ?_
  show k0_pay1 (F := Ideal) (iblk0 V c 0 t) (iblk0 V c 1 t) (iblk0 V c 2 t) y
      = proj0 V c (((cfg0.win 3).blk t).view.emb y)
  have h0 : ∀ k : Fin 32, (iblk0 V c 0 t : Vec Ideal S12800x32 .f32) (ix2 (y 0) k)
      = (V c (Pipeline.arrRef spec0 0) : Cert.Layer.EAttr) (ix2 ((((cfg0.win 3).blk t).view.emb y) 0) k) := by
    intro k
    show V c (Pipeline.arrRef spec0 0) (((cfg0.win 0).blk t).view.emb (ix2 (y 0) k)) = _
    refine congrArg (V c (Pipeline.arrRef spec0 0)) (funext fun a => Fin.ext ?_)
    match a with
    | ⟨0, _⟩ =>
      show win0_0.index t (0 : Fin 2) * 12800 + 1 * (y 0).val = win0_3.index t (0 : Fin 2) * 12800 + 1 * (y 0).val
      omega
    | ⟨1, _⟩ =>
      show win0_0.index t (1 : Fin 2) * 32 + 1 * k.val = k.val
      omega
  have h1 : (iblk0 V c 1 t : Vec Ideal S32x64 .f32) = (V c (Pipeline.arrRef spec0 1) : S32x64.Idx → EReal) := by
    refine funext fun (z : S32x64.Idx) => ?_
    show V c (Pipeline.arrRef spec0 1) (((cfg0.win 1).blk t).view.emb z) = _
    refine congrArg (V c (Pipeline.arrRef spec0 1)) (funext fun a => Fin.ext ?_)
    match a with
    | ⟨0, _⟩ =>
      show win0_1.index t (0 : Fin 2) * 32 + 1 * (z 0).val = (z 0).val
      omega
    | ⟨1, _⟩ =>
      show win0_1.index t (1 : Fin 2) * 64 + 1 * (z 1).val = (z 1).val
      omega
  have h2 : (iblk0 V c 2 t : Vec Ideal S1x64 .f32) = (V c (Pipeline.arrRef spec0 2) : S1x64.Idx → EReal) := by
    refine funext fun (z : S1x64.Idx) => ?_
    show V c (Pipeline.arrRef spec0 2) (((cfg0.win 2).blk t).view.emb z) = _
    refine congrArg (V c (Pipeline.arrRef spec0 2)) (funext fun a => Fin.ext ?_)
    match a with
    | ⟨0, _⟩ =>
      show win0_2.index t (0 : Fin 2) * 1 + 1 * (z 0).val = (z 0).val
      omega
    | ⟨1, _⟩ =>
      show win0_2.index t (1 : Fin 2) * 64 + 1 * (z 1).val = (z 1).val
      omega
  have hj : ((((cfg0.win 3).blk t).view.emb y) 1).val = (y 1).val := by
    show win0_3.index t (1 : Fin 2) * 64 + 1 * (y 1).val = (y 1).val
    omega
  exact block_point (iblk0 V c 0 t) (iblk0 V c 1 t) (iblk0 V c 2 t)
    (V c (Pipeline.arrRef spec0 0)) (V c (Pipeline.arrRef spec0 1)) (V c (Pipeline.arrRef spec0 2))
    y (((cfg0.win 3).blk t).view.emb y) h0 h1 h2 hj

/-- An index of the output array is in point t's block iff each coordinate is in the block's range on its axis. -/
theorem mem_blk0 (t : Fin cfg0.N) (i : S1600000x64.Idx) :
    i ∈ ((cfg0.win 3).blk t).view.set ↔ ∀ a : Fin 2, win0_3.index t a * S12800x64.size a ≤ (i a).val
      ∧ (i a).val < win0_3.index t a * S12800x64.size a + S12800x64.size a := by
  show i ∈ ((View.whole main_v9).slice (win0_3.rect t)).set ↔ _
  rw [View.set_slice_whole, Rect.mem_set_unit]
  exact Iff.rfl

/-- EVERY EDGE ROW IS WRITTEN: row r lies in the block of point r / 12800, and 125 blocks of 12800 rows are
    the 1600000 rows. -/
theorem cover0 (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  obtain ⟨t, ht⟩ : ∃ t : Fin cfg0.N, t.val = (i 0).val / 12800 :=
    ⟨⟨(i 0).val / 12800, by rw [show cfg0.N = 125 from N_0]; omega⟩, rfl⟩
  obtain ⟨e0, e1, e2, e3, e4, e5, e6, e7⟩ := idx_facts0 t
  refine ⟨t, flush0_3 t, ?_⟩
  rw [mem_blk0]
  intro a
  match a with
  | ⟨0, _⟩ =>
    show win0_3.index t (0 : Fin 2) * 12800 ≤ (i 0).val ∧ (i 0).val < win0_3.index t (0 : Fin 2) * 12800 + 12800
    omega
  | ⟨1, _⟩ =>
    show win0_3.index t (1 : Fin 2) * 64 ≤ (i 1).val ∧ (i 1).val < win0_3.index t (1 : Fin 2) * 64 + 64
    omega

/-- THE OUTPUT ARRAY after the region: every edge's projected attribute row. -/
theorem final0 (c : Dev nD) : (dat0 (F := Ideal) V c).arrAt 3 cfg0.N
    = (fun i => Cert.Spec.projRow (fun k => (V c (Pipeline.arrRef spec0 0) : Cert.Layer.EAttr) (ix2 (i 0) k))
        (fun k j => (V c (Pipeline.arrRef spec0 1) : S32x64.Idx → EReal) (ix2 k j))
        (fun j => (V c (Pipeline.arrRef spec0 2) : S1x64.Idx → EReal) (ix2 0 j)) (i 1) : Cert.Layer.Edges) :=
  (dat0 (F := Ideal) V c).arrAt_eq_of_cover 3 (proj0 V c) (fun t _ => flushed0_eq V c t) (cover0)

end Region0

/-! ## Region 2 -/

section Region2

variable (V : (c : Dev nD) → (b : Ref sig .tc) → Buf (Elt Ideal) ((c : Thread nD τ).loc b))

/-- What the region leaves in its output array: every edge's projected attribute row, as one function of the
    three arrays the region finds. -/
abbrev proj2 (c : Dev nD) : Cert.Layer.Edges := fun i =>
  Cert.Spec.projRow (fun k => (V c (Pipeline.arrRef spec2 0) : Cert.Layer.EAttr) (ix2 (i 0) k))
    (fun k j => (V c (Pipeline.arrRef spec2 1) : S32x64.Idx → EReal) (ix2 k j))
    (fun j => (V c (Pipeline.arrRef spec2 2) : S1x64.Idx → EReal) (ix2 0 j)) (i 1)

/-- The index maps over the 125 points: the attribute and output windows sit at block row t, the weight and
    bias windows at the one block there is. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
/-- WHAT POINT t WRITES BACK is block t of the projected rows: the attribute block's row r is edge
    12800 t + r, where the output block's row r lands; the weight and bias blocks are the whole arrays. -/
theorem flushed2_eq (c : Dev nD) (t : Fin cfg2.N) :
    (dat2 (F := Ideal) V c).flushed 3 t = ((cfg2.win 3).blk t).view.read (Elt Ideal) (proj2 V c) := by
  show (cfg2.win 3).cut (grid2.coords t) ((dat2 (F := Ideal) V c).after 3 t) = _
  rw [after2_3]
  unfold out2_3
  rw [View.canon_unit_zero zero_off]
  simp only [View.ld_unit_zero (S := S12800x32) zero_off, View.ld_unit_zero (S := S32x64) zero_off,
    View.ld_unit_zero (S := S1x64) zero_off]
  obtain ⟨e0, e1, e2, e3, e4, e5, e6, e7⟩ := idx_facts2 t
  refine funext fun (y : S12800x64.Idx) => ?_
  show k2_pay1 (F := Ideal) (iblk2 V c 0 t) (iblk2 V c 1 t) (iblk2 V c 2 t) y
      = proj2 V c (((cfg2.win 3).blk t).view.emb y)
  have h0 : ∀ k : Fin 32, (iblk2 V c 0 t : Vec Ideal S12800x32 .f32) (ix2 (y 0) k)
      = (V c (Pipeline.arrRef spec2 0) : Cert.Layer.EAttr) (ix2 ((((cfg2.win 3).blk t).view.emb y) 0) k) := by
    intro k
    show V c (Pipeline.arrRef spec2 0) (((cfg2.win 0).blk t).view.emb (ix2 (y 0) k)) = _
    refine congrArg (V c (Pipeline.arrRef spec2 0)) (funext fun a => Fin.ext ?_)
    match a with
    | ⟨0, _⟩ =>
      show win2_0.index t (0 : Fin 2) * 12800 + 1 * (y 0).val = win2_3.index t (0 : Fin 2) * 12800 + 1 * (y 0).val
      omega
    | ⟨1, _⟩ =>
      show win2_0.index t (1 : Fin 2) * 32 + 1 * k.val = k.val
      omega
  have h1 : (iblk2 V c 1 t : Vec Ideal S32x64 .f32) = (V c (Pipeline.arrRef spec2 1) : S32x64.Idx → EReal) := by
    refine funext fun (z : S32x64.Idx) => ?_
    show V c (Pipeline.arrRef spec2 1) (((cfg2.win 1).blk t).view.emb z) = _
    refine congrArg (V c (Pipeline.arrRef spec2 1)) (funext fun a => Fin.ext ?_)
    match a with
    | ⟨0, _⟩ =>
      show win2_1.index t (0 : Fin 2) * 32 + 1 * (z 0).val = (z 0).val
      omega
    | ⟨1, _⟩ =>
      show win2_1.index t (1 : Fin 2) * 64 + 1 * (z 1).val = (z 1).val
      omega
  have h2 : (iblk2 V c 2 t : Vec Ideal S1x64 .f32) = (V c (Pipeline.arrRef spec2 2) : S1x64.Idx → EReal) := by
    refine funext fun (z : S1x64.Idx) => ?_
    show V c (Pipeline.arrRef spec2 2) (((cfg2.win 2).blk t).view.emb z) = _
    refine congrArg (V c (Pipeline.arrRef spec2 2)) (funext fun a => Fin.ext ?_)
    match a with
    | ⟨0, _⟩ =>
      show win2_2.index t (0 : Fin 2) * 1 + 1 * (z 0).val = (z 0).val
      omega
    | ⟨1, _⟩ =>
      show win2_2.index t (1 : Fin 2) * 64 + 1 * (z 1).val = (z 1).val
      omega
  have hj : ((((cfg2.win 3).blk t).view.emb y) 1).val = (y 1).val := by
    show win2_3.index t (1 : Fin 2) * 64 + 1 * (y 1).val = (y 1).val
    omega
  refine (congrFun (pay2_same (iblk2 V c 0 t) (iblk2 V c 1 t) (iblk2 V c 2 t)) y).trans ?_
  exact block_point (iblk2 V c 0 t) (iblk2 V c 1 t) (iblk2 V c 2 t)
    (V c (Pipeline.arrRef spec2 0)) (V c (Pipeline.arrRef spec2 1)) (V c (Pipeline.arrRef spec2 2))
    y (((cfg2.win 3).blk t).view.emb y) h0 h1 h2 hj

/-- An index of the output array is in point t's block iff each coordinate is in the block's range on its axis. -/
theorem mem_blk2 (t : Fin cfg2.N) (i : S1600000x64.Idx) :
    i ∈ ((cfg2.win 3).blk t).view.set ↔ ∀ a : Fin 2, win2_3.index t a * S12800x64.size a ≤ (i a).val
      ∧ (i a).val < win2_3.index t a * S12800x64.size a + S12800x64.size a := by
  show i ∈ ((View.whole main_v32).slice (win2_3.rect t)).set ↔ _
  rw [View.set_slice_whole, Rect.mem_set_unit]
  exact Iff.rfl

/-- EVERY EDGE ROW IS WRITTEN: row r lies in the block of point r / 12800, and 125 blocks of 12800 rows are
    the 1600000 rows. -/
theorem cover2 (i : S1600000x64.Idx) :
    ∃ t : Fin cfg2.N, (cfg2.win 3).flush t = true ∧ i ∈ ((cfg2.win 3).blk t).view.set := by
  have hi0 : (i 0).val < 1600000 := (i 0).isLt
  have hi1 : (i 1).val < 64 := (i 1).isLt
  obtain ⟨t, ht⟩ : ∃ t : Fin cfg2.N, t.val = (i 0).val / 12800 :=
    ⟨⟨(i 0).val / 12800, by rw [show cfg2.N = 125 from N_2]; omega⟩, rfl⟩
  obtain ⟨e0, e1, e2, e3, e4, e5, e6, e7⟩ := idx_facts2 t
  refine ⟨t, flush2_3 t, ?_⟩
  rw [mem_blk2]
  intro a
  match a with
  | ⟨0, _⟩ =>
    show win2_3.index t (0 : Fin 2) * 12800 ≤ (i 0).val ∧ (i 0).val < win2_3.index t (0 : Fin 2) * 12800 + 12800
    omega
  | ⟨1, _⟩ =>
    show win2_3.index t (1 : Fin 2) * 64 ≤ (i 1).val ∧ (i 1).val < win2_3.index t (1 : Fin 2) * 64 + 64
    omega

/-- THE OUTPUT ARRAY after the region: every edge's projected attribute row. -/
theorem final2 (c : Dev nD) : (dat2 (F := Ideal) V c).arrAt 3 cfg2.N
    = (fun i => Cert.Spec.projRow (fun k => (V c (Pipeline.arrRef spec2 0) : Cert.Layer.EAttr) (ix2 (i 0) k))
        (fun k j => (V c (Pipeline.arrRef spec2 1) : S32x64.Idx → EReal) (ix2 k j))
        (fun j => (V c (Pipeline.arrRef spec2 2) : S1x64.Idx → EReal) (ix2 0 j)) (i 1) : Cert.Layer.Edges) :=
  (dat2 (F := Ideal) V c).arrAt_eq_of_cover 3 (proj2 V c) (fun t _ => flushed2_eq V c t) (cover2)

end Region2

/-! ## Region 4 -/

section Region4

variable (V : (c : Dev nD) → (b : Ref sig .tc) → Buf (Elt Ideal) ((c : Thread nD τ).loc b))

/-- What the region leaves in its output array: every edge's projected attribute row, as one function of the
    three arrays the region finds. -/
abbrev proj4 (c : Dev nD) : Cert.Layer.Edges := fun i =>
  Cert.Spec.projRow (fun k => (V c (Pipeline.arrRef spec4 0) : Cert.Layer.EAttr) (ix2 (i 0) k))
    (fun k j => (V c (Pipeline.arrRef spec4 1) : S32x64.Idx → EReal) (ix2 k j))
    (fun j => (V c (Pipeline.arrRef spec4 2) : S1x64.Idx → EReal) (ix2 0 j)) (i 1)

/-- The index maps over the 125 points: the attribute and output windows sit at block row t, the weight and
    bias windows at the one block there is. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 1000000 in
/-- WHAT POINT t WRITES BACK is block t of the projected rows: the attribute block's row r is edge
    12800 t + r, where the output block's row r lands; the weight and bias blocks are the whole arrays. -/
theorem flushed4_eq (c : Dev nD) (t : Fin cfg4.N) :
    (dat4 (F := Ideal) V c).flushed 3 t = ((cfg4.win 3).blk t).view.read (Elt Ideal) (proj4 V c) := by
  show (cfg4.win 3).cut (grid4.coords t) ((dat4 (F := Ideal) V c).after 3 t) = _
  rw [after4_3]
  unfold out4_3
  rw [View.canon_unit_zero zero_off]
  simp only [View.ld_unit_zero (S := S12800x32) zero_off, View.ld_unit_zero (S := S32x64) zero_off,
    View.ld_unit_zero (S := S1x64) zero_off]
  obtain ⟨e0, e1, e2, e3, e4, e5, e6, e7⟩ := idx_facts4 t
  refine funext fun (y : S12800x64.Idx) => ?_
  show k4_pay1 (F := Ideal) (iblk4 V c 0 t) (iblk4 V c 1 t) (iblk4 V c 2 t) y
      = proj4 V c (((cfg4.win 3).blk t).view.emb y)
  have h0 : ∀ k : Fin 32, (iblk4 V c 0 t : Vec Ideal S12800x32 .f32) (ix2 (y 0) k)
      = (V c (Pipeline.arrRef spec4 0) : Cert.Layer.EAttr) (ix2 ((((cfg4.win 3).blk t).view.emb y) 0) k) := by
    intro k
    show V c (Pipeline.arrRef spec4 0) (((cfg4.win 0).blk t).view.emb (ix2 (y 0) k)) = _
    refine congrArg (V c (Pipeline.arrRef spec4 0)) (funext fun a => Fin.ext ?_)
    match a with
    | ⟨0, _⟩ =>
      show win4_0.index t (0 : Fin 2) * 12800 + 1 * (y 0).val = win4_3.index t (0 : Fin 2) * 12800 + 1 * (y 0).val
      omega
    | ⟨1, _⟩ =>
      show win4_0.index t (1 : Fin 2) * 32 + 1 * k.val = k.val
      omega
  have h1 : (iblk4 V c 1 t : Vec Ideal S32x64 .f32) = (V c (Pipeline.arrRef spec4 1) : S32x64.Idx → EReal) := by
    refine funext fun (z : S32x64.Idx) => ?_
    show V c (Pipeline.arrRef spec4 1) (((cfg4.win 1).blk t).view.emb z) = _
    refine congrArg (V c (Pipeline.arrRef spec4 1)) (funext fun a => Fin.ext ?_)
    match a with
    | ⟨0, _⟩ =>
      show win4_1.index t (0 : Fin 2) * 32 + 1 * (z 0).val = (z 0).val
      omega
    | ⟨1, _⟩ =>
      show win4_1.index t (1 : Fin 2) * 64 + 1 * (z 1).val = (z 1).val
      omega
  have h2 : (iblk4 V c 2 t : Vec Ideal S1x64 .f32) = (V c (Pipeline.arrRef spec4 2) : S1x64.Idx → EReal) := by
    refine funext fun (z : S1x64.Idx) => ?_
    show V c (Pipeline.arrRef spec4 2) (((cfg4.win 2).blk t).view.emb z) = _
    refine congrArg (V c (Pipeline.arrRef spec4 2)) (funext fun a => Fin.ext ?_)
    match a with
    | ⟨0, _⟩ =>
      show win4_2.index t (0 : Fin 2) * 1 + 1 * (z 0).val = (z 0).val
      omega
    | ⟨1, _⟩ =>
      show win4_2.index t (1 : Fin 2) * 64 + 1 * (z 1).val = (z 1).val
      omega
  have hj : ((((cfg4.win 3).blk t).view.emb y) 1).val = (y 1).val := by
    show win4_3.index t (1 : Fin 2) * 64 + 1 * (y 1).val = (y 1).val
    omega
  refine (congrFun (pay4_same (iblk4 V c 0 t) (iblk4 V c 1 t) (iblk4 V c 2 t)) y).trans ?_
  exact block_point (iblk4 V c 0 t) (iblk4 V c 1 t) (iblk4 V c 2 t)
    (V c (Pipeline.arrRef spec4 0)) (V c (Pipeline.arrRef spec4 1)) (V c (Pipeline.arrRef spec4 2))
    y (((cfg4.win 3).blk t).view.emb y) h0 h1 h2 hj

/-- An index of the output array is in point t's block iff each coordinate is in the block's range on its axis. -/
theorem mem_blk4 (t : Fin cfg4.N) (i : S1600000x64.Idx) :
    i ∈ ((cfg4.win 3).blk t).view.set ↔ ∀ a : Fin 2, win4_3.index t a * S12800x64.size a ≤ (i a).val
      ∧ (i a).val < win4_3.index t a * S12800x64.size a + S12800x64.size a := by
  show i ∈ ((View.whole main_v55).slice (win4_3.rect t)).set ↔ _
  rw [View.set_slice_whole, Rect.mem_set_unit]
  exact Iff.rfl

/-- EVERY EDGE ROW IS WRITTEN: row r lies in the block of point r / 12800, and 125 blocks of 12800 rows are
    the 1600000 rows. -/
theorem cover4 (i : S1600000x64.Idx) :
    ∃ t : Fin cfg4.N, (cfg4.win 3).flush t = true ∧ i ∈ ((cfg4.win 3).blk t).view.set := by
  have hi0 : (i 0).val < 1600000 := (i 0).isLt
  have hi1 : (i 1).val < 64 := (i 1).isLt
  obtain ⟨t, ht⟩ : ∃ t : Fin cfg4.N, t.val = (i 0).val / 12800 :=
    ⟨⟨(i 0).val / 12800, by rw [show cfg4.N = 125 from N_4]; omega⟩, rfl⟩
  obtain ⟨e0, e1, e2, e3, e4, e5, e6, e7⟩ := idx_facts4 t
  refine ⟨t, flush4_3 t, ?_⟩
  rw [mem_blk4]
  intro a
  match a with
  | ⟨0, _⟩ =>
    show win4_3.index t (0 : Fin 2) * 12800 ≤ (i 0).val ∧ (i 0).val < win4_3.index t (0 : Fin 2) * 12800 + 12800
    omega
  | ⟨1, _⟩ =>
    show win4_3.index t (1 : Fin 2) * 64 ≤ (i 1).val ∧ (i 1).val < win4_3.index t (1 : Fin 2) * 64 + 64
    omega

/-- THE OUTPUT ARRAY after the region: every edge's projected attribute row. -/
theorem final4 (c : Dev nD) : (dat4 (F := Ideal) V c).arrAt 3 cfg4.N
    = (fun i => Cert.Spec.projRow (fun k => (V c (Pipeline.arrRef spec4 0) : Cert.Layer.EAttr) (ix2 (i 0) k))
        (fun k j => (V c (Pipeline.arrRef spec4 1) : S32x64.Idx → EReal) (ix2 k j))
        (fun j => (V c (Pipeline.arrRef spec4 2) : S1x64.Idx → EReal) (ix2 0 j)) (i 1) : Cert.Layer.Edges) :=
  (dat4 (F := Ideal) V c).arrAt_eq_of_cover 3 (proj4 V c) (fun t _ => flushed4_eq V c t) (cover4)

end Region4

end Cert.KernelIdeal.EdgeValue
end
-- ==== Proof.NodeValue.lean ====
/-
  What the three node-update regions leave in their output array, as one function of the whole arrays.

  Each region walks the 100000 rows of the node states in 20 blocks of 5000 rows.  On a block it forms
  z = h + agg, the hidden rows max (z · W₁ + b₁) 0 and the output rows hidden · W₂ + b₂, clamped below at 0
  in the two inner layers and left as they are in the last.  Every one of these steps acts on a row by
  itself, so a block's result at (r, j) is the row law of Spec.lean applied to row r of the two input
  blocks, and the blocks, which tile the array, assemble to that same law applied to every row of the whole
  arrays.  The region's entry contents are a parameter: nothing is assumed about where the arrays came from.
-/
import proofs.«424603_j55843164783469_3_alg».proof.Proof.Gen.KernelIdeal.Frame
import proofs.«424603_j55843164783469_3_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Cert.KernelIdeal Cert.KernelIdeal.Gen Idealize.ShloMosaic Idealize.ShloMosaic.ValueIdx Idealize.ShloMosaic.TcCoe
open Idealize.ShloMosaic.Pipeline (Dat)
open scoped BigOperators

/-! ## A [5000, 64] × [64, 64] product read at an index

The product contracts the left operand's columns against the right operand's rows: at output index (r, j)
and contraction coordinate k the factors sit at (r, k) and (k, j). -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into a zero accumulator at (r, j): the sum over the 64 shared coordinates of
    left (r, k) times right (k, j). -/
theorem matmul_at {φ₁ φ₂ : FTy} (A : FVec Ideal S5000x64 φ₁) (B : FVec Ideal S64x64 φ₂) (r : Fin 5000) (j : Fin 64) :
    matmul dot_S5000x64_S64x64_S5000x64_1_0_0_1_n_n none A B (constant S5000x64 .f32 0x00000000#32) (ix2 r j)
      = ∑ k : Fin 64, A (ix2 r k) * B (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 r j) ((contrEquiv1 dot_S5000x64_S64x64_S5000x64_1_0_0_1_n_n 64 rfl rfl).symm k) = ix2 k j :=
    funext fun a => Fin.ext (by
      match a with
      | ⟨0, _⟩ => exact (rhs_row _ _).trans hk
      | ⟨1, _⟩ => exact rhs_col _ _)
  rw [el, er]

/-! ## The body's arithmetic at an index

Every step of the body acts index by index except the two products, which `matmul_at` reads; the bias rows are
one row repeated down the block, and the two format changes around each product do nothing to a real number. -/

/-- The zero the clamps compare against is the real number 0. -/
theorem zero_word : (Scalar.ofBits .f32 0x00000000#32 : Ideal .f32) = 0 := Ideal.ofBits_zero_f32

/-- The first inner layer's block result at (r, j) is the clamped row law of row r of the two input blocks. -/
theorem pay1_at (v0 v1 : Vec Ideal S5000x64 .f32) (v5 : Vec Ideal S64x64 .f32) (v9 : Vec Ideal S1x64 .f32)
    (v17 : Vec Ideal S64x64 .f32) (v21 : Vec Ideal S1x64 .f32) (r : Fin 5000) (j : Fin 64) :
    k1_pay1 (F := Ideal) v0 v1 v5 v9 v17 v21 (ix2 r j)
      = Cert.Spec.updRow (fun k => v0 (ix2 r k)) (fun k => v1 (ix2 r k)) (fun k j => v5 (ix2 k j)) (fun j => v9 (ix2 0 j))
          (fun k j => v17 (ix2 k j)) (fun j => v21 (ix2 0 j)) j := by
  unfold k1_pay1
  simp only [shapeCast_self, maximumf_apply, addf_apply, truncf_apply, broadcast_apply, broadcastTo_1b_ab_apply, matmul_at, zero_word]
  rfl

/-- The second inner layer's block result: the same law (its body differs by a cast to the same shape). -/
theorem pay3_at (v0 v2 : Vec Ideal S5000x64 .f32) (v6 : Vec Ideal S64x64 .f32) (v10 : Vec Ideal S1x64 .f32)
    (v18 : Vec Ideal S64x64 .f32) (v22 : Vec Ideal S1x64 .f32) (r : Fin 5000) (j : Fin 64) :
    k3_pay1 (F := Ideal) v0 v2 v6 v10 v18 v22 (ix2 r j)
      = Cert.Spec.updRow (fun k => v0 (ix2 r k)) (fun k => v2 (ix2 r k)) (fun k j => v6 (ix2 k j)) (fun j => v10 (ix2 0 j))
          (fun k j => v18 (ix2 k j)) (fun j => v22 (ix2 0 j)) j := by
  unfold k3_pay1
  simp only [shapeCast_self, maximumf_apply, addf_apply, truncf_apply, broadcast_apply, broadcastTo_1b_ab_apply, matmul_at, zero_word]
  rfl

/-- The last layer's block result at (r, j): the row law without the closing clamp. -/
theorem pay5_at (v0 v2 : Vec Ideal S5000x64 .f32) (v6 : Vec Ideal S64x64 .f32) (v10 : Vec Ideal S1x64 .f32)
    (v18 : Vec Ideal S64x64 .f32) (v22 : Vec Ideal S1x64 .f32) (r : Fin 5000) (j : Fin 64) :
    k5_pay1 (F := Ideal) v0 v2 v6 v10 v18 v22 (ix2 r j)
      = Cert.Spec.outRow (fun k => v0 (ix2 r k)) (fun k => v2 (ix2 r k)) (fun k j => v6 (ix2 k j)) (fun j => v10 (ix2 0 j))
          (fun k j => v18 (ix2 k j)) (fun j => v22 (ix2 0 j)) j := by
  unfold k5_pay1
  simp only [shapeCast_self, maximumf_apply, addf_apply, truncf_apply, broadcast_apply, broadcastTo_1b_ab_apply, matmul_at, zero_word]
  rfl

/-- Offsets written as a pair of zeros are the zero offsets. -/
theorem zero_off : (![0, 0] : Fin 2 → Nat) = fun _ => 0 := funext fun a => by fin_cases a <;> rfl

variable (V : (c : Dev nD) → (b : Ref sig .tc) → Buf (Elt Ideal) ((c : Thread nD τ).loc b))

/-! ## Region 1: the first inner layer's node update -/

section Region1

/-- The body's one store fills its staging buffer and its loads read whole blocks, so what the body leaves is the
    payload of the six input blocks. -/
theorem out1_eq (x0 x1 : Vec Ideal S5000x64 .f32) (x2 : Vec Ideal S64x64 .f32) (x3 : Vec Ideal S1x64 .f32)
    (x4 : Vec Ideal S64x64 .f32) (x5 : Vec Ideal S1x64 .f32) :
    out1_6 (F := Ideal) x0 x1 x2 x3 x4 x5 = k1_pay1 (F := Ideal) x0 x1 x2 x3 x4 x5 := by
  unfold out1_6
  rw [View.canon_unit_zero zero_off]
  simp only [View.ld_unit_zero (S := S5000x64) zero_off, View.ld_unit_zero (S := S64x64) zero_off, View.ld_unit_zero (S := S1x64) zero_off]

/-- The index maps over the 20 grid points: the two row windows and the output sit at block (t, 0), the four
    weight windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the block of window 0 at point t is row 5000 t + r of its array. -/
theorem rows1_0 (c : Dev nD) (t : Fin cfg1.N) (r : Fin 5000) (n : Fin 100000) (hn : n.val = t.val * 5000 + r.val) :
    (fun k : Fin 64 => (iblk1 V c 0 t : Vec Ideal S5000x64 .f32) (ix2 r k))
      = fun k : Fin 64 => (V c (Pipeline.arrRef spec1 0) : S100000x64.Idx → EReal) (ix2 n k) := by
  obtain ⟨e0, e1, -⟩ := idx_facts1 t
  funext k
  unfold iblk1
  rw [View.read_apply]
  show V c (Pipeline.arrRef spec1 0) (((cfg1.win 0).blk t).view.emb (ix2 r k)) = V c (Pipeline.arrRef spec1 0) (ix2 n k)
  refine congrArg _ (funext fun a => Fin.ext ?_)
  match a with
  | ⟨0, _⟩ => show win1_0.index t (0 : Fin 2) * 5000 + 1 * r.val = n.val; rw [e0, hn]; omega
  | ⟨1, _⟩ => show win1_0.index t (1 : Fin 2) * 64 + 1 * k.val = k.val; rw [e1]; omega

/-- The same for window 1. -/
theorem rows1_1 (c : Dev nD) (t : Fin cfg1.N) (r : Fin 5000) (n : Fin 100000) (hn : n.val = t.val * 5000 + r.val) :
    (fun k : Fin 64 => (iblk1 V c 1 t : Vec Ideal S5000x64 .f32) (ix2 r k))
      = fun k : Fin 64 => (V c (Pipeline.arrRef spec1 1) : S100000x64.Idx → EReal) (ix2 n k) := by
  obtain ⟨-, -, e0, e1, -⟩ := idx_facts1 t
  funext k
  unfold iblk1
  rw [View.read_apply]
  show V c (Pipeline.arrRef spec1 1) (((cfg1.win 1).blk t).view.emb (ix2 r k)) = V c (Pipeline.arrRef spec1 1) (ix2 n k)
  refine congrArg _ (funext fun a => Fin.ext ?_)
  match a with
  | ⟨0, _⟩ => show win1_1.index t (0 : Fin 2) * 5000 + 1 * r.val = n.val; rw [e0, hn]; omega
  | ⟨1, _⟩ => show win1_1.index t (1 : Fin 2) * 64 + 1 * k.val = k.val; rw [e1]; omega

/-- The block of window 2 is its whole [64, 64] array at every point. -/
theorem whole1_2 (c : Dev nD) (t : Fin cfg1.N) :
    (fun k j : Fin 64 => (iblk1 V c 2 t : Vec Ideal S64x64 .f32) (ix2 k j))
      = fun k j : Fin 64 => (V c (Pipeline.arrRef spec1 2) : S64x64.Idx → EReal) (ix2 k j) := by
  obtain ⟨-, -, -, -, e0, e1, -⟩ := idx_facts1 t
  funext k j
  unfold iblk1
  rw [View.read_apply]
  show V c (Pipeline.arrRef spec1 2) (((cfg1.win 2).blk t).view.emb (ix2 k j)) = V c (Pipeline.arrRef spec1 2) (ix2 k j)
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 64 + 1 * j.val = j.val; rw [e1]; omega

/-- The block of window 3 is its whole [1, 64] array at every point. -/
theorem whole1_3 (c : Dev nD) (t : Fin cfg1.N) :
    (fun j : Fin 64 => (iblk1 V c 3 t : Vec Ideal S1x64 .f32) (ix2 0 j))
      = fun j : Fin 64 => (V c (Pipeline.arrRef spec1 3) : S1x64.Idx → EReal) (ix2 0 j) := by
  obtain ⟨-, -, -, -, -, -, e0, e1, -⟩ := idx_facts1 t
  funext j
  unfold iblk1
  rw [View.read_apply]
  show V c (Pipeline.arrRef spec1 3) (((cfg1.win 3).blk t).view.emb (ix2 0 j)) = V c (Pipeline.arrRef spec1 3) (ix2 0 j)
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * j.val = j.val; rw [e1]; omega

/-- The block of window 4 is its whole [64, 64] array at every point. -/
theorem whole1_4 (c : Dev nD) (t : Fin cfg1.N) :
    (fun k j : Fin 64 => (iblk1 V c 4 t : Vec Ideal S64x64 .f32) (ix2 k j))
      = fun k j : Fin 64 => (V c (Pipeline.arrRef spec1 4) : S64x64.Idx → EReal) (ix2 k j) := by
  obtain ⟨-, -, -, -, -, -, -, -, e0, e1, -⟩ := idx_facts1 t
  funext k j
  unfold iblk1
  rw [View.read_apply]
  show V c (Pipeline.arrRef spec1 4) (((cfg1.win 4).blk t).view.emb (ix2 k j)) = V c (Pipeline.arrRef spec1 4) (ix2 k j)
  refine congrArg _ (funext fun a => Fin.ext ?_)
  match a with
  | ⟨0, _⟩ => show win1_4.index t (0 : Fin 2) * 64 + 1 * k.val = k.val; rw [e0]; omega
  | ⟨1, _⟩ => show win1_4.index t (1 : Fin 2) * 64 + 1 * j.val = j.val; rw [e1]; omega

/-- The block of window 5 is its whole [1, 64] array at every point. -/
theorem whole1_5 (c : Dev nD) (t : Fin cfg1.N) :
    (fun j : Fin 64 => (iblk1 V c 5 t : Vec Ideal S1x64 .f32) (ix2 0 j))
      = fun j : Fin 64 => (V c (Pipeline.arrRef spec1 5) : S1x64.Idx → EReal) (ix2 0 j) := by
  obtain ⟨-, -, -, -, -, -, -, -, -, -, e0, e1, -⟩ := idx_facts1 t
  funext j
  unfold iblk1
  rw [View.read_apply]
  show V c (Pipeline.arrRef spec1 5) (((cfg1.win 5).blk t).view.emb (ix2 0 j)) = V c (Pipeline.arrRef spec1 5) (ix2 0 j)
  refine congrArg _ (funext fun a => Fin.ext ?_)
  match a with
  | ⟨0, _⟩ => show win1_5.index t (0 : Fin 2) * 1 + 1 * 0 = 0; rw [e0]
  | ⟨1, _⟩ => show win1_5.index t (1 : Fin 2) * 64 + 1 * j.val = j.val; rw [e1]; omega

/-- What the region's output array ends holding: the layer's row law applied to every row of the arrays the region finds. -/
abbrev whole1 (c : Dev nD) : Cert.Layer.Nodes :=
  Cert.Layer.upd (V c (Pipeline.arrRef spec1 0)) (V c (Pipeline.arrRef spec1 1))
    (fun k j => (V c (Pipeline.arrRef spec1 2) : S64x64.Idx → EReal) (ix2 k j)) (fun j => (V c (Pipeline.arrRef spec1 3) : S1x64.Idx → EReal) (ix2 0 j))
    (fun k j => (V c (Pipeline.arrRef spec1 4) : S64x64.Idx → EReal) (ix2 k j)) (fun j => (V c (Pipeline.arrRef spec1 5) : S1x64.Idx → EReal) (ix2 0 j))

/-- What point t writes back is block t of that array: the element (r, j) of the block is the row law of row r of the
    input blocks, which are rows 5000 t + r of the arrays, and sits at (5000 t + r, j) of the output. -/
theorem flushed1_eq (c : Dev nD) (t : Fin cfg1.N) :
    (dat1 (F := Ideal) V c).flushed 6 t = ((cfg1.win 6).blk t).view.read (Elt Ideal) (whole1 V c) := by
  show (cfg1.win 6).cut (grid1.coords t) ((dat1 V c).after 6 t) = _
  rw [after1_6, out1_eq]
  funext y
  have hy0 : (y 0).val < 5000 := (y 0).isLt
  have hy1 : (y 1).val < 64 := (y 1).isLt
  have ht : t.val < 20 := lt_of_lt_of_eq t.isLt N_1
  obtain ⟨-, -, -, -, -, -, -, -, -, -, -, -, e0, e1⟩ := idx_facts1 t
  have hn : t.val * 5000 + (y 0).val < 100000 := by omega
  have hinj : (cfg1.win 6).xinj (grid1.coords t) y = ix2 (⟨(y 0).val, hy0⟩ : Fin 5000) (⟨(y 1).val, hy1⟩ : Fin 64) :=
    funext fun a => by match a with | ⟨0, _⟩ => rfl | ⟨1, _⟩ => rfl
  have hemb : ((cfg1.win 6).blk t).view.emb y
      = ix2 (⟨t.val * 5000 + (y 0).val, hn⟩ : Fin 100000) (⟨(y 1).val, hy1⟩ : Fin 64) :=
    funext fun a => Fin.ext (by
      match a with
      | ⟨0, _⟩ => show win1_6.index t (0 : Fin 2) * 5000 + 1 * (y 0).val = t.val * 5000 + (y 0).val; rw [e0]; omega
      | ⟨1, _⟩ => show win1_6.index t (1 : Fin 2) * 64 + 1 * (y 1).val = (y 1).val; rw [e1]; omega)
  show k1_pay1 (F := Ideal) (iblk1 V c 0 t) (iblk1 V c 1 t) (iblk1 V c 2 t) (iblk1 V c 3 t) (iblk1 V c 4 t) (iblk1 V c 5 t)
      ((cfg1.win 6).xinj (grid1.coords t) y) = whole1 V c (((cfg1.win 6).blk t).view.emb y)
  rw [hinj, hemb]
  refine (pay1_at (iblk1 V c 0 t) (iblk1 V c 1 t) (iblk1 V c 2 t) (iblk1 V c 3 t) (iblk1 V c 4 t) (iblk1 V c 5 t)
    ⟨(y 0).val, hy0⟩ ⟨(y 1).val, hy1⟩).trans ?_
  rw [rows1_0 V c t ⟨(y 0).val, hy0⟩ ⟨t.val * 5000 + (y 0).val, hn⟩ rfl, rows1_1 V c t ⟨(y 0).val, hy0⟩ ⟨t.val * 5000 + (y 0).val, hn⟩ rfl,
    whole1_2 V c t, whole1_3 V c t, whole1_4 V c t, whole1_5 V c t]
  rfl

/-- An index of the output array lies in point t's block iff each coordinate lies in the block's range on its axis. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v26).slice (win1_6.rect t)).set ↔ _
  rw [View.set_slice_whole, Rect.mem_set_unit]
  exact Iff.rfl

/-- The 20 blocks of 5000 rows tile the 100000 rows: row n lies in the block of point n / 5000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hq : (i 0).val / 5000 < cfg1.N := by rw [hN]; omega
  obtain ⟨-, -, -, -, -, -, -, -, -, -, -, -, e0, e1⟩ := idx_facts1 ⟨(i 0).val / 5000, hq⟩
  refine ⟨⟨(i 0).val / 5000, hq⟩, flush1_6 _, ?_⟩
  rw [mem_blk1]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hq⟩ (1 : Fin 2) * 64 ≤ (i 1).val
      ∧ (i 1).val < win1_6.index ⟨(i 0).val / 5000, hq⟩ (1 : Fin 2) * 64 + 64
    rw [e1]; omega

/-- The region's output array after its 20 points: the clamped row law of every row of the arrays it found. -/
theorem final1 (c : Dev nD) : (dat1 (F := Ideal) V c).arrAt 6 cfg1.N
    = Cert.Layer.upd (V c (Pipeline.arrRef spec1 0)) (V c (Pipeline.arrRef spec1 1))
        (fun k j => (V c (Pipeline.arrRef spec1 2) : S64x64.Idx → EReal) (ix2 k j)) (fun j => (V c (Pipeline.arrRef spec1 3) : S1x64.Idx → EReal) (ix2 0 j))
        (fun k j => (V c (Pipeline.arrRef spec1 4) : S64x64.Idx → EReal) (ix2 k j)) (fun j => (V c (Pipeline.arrRef spec1 5) : S1x64.Idx → EReal) (ix2 0 j)) :=
  (dat1 (F := Ideal) V c).arrAt_eq_of_cover 6 (whole1 V c) (fun t _ => flushed1_eq V c t) cover1

end Region1

/-! ## Region 3: the second inner layer's node update -/

section Region3

/-- The body's one store fills its staging buffer and its loads read whole blocks, so what the body leaves is the
    payload of the six input blocks. -/
theorem out3_eq (x0 x1 : Vec Ideal S5000x64 .f32) (x2 : Vec Ideal S64x64 .f32) (x3 : Vec Ideal S1x64 .f32)
    (x4 : Vec Ideal S64x64 .f32) (x5 : Vec Ideal S1x64 .f32) :
    out3_6 (F := Ideal) x0 x1 x2 x3 x4 x5 = k3_pay1 (F := Ideal) x0 x1 x2 x3 x4 x5 := by
  unfold out3_6
  rw [View.canon_unit_zero zero_off]
  simp only [View.ld_unit_zero (S := S5000x64) zero_off, View.ld_unit_zero (S := S64x64) zero_off, View.ld_unit_zero (S := S1x64) zero_off]

/-- The index maps over the 20 grid points: the two row windows and the output sit at block (t, 0), the four
    weight windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row r of the block of window 0 at point t is row 5000 t + r of its array. -/
theorem rows3_0 (c : Dev nD) (t : Fin cfg3.N) (r : Fin 5000) (n : Fin 100000) (hn : n.val = t.val * 5000 + r.val) :
    (fun k : Fin 64 => (iblk3 V c 0 t : Vec Ideal S5000x64 .f32) (ix2 r k))
      = fun k : Fin 64 => (V c (Pipeline.arrRef spec3 0) : S100000x64.Idx → EReal) (ix2 n k) := by
  obtain ⟨e0, e1, -⟩ := idx_facts3 t
  funext k
  unfold iblk3
  rw [View.read_apply]
  show V c (Pipeline.arrRef spec3 0) (((cfg3.win 0).blk t).view.emb (ix2 r k)) = V c (Pipeline.arrRef spec3 0) (ix2 n k)
  refine congrArg _ (funext fun a => Fin.ext ?_)
  match a with
  | ⟨0, _⟩ => show win3_0.index t (0 : Fin 2) * 5000 + 1 * r.val = n.val; rw [e0, hn]; omega
  | ⟨1, _⟩ => show win3_0.index t (1 : Fin 2) * 64 + 1 * k.val = k.val; rw [e1]; omega

/-- The same for window 1. -/
theorem rows3_1 (c : Dev nD) (t : Fin cfg3.N) (r : Fin 5000) (n : Fin 100000) (hn : n.val = t.val * 5000 + r.val) :
    (fun k : Fin 64 => (iblk3 V c 1 t : Vec Ideal S5000x64 .f32) (ix2 r k))
      = fun k : Fin 64 => (V c (Pipeline.arrRef spec3 1) : S100000x64.Idx → EReal) (ix2 n k) := by
  obtain ⟨-, -, e0, e1, -⟩ := idx_facts3 t
  funext k
  unfold iblk3
  rw [View.read_apply]
  show V c (Pipeline.arrRef spec3 1) (((cfg3.win 1).blk t).view.emb (ix2 r k)) = V c (Pipeline.arrRef spec3 1) (ix2 n k)
  refine congrArg _ (funext fun a => Fin.ext ?_)
  match a with
  | ⟨0, _⟩ => show win3_1.index t (0 : Fin 2) * 5000 + 1 * r.val = n.val; rw [e0, hn]; omega
  | ⟨1, _⟩ => show win3_1.index t (1 : Fin 2) * 64 + 1 * k.val = k.val; rw [e1]; omega

/-- The block of window 2 is its whole [64, 64] array at every point. -/
theorem whole3_2 (c : Dev nD) (t : Fin cfg3.N) :
    (fun k j : Fin 64 => (iblk3 V c 2 t : Vec Ideal S64x64 .f32) (ix2 k j))
      = fun k j : Fin 64 => (V c (Pipeline.arrRef spec3 2) : S64x64.Idx → EReal) (ix2 k j) := by
  obtain ⟨-, -, -, -, e0, e1, -⟩ := idx_facts3 t
  funext k j
  unfold iblk3
  rw [View.read_apply]
  show V c (Pipeline.arrRef spec3 2) (((cfg3.win 2).blk t).view.emb (ix2 k j)) = V c (Pipeline.arrRef spec3 2) (ix2 k j)
  refine congrArg _ (funext fun a => Fin.ext ?_)
  match a with
  | ⟨0, _⟩ => show win3_2.index t (0 : Fin 2) * 64 + 1 * k.val = k.val; rw [e0]; omega
  | ⟨1, _⟩ => show win3_2.index t (1 : Fin 2) * 64 + 1 * j.val = j.val; rw [e1]; omega

/-- The block of window 3 is its whole [1, 64] array at every point. -/
theorem whole3_3 (c : Dev nD) (t : Fin cfg3.N) :
    (fun j : Fin 64 => (iblk3 V c 3 t : Vec Ideal S1x64 .f32) (ix2 0 j))
      = fun j : Fin 64 => (V c (Pipeline.arrRef spec3 3) : S1x64.Idx → EReal) (ix2 0 j) := by
  obtain ⟨-, -, -, -, -, -, e0, e1, -⟩ := idx_facts3 t
  funext j
  unfold iblk3
  rw [View.read_apply]
  show V c (Pipeline.arrRef spec3 3) (((cfg3.win 3).blk t).view.emb (ix2 0 j)) = V c (Pipeline.arrRef spec3 3) (ix2 0 j)
  refine congrArg _ (funext fun a => Fin.ext ?_)
  match a with
  | ⟨0, _⟩ => show win3_3.index t (0 : Fin 2) * 1 + 1 * 0 = 0; rw [e0]
  | ⟨1, _⟩ => show win3_3.index t (1 : Fin 2) * 64 + 1 * j.val = j.val; rw [e1]; omega

/-- The block of window 4 is its whole [64, 64] array at every point. -/
theorem whole3_4 (c : Dev nD) (t : Fin cfg3.N) :
    (fun k j : Fin 64 => (iblk3 V c 4 t : Vec Ideal S64x64 .f32) (ix2 k j))
      = fun k j : Fin 64 => (V c (Pipeline.arrRef spec3 4) : S64x64.Idx → EReal) (ix2 k j) := by
  obtain ⟨-, -, -, -, -, -, -, -, e0, e1, -⟩ := idx_facts3 t
  funext k j
  unfold iblk3
  rw [View.read_apply]
  show V c (Pipeline.arrRef spec3 4) (((cfg3.win 4).blk t).view.emb (ix2 k j)) = V c (Pipeline.arrRef spec3 4) (ix2 k j)
  refine congrArg _ (funext fun a => Fin.ext ?_)
  match a with
  | ⟨0, _⟩ => show win3_4.index t (0 : Fin 2) * 64 + 1 * k.val = k.val; rw [e0]; omega
  | ⟨1, _⟩ => show win3_4.index t (1 : Fin 2) * 64 + 1 * j.val = j.val; rw [e1]; omega

/-- The block of window 5 is its whole [1, 64] array at every point. -/
theorem whole3_5 (c : Dev nD) (t : Fin cfg3.N) :
    (fun j : Fin 64 => (iblk3 V c 5 t : Vec Ideal S1x64 .f32) (ix2 0 j))
      = fun j : Fin 64 => (V c (Pipeline.arrRef spec3 5) : S1x64.Idx → EReal) (ix2 0 j) := by
  obtain ⟨-, -, -, -, -, -, -, -, -, -, e0, e1, -⟩ := idx_facts3 t
  funext j
  unfold iblk3
  rw [View.read_apply]
  show V c (Pipeline.arrRef spec3 5) (((cfg3.win 5).blk t).view.emb (ix2 0 j)) = V c (Pipeline.arrRef spec3 5) (ix2 0 j)
  refine congrArg _ (funext fun a => Fin.ext ?_)
  match a with
  | ⟨0, _⟩ => show win3_5.index t (0 : Fin 2) * 1 + 1 * 0 = 0; rw [e0]
  | ⟨1, _⟩ => show win3_5.index t (1 : Fin 2) * 64 + 1 * j.val = j.val; rw [e1]; omega

/-- What the region's output array ends holding: the layer's row law applied to every row of the arrays the region finds. -/
abbrev whole3 (c : Dev nD) : Cert.Layer.Nodes :=
  Cert.Layer.upd (V c (Pipeline.arrRef spec3 0)) (V c (Pipeline.arrRef spec3 1))
    (fun k j => (V c (Pipeline.arrRef spec3 2) : S64x64.Idx → EReal) (ix2 k j)) (fun j => (V c (Pipeline.arrRef spec3 3) : S1x64.Idx → EReal) (ix2 0 j))
    (fun k j => (V c (Pipeline.arrRef spec3 4) : S64x64.Idx → EReal) (ix2 k j)) (fun j => (V c (Pipeline.arrRef spec3 5) : S1x64.Idx → EReal) (ix2 0 j))

/-- What point t writes back is block t of that array: the element (r, j) of the block is the row law of row r of the
    input blocks, which are rows 5000 t + r of the arrays, and sits at (5000 t + r, j) of the output. -/
theorem flushed3_eq (c : Dev nD) (t : Fin cfg3.N) :
    (dat3 (F := Ideal) V c).flushed 6 t = ((cfg3.win 6).blk t).view.read (Elt Ideal) (whole3 V c) := by
  show (cfg3.win 6).cut (grid3.coords t) ((dat3 V c).after 6 t) = _
  rw [after3_6, out3_eq]
  funext y
  have hy0 : (y 0).val < 5000 := (y 0).isLt
  have hy1 : (y 1).val < 64 := (y 1).isLt
  have ht : t.val < 20 := lt_of_lt_of_eq t.isLt N_3
  obtain ⟨-, -, -, -, -, -, -, -, -, -, -, -, e0, e1⟩ := idx_facts3 t
  have hn : t.val * 5000 + (y 0).val < 100000 := by omega
  have hinj : (cfg3.win 6).xinj (grid3.coords t) y = ix2 (⟨(y 0).val, hy0⟩ : Fin 5000) (⟨(y 1).val, hy1⟩ : Fin 64) :=
    funext fun a => by match a with | ⟨0, _⟩ => rfl | ⟨1, _⟩ => rfl
  have hemb : ((cfg3.win 6).blk t).view.emb y
      = ix2 (⟨t.val * 5000 + (y 0).val, hn⟩ : Fin 100000) (⟨(y 1).val, hy1⟩ : Fin 64) :=
    funext fun a => Fin.ext (by
      match a with
      | ⟨0, _⟩ => show win3_6.index t (0 : Fin 2) * 5000 + 1 * (y 0).val = t.val * 5000 + (y 0).val; rw [e0]; omega
      | ⟨1, _⟩ => show win3_6.index t (1 : Fin 2) * 64 + 1 * (y 1).val = (y 1).val; rw [e1]; omega)
  show k3_pay1 (F := Ideal) (iblk3 V c 0 t) (iblk3 V c 1 t) (iblk3 V c 2 t) (iblk3 V c 3 t) (iblk3 V c 4 t) (iblk3 V c 5 t)
      ((cfg3.win 6).xinj (grid3.coords t) y) = whole3 V c (((cfg3.win 6).blk t).view.emb y)
  rw [hinj, hemb]
  refine (pay3_at (iblk3 V c 0 t) (iblk3 V c 1 t) (iblk3 V c 2 t) (iblk3 V c 3 t) (iblk3 V c 4 t) (iblk3 V c 5 t)
    ⟨(y 0).val, hy0⟩ ⟨(y 1).val, hy1⟩).trans ?_
  rw [rows3_0 V c t ⟨(y 0).val, hy0⟩ ⟨t.val * 5000 + (y 0).val, hn⟩ rfl, rows3_1 V c t ⟨(y 0).val, hy0⟩ ⟨t.val * 5000 + (y 0).val, hn⟩ rfl,
    whole3_2 V c t, whole3_3 V c t, whole3_4 V c t, whole3_5 V c t]
  rfl

/-- An index of the output array lies in point t's block iff each coordinate lies in the block's range on its axis. -/
theorem mem_blk3 (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v49).slice (win3_6.rect t)).set ↔ _
  rw [View.set_slice_whole, Rect.mem_set_unit]
  exact Iff.rfl

/-- The 20 blocks of 5000 rows tile the 100000 rows: row n lies in the block of point n / 5000. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have hq : (i 0).val / 5000 < cfg3.N := by rw [hN]; omega
  obtain ⟨-, -, -, -, -, -, -, -, -, -, -, -, e0, e1⟩ := idx_facts3 ⟨(i 0).val / 5000, hq⟩
  refine ⟨⟨(i 0).val / 5000, hq⟩, flush3_6 _, ?_⟩
  rw [mem_blk3]
  intro a
  match a with
  | ⟨0, _⟩ =>
    show win3_6.index ⟨(i 0).val / 5000, hq⟩ (0 : Fin 2) * 5000 ≤ (i 0).val
      ∧ (i 0).val < win3_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, hq⟩ (1 : Fin 2) * 64 ≤ (i 1).val
      ∧ (i 1).val < win3_6.index ⟨(i 0).val / 5000, hq⟩ (1 : Fin 2) * 64 + 64
    rw [e1]; omega

/-- The region's output array after its 20 points: the clamped row law of every row of the arrays it found. -/
theorem final3 (c : Dev nD) : (dat3 (F := Ideal) V c).arrAt 6 cfg3.N
    = Cert.Layer.upd (V c (Pipeline.arrRef spec3 0)) (V c (Pipeline.arrRef spec3 1))
        (fun k j => (V c (Pipeline.arrRef spec3 2) : S64x64.Idx → EReal) (ix2 k j)) (fun j => (V c (Pipeline.arrRef spec3 3) : S1x64.Idx → EReal) (ix2 0 j))
        (fun k j => (V c (Pipeline.arrRef spec3 4) : S64x64.Idx → EReal) (ix2 k j)) (fun j => (V c (Pipeline.arrRef spec3 5) : S1x64.Idx → EReal) (ix2 0 j)) :=
  (dat3 (F := Ideal) V c).arrAt_eq_of_cover 6 (whole3 V c) (fun t _ => flushed3_eq V c t) cover3

end Region3

/-! ## Region 5: the last layer's node update -/

section Region5

/-- The body's one store fills its staging buffer and its loads read whole blocks, so what the body leaves is the
    payload of the six input blocks. -/
theorem out5_eq (x0 x1 : Vec Ideal S5000x64 .f32) (x2 : Vec Ideal S64x64 .f32) (x3 : Vec Ideal S1x64 .f32)
    (x4 : Vec Ideal S64x64 .f32) (x5 : Vec Ideal S1x64 .f32) :
    out5_6 (F := Ideal) x0 x1 x2 x3 x4 x5 = k5_pay1 (F := Ideal) x0 x1 x2 x3 x4 x5 := by
  unfold out5_6
  rw [View.canon_unit_zero zero_off]
  simp only [View.ld_unit_zero (S := S5000x64) zero_off, View.ld_unit_zero (S := S64x64) zero_off, View.ld_unit_zero (S := S1x64) zero_off]

/-- The index maps over the 20 grid points: the two row windows and the output sit at block (t, 0), the four
    weight windows at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row r of the block of window 0 at point t is row 5000 t + r of its array. -/
theorem rows5_0 (c : Dev nD) (t : Fin cfg5.N) (r : Fin 5000) (n : Fin 100000) (hn : n.val = t.val * 5000 + r.val) :
    (fun k : Fin 64 => (iblk5 V c 0 t : Vec Ideal S5000x64 .f32) (ix2 r k))
      = fun k : Fin 64 => (V c (Pipeline.arrRef spec5 0) : S100000x64.Idx → EReal) (ix2 n k) := by
  obtain ⟨e0, e1, -⟩ := idx_facts5 t
  funext k
  unfold iblk5
  rw [View.read_apply]
  show V c (Pipeline.arrRef spec5 0) (((cfg5.win 0).blk t).view.emb (ix2 r k)) = V c (Pipeline.arrRef spec5 0) (ix2 n k)
  refine congrArg _ (funext fun a => Fin.ext ?_)
  match a with
  | ⟨0, _⟩ => show win5_0.index t (0 : Fin 2) * 5000 + 1 * r.val = n.val; rw [e0, hn]; omega
  | ⟨1, _⟩ => show win5_0.index t (1 : Fin 2) * 64 + 1 * k.val = k.val; rw [e1]; omega

/-- The same for window 1. -/
theorem rows5_1 (c : Dev nD) (t : Fin cfg5.N) (r : Fin 5000) (n : Fin 100000) (hn : n.val = t.val * 5000 + r.val) :
    (fun k : Fin 64 => (iblk5 V c 1 t : Vec Ideal S5000x64 .f32) (ix2 r k))
      = fun k : Fin 64 => (V c (Pipeline.arrRef spec5 1) : S100000x64.Idx → EReal) (ix2 n k) := by
  obtain ⟨-, -, e0, e1, -⟩ := idx_facts5 t
  funext k
  unfold iblk5
  rw [View.read_apply]
  show V c (Pipeline.arrRef spec5 1) (((cfg5.win 1).blk t).view.emb (ix2 r k)) = V c (Pipeline.arrRef spec5 1) (ix2 n k)
  refine congrArg _ (funext fun a => Fin.ext ?_)
  match a with
  | ⟨0, _⟩ => show win5_1.index t (0 : Fin 2) * 5000 + 1 * r.val = n.val; rw [e0, hn]; omega
  | ⟨1, _⟩ => show win5_1.index t (1 : Fin 2) * 64 + 1 * k.val = k.val; rw [e1]; omega

/-- The block of window 2 is its whole [64, 64] array at every point. -/
theorem whole5_2 (c : Dev nD) (t : Fin cfg5.N) :
    (fun k j : Fin 64 => (iblk5 V c 2 t : Vec Ideal S64x64 .f32) (ix2 k j))
      = fun k j : Fin 64 => (V c (Pipeline.arrRef spec5 2) : S64x64.Idx → EReal) (ix2 k j) := by
  obtain ⟨-, -, -, -, e0, e1, -⟩ := idx_facts5 t
  funext k j
  unfold iblk5
  rw [View.read_apply]
  show V c (Pipeline.arrRef spec5 2) (((cfg5.win 2).blk t).view.emb (ix2 k j)) = V c (Pipeline.arrRef spec5 2) (ix2 k j)
  refine congrArg _ (funext fun a => Fin.ext ?_)
  match a with
  | ⟨0, _⟩ => show win5_2.index t (0 : Fin 2) * 64 + 1 * k.val = k.val; rw [e0]; omega
  | ⟨1, _⟩ => show win5_2.index t (1 : Fin 2) * 64 + 1 * j.val = j.val; rw [e1]; omega

/-- The block of window 3 is its whole [1, 64] array at every point. -/
theorem whole5_3 (c : Dev nD) (t : Fin cfg5.N) :
    (fun j : Fin 64 => (iblk5 V c 3 t : Vec Ideal S1x64 .f32) (ix2 0 j))
      = fun j : Fin 64 => (V c (Pipeline.arrRef spec5 3) : S1x64.Idx → EReal) (ix2 0 j) := by
  obtain ⟨-, -, -, -, -, -, e0, e1, -⟩ := idx_facts5 t
  funext j
  unfold iblk5
  rw [View.read_apply]
  show V c (Pipeline.arrRef spec5 3) (((cfg5.win 3).blk t).view.emb (ix2 0 j)) = V c (Pipeline.arrRef spec5 3) (ix2 0 j)
  refine congrArg _ (funext fun a => Fin.ext ?_)
  match a with
  | ⟨0, _⟩ => show win5_3.index t (0 : Fin 2) * 1 + 1 * 0 = 0; rw [e0]
  | ⟨1, _⟩ => show win5_3.index t (1 : Fin 2) * 64 + 1 * j.val = j.val; rw [e1]; omega

/-- The block of window 4 is its whole [64, 64] array at every point. -/
theorem whole5_4 (c : Dev nD) (t : Fin cfg5.N) :
    (fun k j : Fin 64 => (iblk5 V c 4 t : Vec Ideal S64x64 .f32) (ix2 k j))
      = fun k j : Fin 64 => (V c (Pipeline.arrRef spec5 4) : S64x64.Idx → EReal) (ix2 k j) := by
  obtain ⟨-, -, -, -, -, -, -, -, e0, e1, -⟩ := idx_facts5 t
  funext k j
  unfold iblk5
  rw [View.read_apply]
  show V c (Pipeline.arrRef spec5 4) (((cfg5.win 4).blk t).view.emb (ix2 k j)) = V c (Pipeline.arrRef spec5 4) (ix2 k j)
  refine congrArg _ (funext fun a => Fin.ext ?_)
  match a with
  | ⟨0, _⟩ => show win5_4.index t (0 : Fin 2) * 64 + 1 * k.val = k.val; rw [e0]; omega
  | ⟨1, _⟩ => show win5_4.index t (1 : Fin 2) * 64 + 1 * j.val = j.val; rw [e1]; omega

/-- The block of window 5 is its whole [1, 64] array at every point. -/
theorem whole5_5 (c : Dev nD) (t : Fin cfg5.N) :
    (fun j : Fin 64 => (iblk5 V c 5 t : Vec Ideal S1x64 .f32) (ix2 0 j))
      = fun j : Fin 64 => (V c (Pipeline.arrRef spec5 5) : S1x64.Idx → EReal) (ix2 0 j) := by
  obtain ⟨-, -, -, -, -, -, -, -, -, -, e0, e1, -⟩ := idx_facts5 t
  funext j
  unfold iblk5
  rw [View.read_apply]
  show V c (Pipeline.arrRef spec5 5) (((cfg5.win 5).blk t).view.emb (ix2 0 j)) = V c (Pipeline.arrRef spec5 5) (ix2 0 j)
  refine congrArg _ (funext fun a => Fin.ext ?_)
  match a with
  | ⟨0, _⟩ => show win5_5.index t (0 : Fin 2) * 1 + 1 * 0 = 0; rw [e0]
  | ⟨1, _⟩ => show win5_5.index t (1 : Fin 2) * 64 + 1 * j.val = j.val; rw [e1]; omega

/-- What the region's output array ends holding: the layer's row law applied to every row of the arrays the region finds. -/
abbrev whole5 (c : Dev nD) : Cert.Layer.Nodes :=
  Cert.Layer.out (V c (Pipeline.arrRef spec5 0)) (V c (Pipeline.arrRef spec5 1))
    (fun k j => (V c (Pipeline.arrRef spec5 2) : S64x64.Idx → EReal) (ix2 k j)) (fun j => (V c (Pipeline.arrRef spec5 3) : S1x64.Idx → EReal) (ix2 0 j))
    (fun k j => (V c (Pipeline.arrRef spec5 4) : S64x64.Idx → EReal) (ix2 k j)) (fun j => (V c (Pipeline.arrRef spec5 5) : S1x64.Idx → EReal) (ix2 0 j))

/-- What point t writes back is block t of that array: the element (r, j) of the block is the row law of row r of the
    input blocks, which are rows 5000 t + r of the arrays, and sits at (5000 t + r, j) of the output. -/
theorem flushed5_eq (c : Dev nD) (t : Fin cfg5.N) :
    (dat5 (F := Ideal) V c).flushed 6 t = ((cfg5.win 6).blk t).view.read (Elt Ideal) (whole5 V c) := by
  show (cfg5.win 6).cut (grid5.coords t) ((dat5 V c).after 6 t) = _
  rw [after5_6, out5_eq]
  funext y
  have hy0 : (y 0).val < 5000 := (y 0).isLt
  have hy1 : (y 1).val < 64 := (y 1).isLt
  have ht : t.val < 20 := lt_of_lt_of_eq t.isLt N_5
  obtain ⟨-, -, -, -, -, -, -, -, -, -, -, -, e0, e1⟩ := idx_facts5 t
  have hn : t.val * 5000 + (y 0).val < 100000 := by omega
  have hinj : (cfg5.win 6).xinj (grid5.coords t) y = ix2 (⟨(y 0).val, hy0⟩ : Fin 5000) (⟨(y 1).val, hy1⟩ : Fin 64) :=
    funext fun a => by match a with | ⟨0, _⟩ => rfl | ⟨1, _⟩ => rfl
  have hemb : ((cfg5.win 6).blk t).view.emb y
      = ix2 (⟨t.val * 5000 + (y 0).val, hn⟩ : Fin 100000) (⟨(y 1).val, hy1⟩ : Fin 64) :=
    funext fun a => Fin.ext (by
      match a with
      | ⟨0, _⟩ => show win5_6.index t (0 : Fin 2) * 5000 + 1 * (y 0).val = t.val * 5000 + (y 0).val; rw [e0]; omega
      | ⟨1, _⟩ => show win5_6.index t (1 : Fin 2) * 64 + 1 * (y 1).val = (y 1).val; rw [e1]; omega)
  show k5_pay1 (F := Ideal) (iblk5 V c 0 t) (iblk5 V c 1 t) (iblk5 V c 2 t) (iblk5 V c 3 t) (iblk5 V c 4 t) (iblk5 V c 5 t)
      ((cfg5.win 6).xinj (grid5.coords t) y) = whole5 V c (((cfg5.win 6).blk t).view.emb y)
  rw [hinj, hemb]
  refine (pay5_at (iblk5 V c 0 t) (iblk5 V c 1 t) (iblk5 V c 2 t) (iblk5 V c 3 t) (iblk5 V c 4 t) (iblk5 V c 5 t)
    ⟨(y 0).val, hy0⟩ ⟨(y 1).val, hy1⟩).trans ?_
  rw [rows5_0 V c t ⟨(y 0).val, hy0⟩ ⟨t.val * 5000 + (y 0).val, hn⟩ rfl, rows5_1 V c t ⟨(y 0).val, hy0⟩ ⟨t.val * 5000 + (y 0).val, hn⟩ rfl,
    whole5_2 V c t, whole5_3 V c t, whole5_4 V c t, whole5_5 V c t]
  rfl

/-- An index of the output array lies in point t's block iff each coordinate lies in the block's range on its axis. -/
theorem mem_blk5 (t : Fin cfg5.N) (i : S100000x64.Idx) :
    i ∈ ((cfg5.win 6).blk t).view.set ↔ ∀ a : Fin 2, win5_6.index t a * S5000x64.size a ≤ (i a).val
      ∧ (i a).val < win5_6.index t a * S5000x64.size a + S5000x64.size a := by
  show i ∈ ((View.whole main_v72).slice (win5_6.rect t)).set ↔ _
  rw [View.set_slice_whole, Rect.mem_set_unit]
  exact Iff.rfl

/-- The 20 blocks of 5000 rows tile the 100000 rows: row n lies in the block of point n / 5000. -/
theorem cover5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  have hq : (i 0).val / 5000 < cfg5.N := by rw [hN]; omega
  obtain ⟨-, -, -, -, -, -, -, -, -, -, -, -, e0, e1⟩ := idx_facts5 ⟨(i 0).val / 5000, hq⟩
  refine ⟨⟨(i 0).val / 5000, hq⟩, flush5_6 _, ?_⟩
  rw [mem_blk5]
  intro a
  match a with
  | ⟨0, _⟩ =>
    show win5_6.index ⟨(i 0).val / 5000, hq⟩ (0 : Fin 2) * 5000 ≤ (i 0).val
      ∧ (i 0).val < win5_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win5_6.index ⟨(i 0).val / 5000, hq⟩ (1 : Fin 2) * 64 ≤ (i 1).val
      ∧ (i 1).val < win5_6.index ⟨(i 0).val / 5000, hq⟩ (1 : Fin 2) * 64 + 64
    rw [e1]; omega

/-- The region's output array after its 20 points: the unclamped row law of every row of the arrays it found. -/
theorem final5 (c : Dev nD) : (dat5 (F := Ideal) V c).arrAt 6 cfg5.N
    = Cert.Layer.out (V c (Pipeline.arrRef spec5 0)) (V c (Pipeline.arrRef spec5 1))
        (fun k j => (V c (Pipeline.arrRef spec5 2) : S64x64.Idx → EReal) (ix2 k j)) (fun j => (V c (Pipeline.arrRef spec5 3) : S1x64.Idx → EReal) (ix2 0 j))
        (fun k j => (V c (Pipeline.arrRef spec5 4) : S64x64.Idx → EReal) (ix2 k j)) (fun j => (V c (Pipeline.arrRef spec5 5) : S1x64.Idx → EReal) (ix2 0 j)) :=
  (dat5 (F := Ideal) V c).arrAt_eq_of_cover 6 (whole5 V c) (fun t _ => flushed5_eq V c t) cover5

end Region5

end Cert.KernelIdeal.NodeValue

end
-- ==== Proof.WeightReads.lean ====
/-
  The weights of one layer, read off the stacked arguments.

  Each stacked argument holds the three layers' weights along its leading axis: a [3, a, b] array of matrices,
  a [3, b] array of bias rows.  Layer l's matrix is the slab [l : l+1, 0 : a, 0 : b] with its unit axis dropped,
  so its entry (k, j) is the stack's entry (l, k, j); layer l's bias row is the slab [l : l+1, 0 : b] flattened
  to b entries and given a unit axis again, so its entry (u, j) is the stack's entry (l, j), whatever the unit
  coordinate u.  The first section says this once for any extents; the second states it for every weight of
  the three layers, over the terms the slicing operations are written with; the third states what those
  operations leave in their result arrays.
-/
import proofs.«424603_j55843164783469_3_alg».proof.Proof.Gen.KernelIdeal.Launch
import Idealize.ShloMosaic.Lib.Pipeline.Value
import Idealize.ShloMosaic.Lib.ValueIdx
import Idealize.ShloMosaic.Lib.ValueLayout

noncomputable section

namespace Cert.KernelIdeal.WeightReads

open Cert.KernelIdeal Cert.KernelIdeal.Gen Idealize.ShloMosaic Idealize.ShloMosaic.ValueIdx Idealize.ShloMosaic.TcCoe

/-! ## A slab of a stack, for any extents -/

section Generic
variable {α : Type}

/-- The slab at offset `o` of a `[3, a, b]` stack with its unit axis dropped: entry `(k, j)` is the stack's `(l, k, j)`
    for the layer `l` whose number is `o`. -/
theorem slab_apply {a b : Nat} (o : Nat) (x : (⟨3, ![3, a, b]⟩ : Shape).Idx → α)
    (hs : (⟨3, ![3, a, b]⟩ : Shape).Slices ![o, 0, 0] ⟨3, ![1, a, b]⟩)
    (hc : (⟨3, ![1, a, b]⟩ : Shape).ShapeCasts ⟨2, ![a, b]⟩) (l : Fin 3) (hl : l.val = o) (k : Fin a) (j : Fin b) :
    shapeCast ⟨2, ![a, b]⟩ (extractStridedSlice ⟨3, ![1, a, b]⟩ ![o, 0, 0] x hs) hc (ix2 k j) = x (ix3 l k j) := by
  rw [shapeCast_1ab_ab_apply]
  exact extractStridedSlice_apply ![o, 0, 0] x hs (ix3 (0 : Fin 1) k j) (ix3 l k j) (fun c => match c with
    | ⟨0, _⟩ => by show l.val = o + 0; omega
    | ⟨1, _⟩ => by show k.val = 0 + k.val; omega
    | ⟨2, _⟩ => by show j.val = 0 + j.val; omega)

/-- The row at offset `o` of a `[3, b]` stack, flattened and given a unit axis again: entry `(u, j)` is the stack's
    `(l, j)` for the layer `l` whose number is `o`. -/
theorem row_apply {b : Nat} (o : Nat) (x : (⟨2, ![3, b]⟩ : Shape).Idx → α)
    (hs : (⟨2, ![3, b]⟩ : Shape).Slices ![o, 0] ⟨2, ![1, b]⟩)
    (hd : (⟨2, ![1, b]⟩ : Shape).ShapeCasts ⟨1, ![b]⟩) (hu : (⟨1, ![b]⟩ : Shape).ShapeCasts ⟨2, ![1, b]⟩)
    (l : Fin 3) (hl : l.val = o) (u : Fin 1) (j : Fin b) :
    shapeCast ⟨2, ![1, b]⟩ (shapeCast ⟨1, ![b]⟩ (extractStridedSlice ⟨2, ![1, b]⟩ ![o, 0] x hs) hd) hu (ix2 u j)
      = x (ix2 l j) := by
  rw [shapeCast_a_1a_apply, shapeCast_1a_a_apply]
  exact extractStridedSlice_apply ![o, 0] x hs (ix2 (0 : Fin 1) j) (ix2 l j) (fun c => match c with
    | ⟨0, _⟩ => by show l.val = o + 0; omega
    | ⟨1, _⟩ => by show j.val = 0 + j.val; omega)

end Generic

/-! ## Every weight of the three layers

The program records each reshape with an equation between the element types of its operand and of its result
(both are f32) and transports the reshaped entry along it; the transport is the identity.  For each weight the
first statement reads the entry with the transports in place, the primed one reads it with the transports
removed; both say: entry `(k, j)` of layer `l`'s matrix is the stack's `(l, k, j)`, entry `(u, j)` of layer `l`'s
bias row is the stack's `(l, j)`.  The stack `x` is arbitrary. -/

/-- Layer 0's edge-projection matrix, a `[32, 64]` array: its entry `(k, j)` is the stack's `(0, k, j)`. -/
theorem We0_apply (x : (Proc.devRef (τ := τ) .tc main_arg2).ty.Contents (Elt Ideal)) (k : Fin 32) (j : Fin 64) :
    @Eq.rec EltTy main_v4.ty.elt (fun e _ => Elt Ideal e)
      (@shapeCast (Proc.devRef (τ := τ) .tc main_v4).ty.shape (Elt Ideal main_v4.ty.elt) main_v5.ty.shape
        (@extractStridedSlice S3x32x64 (Elt Ideal EltTy.f32) S1x32x64 ![0, 0, 0] x slices_S3x32x64_S1x32x64_0_0_0)
        shapeCasts_S1x32x64_S32x64 (ix2 k j))
      main_v5.ty.elt (rfl : main_v4.ty.elt = main_v5.ty.elt) = x (ix3 (0 : Fin 3) k j) :=
  slab_apply 0 x slices_S3x32x64_S1x32x64_0_0_0 shapeCasts_S1x32x64_S32x64 (0 : Fin 3) rfl k j
theorem We0_apply' (x : (Proc.devRef (τ := τ) .tc main_arg2).ty.Contents (Elt Ideal)) (k : Fin 32) (j : Fin 64) :
    @shapeCast (no_index (Proc.devRef (τ := τ) .tc main_v4).ty.shape) (no_index (Elt Ideal main_v4.ty.elt)) (no_index main_v5.ty.shape)
        (@extractStridedSlice S3x32x64 (no_index (Elt Ideal EltTy.f32)) S1x32x64 ![0, 0, 0] x slices_S3x32x64_S1x32x64_0_0_0)
        shapeCasts_S1x32x64_S32x64 (ix2 k j) = x (ix3 (0 : Fin 3) k j) :=
  slab_apply 0 x slices_S3x32x64_S1x32x64_0_0_0 shapeCasts_S1x32x64_S32x64 (0 : Fin 3) rfl k j

/-- Layer 0's edge-projection bias, a `[1, 64]` array: its entry `(u, j)` is the stack's `(0, j)`. -/
theorem be0_apply (x : (Proc.devRef (τ := τ) .tc main_arg3).ty.Contents (Elt Ideal)) (u : Fin 1) (j : Fin 64) :
    @Eq.rec EltTy main_v7.ty.elt (fun e _ => Elt Ideal e)
      (@shapeCast (Proc.devRef (τ := τ) .tc main_v7).ty.shape (Elt Ideal main_v7.ty.elt) main_v8.ty.shape
        (fun i => @Eq.rec EltTy main_v6.ty.elt (fun e _ => Elt Ideal e)
          (@shapeCast (Proc.devRef (τ := τ) .tc main_v6).ty.shape (Elt Ideal main_v6.ty.elt) main_v7.ty.shape
            (@extractStridedSlice S3x64 (Elt Ideal EltTy.f32) S1x64 ![0, 0] x slices_S3x64_S1x64_0_0)
            shapeCasts_S1x64_S64 i)
          main_v7.ty.elt (rfl : main_v6.ty.elt = main_v7.ty.elt))
        shapeCasts_S64_S1x64 (ix2 u j))
      main_v8.ty.elt (rfl : main_v7.ty.elt = main_v8.ty.elt) = x (ix2 (0 : Fin 3) j) :=
  row_apply 0 x slices_S3x64_S1x64_0_0 shapeCasts_S1x64_S64 shapeCasts_S64_S1x64 (0 : Fin 3) rfl u j
theorem be0_apply' (x : (Proc.devRef (τ := τ) .tc main_arg3).ty.Contents (Elt Ideal)) (u : Fin 1) (j : Fin 64) :
    @shapeCast (no_index (Proc.devRef (τ := τ) .tc main_v7).ty.shape) (no_index (Elt Ideal main_v7.ty.elt)) (no_index main_v8.ty.shape)
        (fun i => @shapeCast (no_index (Proc.devRef (τ := τ) .tc main_v6).ty.shape) (no_index (Elt Ideal main_v6.ty.elt)) (no_index main_v7.ty.shape)
            (@extractStridedSlice S3x64 (no_index (Elt Ideal EltTy.f32)) S1x64 ![0, 0] x slices_S3x64_S1x64_0_0)
            shapeCasts_S1x64_S64 i)
        shapeCasts_S64_S1x64 (ix2 u j) = x (ix2 (0 : Fin 3) j) :=
  row_apply 0 x slices_S3x64_S1x64_0_0 shapeCasts_S1x64_S64 shapeCasts_S64_S1x64 (0 : Fin 3) rfl u j

/-- Layer 0's first perceptron matrix, a `[64, 64]` array: its entry `(k, j)` is the stack's `(0, k, j)`. -/
theorem W1_0_apply (x : (Proc.devRef (τ := τ) .tc main_arg4).ty.Contents (Elt Ideal)) (k : Fin 64) (j : Fin 64) :
    @Eq.rec EltTy main_v16.ty.elt (fun e _ => Elt Ideal e)
      (@shapeCast (Proc.devRef (τ := τ) .tc main_v16).ty.shape (Elt Ideal main_v16.ty.elt) main_v17.ty.shape
        (@extractStridedSlice S3x64x64 (Elt Ideal EltTy.f32) S1x64x64 ![0, 0, 0] x slices_S3x64x64_S1x64x64_0_0_0)
        shapeCasts_S1x64x64_S64x64 (ix2 k j))
      main_v17.ty.elt (rfl : main_v16.ty.elt = main_v17.ty.elt) = x (ix3 (0 : Fin 3) k j) :=
  slab_apply 0 x slices_S3x64x64_S1x64x64_0_0_0 shapeCasts_S1x64x64_S64x64 (0 : Fin 3) rfl k j
theorem W1_0_apply' (x : (Proc.devRef (τ := τ) .tc main_arg4).ty.Contents (Elt Ideal)) (k : Fin 64) (j : Fin 64) :
    @shapeCast (no_index (Proc.devRef (τ := τ) .tc main_v16).ty.shape) (no_index (Elt Ideal main_v16.ty.elt)) (no_index main_v17.ty.shape)
        (@extractStridedSlice S3x64x64 (no_index (Elt Ideal EltTy.f32)) S1x64x64 ![0, 0, 0] x slices_S3x64x64_S1x64x64_0_0_0)
        shapeCasts_S1x64x64_S64x64 (ix2 k j) = x (ix3 (0 : Fin 3) k j) :=
  slab_apply 0 x slices_S3x64x64_S1x64x64_0_0_0 shapeCasts_S1x64x64_S64x64 (0 : Fin 3) rfl k j

/-- Layer 0's first perceptron bias, a `[1, 64]` array: its entry `(u, j)` is the stack's `(0, j)`. -/
theorem b1_0_apply (x : (Proc.devRef (τ := τ) .tc main_arg5).ty.Contents (Elt Ideal)) (u : Fin 1) (j : Fin 64) :
    @Eq.rec EltTy main_v19.ty.elt (fun e _ => Elt Ideal e)
      (@shapeCast (Proc.devRef (τ := τ) .tc main_v19).ty.shape (Elt Ideal main_v19.ty.elt) main_v24.ty.shape
        (fun i => @Eq.rec EltTy main_v18.ty.elt (fun e _ => Elt Ideal e)
          (@shapeCast (Proc.devRef (τ := τ) .tc main_v18).ty.shape (Elt Ideal main_v18.ty.elt) main_v19.ty.shape
            (@extractStridedSlice S3x64 (Elt Ideal EltTy.f32) S1x64 ![0, 0] x slices_S3x64_S1x64_0_0)
            shapeCasts_S1x64_S64 i)
          main_v19.ty.elt (rfl : main_v18.ty.elt = main_v19.ty.elt))
        shapeCasts_S64_S1x64 (ix2 u j))
      main_v24.ty.elt (rfl : main_v19.ty.elt = main_v24.ty.elt) = x (ix2 (0 : Fin 3) j) :=
  row_apply 0 x slices_S3x64_S1x64_0_0 shapeCasts_S1x64_S64 shapeCasts_S64_S1x64 (0 : Fin 3) rfl u j
theorem b1_0_apply' (x : (Proc.devRef (τ := τ) .tc main_arg5).ty.Contents (Elt Ideal)) (u : Fin 1) (j : Fin 64) :
    @shapeCast (no_index (Proc.devRef (τ := τ) .tc main_v19).ty.shape) (no_index (Elt Ideal main_v19.ty.elt)) (no_index main_v24.ty.shape)
        (fun i => @shapeCast (no_index (Proc.devRef (τ := τ) .tc main_v18).ty.shape) (no_index (Elt Ideal main_v18.ty.elt)) (no_index main_v19.ty.shape)
            (@extractStridedSlice S3x64 (no_index (Elt Ideal EltTy.f32)) S1x64 ![0, 0] x slices_S3x64_S1x64_0_0)
            shapeCasts_S1x64_S64 i)
        shapeCasts_S64_S1x64 (ix2 u j) = x (ix2 (0 : Fin 3) j) :=
  row_apply 0 x slices_S3x64_S1x64_0_0 shapeCasts_S1x64_S64 shapeCasts_S64_S1x64 (0 : Fin 3) rfl u j

/-- Layer 0's second perceptron matrix, a `[64, 64]` array: its entry `(k, j)` is the stack's `(0, k, j)`. -/
theorem W2_0_apply (x : (Proc.devRef (τ := τ) .tc main_arg6).ty.Contents (Elt Ideal)) (k : Fin 64) (j : Fin 64) :
    @Eq.rec EltTy main_v20.ty.elt (fun e _ => Elt Ideal e)
      (@shapeCast (Proc.devRef (τ := τ) .tc main_v20).ty.shape (Elt Ideal main_v20.ty.elt) main_v21.ty.shape
        (@extractStridedSlice S3x64x64 (Elt Ideal EltTy.f32) S1x64x64 ![0, 0, 0] x slices_S3x64x64_S1x64x64_0_0_0)
        shapeCasts_S1x64x64_S64x64 (ix2 k j))
      main_v21.ty.elt (rfl : main_v20.ty.elt = main_v21.ty.elt) = x (ix3 (0 : Fin 3) k j) :=
  slab_apply 0 x slices_S3x64x64_S1x64x64_0_0_0 shapeCasts_S1x64x64_S64x64 (0 : Fin 3) rfl k j
theorem W2_0_apply' (x : (Proc.devRef (τ := τ) .tc main_arg6).ty.Contents (Elt Ideal)) (k : Fin 64) (j : Fin 64) :
    @shapeCast (no_index (Proc.devRef (τ := τ) .tc main_v20).ty.shape) (no_index (Elt Ideal main_v20.ty.elt)) (no_index main_v21.ty.shape)
        (@extractStridedSlice S3x64x64 (no_index (Elt Ideal EltTy.f32)) S1x64x64 ![0, 0, 0] x slices_S3x64x64_S1x64x64_0_0_0)
        shapeCasts_S1x64x64_S64x64 (ix2 k j) = x (ix3 (0 : Fin 3) k j) :=
  slab_apply 0 x slices_S3x64x64_S1x64x64_0_0_0 shapeCasts_S1x64x64_S64x64 (0 : Fin 3) rfl k j

/-- Layer 0's second perceptron bias, a `[1, 64]` array: its entry `(u, j)` is the stack's `(0, j)`. -/
theorem b2_0_apply (x : (Proc.devRef (τ := τ) .tc main_arg7).ty.Contents (Elt Ideal)) (u : Fin 1) (j : Fin 64) :
    @Eq.rec EltTy main_v23.ty.elt (fun e _ => Elt Ideal e)
      (@shapeCast (Proc.devRef (τ := τ) .tc main_v23).ty.shape (Elt Ideal main_v23.ty.elt) main_v25.ty.shape
        (fun i => @Eq.rec EltTy main_v22.ty.elt (fun e _ => Elt Ideal e)
          (@shapeCast (Proc.devRef (τ := τ) .tc main_v22).ty.shape (Elt Ideal main_v22.ty.elt) main_v23.ty.shape
            (@extractStridedSlice S3x64 (Elt Ideal EltTy.f32) S1x64 ![0, 0] x slices_S3x64_S1x64_0_0)
            shapeCasts_S1x64_S64 i)
          main_v23.ty.elt (rfl : main_v22.ty.elt = main_v23.ty.elt))
        shapeCasts_S64_S1x64 (ix2 u j))
      main_v25.ty.elt (rfl : main_v23.ty.elt = main_v25.ty.elt) = x (ix2 (0 : Fin 3) j) :=
  row_apply 0 x slices_S3x64_S1x64_0_0 shapeCasts_S1x64_S64 shapeCasts_S64_S1x64 (0 : Fin 3) rfl u j
theorem b2_0_apply' (x : (Proc.devRef (τ := τ) .tc main_arg7).ty.Contents (Elt Ideal)) (u : Fin 1) (j : Fin 64) :
    @shapeCast (no_index (Proc.devRef (τ := τ) .tc main_v23).ty.shape) (no_index (Elt Ideal main_v23.ty.elt)) (no_index main_v25.ty.shape)
        (fun i => @shapeCast (no_index (Proc.devRef (τ := τ) .tc main_v22).ty.shape) (no_index (Elt Ideal main_v22.ty.elt)) (no_index main_v23.ty.shape)
            (@extractStridedSlice S3x64 (no_index (Elt Ideal EltTy.f32)) S1x64 ![0, 0] x slices_S3x64_S1x64_0_0)
            shapeCasts_S1x64_S64 i)
        shapeCasts_S64_S1x64 (ix2 u j) = x (ix2 (0 : Fin 3) j) :=
  row_apply 0 x slices_S3x64_S1x64_0_0 shapeCasts_S1x64_S64 shapeCasts_S64_S1x64 (0 : Fin 3) rfl u j

/-- Layer 1's edge-projection matrix, a `[32, 64]` array: its entry `(k, j)` is the stack's `(1, k, j)`. -/
theorem We1_apply (x : (Proc.devRef (τ := τ) .tc main_arg2).ty.Contents (Elt Ideal)) (k : Fin 32) (j : Fin 64) :
    @Eq.rec EltTy main_v27.ty.elt (fun e _ => Elt Ideal e)
      (@shapeCast (Proc.devRef (τ := τ) .tc main_v27).ty.shape (Elt Ideal main_v27.ty.elt) main_v28.ty.shape
        (@extractStridedSlice S3x32x64 (Elt Ideal EltTy.f32) S1x32x64 ![1, 0, 0] x slices_S3x32x64_S1x32x64_1_0_0)
        shapeCasts_S1x32x64_S32x64 (ix2 k j))
      main_v28.ty.elt (rfl : main_v27.ty.elt = main_v28.ty.elt) = x (ix3 (1 : Fin 3) k j) :=
  slab_apply 1 x slices_S3x32x64_S1x32x64_1_0_0 shapeCasts_S1x32x64_S32x64 (1 : Fin 3) rfl k j
theorem We1_apply' (x : (Proc.devRef (τ := τ) .tc main_arg2).ty.Contents (Elt Ideal)) (k : Fin 32) (j : Fin 64) :
    @shapeCast (no_index (Proc.devRef (τ := τ) .tc main_v27).ty.shape) (no_index (Elt Ideal main_v27.ty.elt)) (no_index main_v28.ty.shape)
        (@extractStridedSlice S3x32x64 (no_index (Elt Ideal EltTy.f32)) S1x32x64 ![1, 0, 0] x slices_S3x32x64_S1x32x64_1_0_0)
        shapeCasts_S1x32x64_S32x64 (ix2 k j) = x (ix3 (1 : Fin 3) k j) :=
  slab_apply 1 x slices_S3x32x64_S1x32x64_1_0_0 shapeCasts_S1x32x64_S32x64 (1 : Fin 3) rfl k j

/-- Layer 1's edge-projection bias, a `[1, 64]` array: its entry `(u, j)` is the stack's `(1, j)`. -/
theorem be1_apply (x : (Proc.devRef (τ := τ) .tc main_arg3).ty.Contents (Elt Ideal)) (u : Fin 1) (j : Fin 64) :
    @Eq.rec EltTy main_v30.ty.elt (fun e _ => Elt Ideal e)
      (@shapeCast (Proc.devRef (τ := τ) .tc main_v30).ty.shape (Elt Ideal main_v30.ty.elt) main_v31.ty.shape
        (fun i => @Eq.rec EltTy main_v29.ty.elt (fun e _ => Elt Ideal e)
          (@shapeCast (Proc.devRef (τ := τ) .tc main_v29).ty.shape (Elt Ideal main_v29.ty.elt) main_v30.ty.shape
            (@extractStridedSlice S3x64 (Elt Ideal EltTy.f32) S1x64 ![1, 0] x slices_S3x64_S1x64_1_0)
            shapeCasts_S1x64_S64 i)
          main_v30.ty.elt (rfl : main_v29.ty.elt = main_v30.ty.elt))
        shapeCasts_S64_S1x64 (ix2 u j))
      main_v31.ty.elt (rfl : main_v30.ty.elt = main_v31.ty.elt) = x (ix2 (1 : Fin 3) j) :=
  row_apply 1 x slices_S3x64_S1x64_1_0 shapeCasts_S1x64_S64 shapeCasts_S64_S1x64 (1 : Fin 3) rfl u j
theorem be1_apply' (x : (Proc.devRef (τ := τ) .tc main_arg3).ty.Contents (Elt Ideal)) (u : Fin 1) (j : Fin 64) :
    @shapeCast (no_index (Proc.devRef (τ := τ) .tc main_v30).ty.shape) (no_index (Elt Ideal main_v30.ty.elt)) (no_index main_v31.ty.shape)
        (fun i => @shapeCast (no_index (Proc.devRef (τ := τ) .tc main_v29).ty.shape) (no_index (Elt Ideal main_v29.ty.elt)) (no_index main_v30.ty.shape)
            (@extractStridedSlice S3x64 (no_index (Elt Ideal EltTy.f32)) S1x64 ![1, 0] x slices_S3x64_S1x64_1_0)
            shapeCasts_S1x64_S64 i)
        shapeCasts_S64_S1x64 (ix2 u j) = x (ix2 (1 : Fin 3) j) :=
  row_apply 1 x slices_S3x64_S1x64_1_0 shapeCasts_S1x64_S64 shapeCasts_S64_S1x64 (1 : Fin 3) rfl u j

/-- Layer 1's first perceptron matrix, a `[64, 64]` array: its entry `(k, j)` is the stack's `(1, k, j)`. -/
theorem W1_1_apply (x : (Proc.devRef (τ := τ) .tc main_arg4).ty.Contents (Elt Ideal)) (k : Fin 64) (j : Fin 64) :
    @Eq.rec EltTy main_v39.ty.elt (fun e _ => Elt Ideal e)
      (@shapeCast (Proc.devRef (τ := τ) .tc main_v39).ty.shape (Elt Ideal main_v39.ty.elt) main_v40.ty.shape
        (@extractStridedSlice S3x64x64 (Elt Ideal EltTy.f32) S1x64x64 ![1, 0, 0] x slices_S3x64x64_S1x64x64_1_0_0)
        shapeCasts_S1x64x64_S64x64 (ix2 k j))
      main_v40.ty.elt (rfl : main_v39.ty.elt = main_v40.ty.elt) = x (ix3 (1 : Fin 3) k j) :=
  slab_apply 1 x slices_S3x64x64_S1x64x64_1_0_0 shapeCasts_S1x64x64_S64x64 (1 : Fin 3) rfl k j
theorem W1_1_apply' (x : (Proc.devRef (τ := τ) .tc main_arg4).ty.Contents (Elt Ideal)) (k : Fin 64) (j : Fin 64) :
    @shapeCast (no_index (Proc.devRef (τ := τ) .tc main_v39).ty.shape) (no_index (Elt Ideal main_v39.ty.elt)) (no_index main_v40.ty.shape)
        (@extractStridedSlice S3x64x64 (no_index (Elt Ideal EltTy.f32)) S1x64x64 ![1, 0, 0] x slices_S3x64x64_S1x64x64_1_0_0)
        shapeCasts_S1x64x64_S64x64 (ix2 k j) = x (ix3 (1 : Fin 3) k j) :=
  slab_apply 1 x slices_S3x64x64_S1x64x64_1_0_0 shapeCasts_S1x64x64_S64x64 (1 : Fin 3) rfl k j

/-- Layer 1's first perceptron bias, a `[1, 64]` array: its entry `(u, j)` is the stack's `(1, j)`. -/
theorem b1_1_apply (x : (Proc.devRef (τ := τ) .tc main_arg5).ty.Contents (Elt Ideal)) (u : Fin 1) (j : Fin 64) :
    @Eq.rec EltTy main_v42.ty.elt (fun e _ => Elt Ideal e)
      (@shapeCast (Proc.devRef (τ := τ) .tc main_v42).ty.shape (Elt Ideal main_v42.ty.elt) main_v47.ty.shape
        (fun i => @Eq.rec EltTy main_v41.ty.elt (fun e _ => Elt Ideal e)
          (@shapeCast (Proc.devRef (τ := τ) .tc main_v41).ty.shape (Elt Ideal main_v41.ty.elt) main_v42.ty.shape
            (@extractStridedSlice S3x64 (Elt Ideal EltTy.f32) S1x64 ![1, 0] x slices_S3x64_S1x64_1_0)
            shapeCasts_S1x64_S64 i)
          main_v42.ty.elt (rfl : main_v41.ty.elt = main_v42.ty.elt))
        shapeCasts_S64_S1x64 (ix2 u j))
      main_v47.ty.elt (rfl : main_v42.ty.elt = main_v47.ty.elt) = x (ix2 (1 : Fin 3) j) :=
  row_apply 1 x slices_S3x64_S1x64_1_0 shapeCasts_S1x64_S64 shapeCasts_S64_S1x64 (1 : Fin 3) rfl u j
theorem b1_1_apply' (x : (Proc.devRef (τ := τ) .tc main_arg5).ty.Contents (Elt Ideal)) (u : Fin 1) (j : Fin 64) :
    @shapeCast (no_index (Proc.devRef (τ := τ) .tc main_v42).ty.shape) (no_index (Elt Ideal main_v42.ty.elt)) (no_index main_v47.ty.shape)
        (fun i => @shapeCast (no_index (Proc.devRef (τ := τ) .tc main_v41).ty.shape) (no_index (Elt Ideal main_v41.ty.elt)) (no_index main_v42.ty.shape)
            (@extractStridedSlice S3x64 (no_index (Elt Ideal EltTy.f32)) S1x64 ![1, 0] x slices_S3x64_S1x64_1_0)
            shapeCasts_S1x64_S64 i)
        shapeCasts_S64_S1x64 (ix2 u j) = x (ix2 (1 : Fin 3) j) :=
  row_apply 1 x slices_S3x64_S1x64_1_0 shapeCasts_S1x64_S64 shapeCasts_S64_S1x64 (1 : Fin 3) rfl u j

/-- Layer 1's second perceptron matrix, a `[64, 64]` array: its entry `(k, j)` is the stack's `(1, k, j)`. -/
theorem W2_1_apply (x : (Proc.devRef (τ := τ) .tc main_arg6).ty.Contents (Elt Ideal)) (k : Fin 64) (j : Fin 64) :
    @Eq.rec EltTy main_v43.ty.elt (fun e _ => Elt Ideal e)
      (@shapeCast (Proc.devRef (τ := τ) .tc main_v43).ty.shape (Elt Ideal main_v43.ty.elt) main_v44.ty.shape
        (@extractStridedSlice S3x64x64 (Elt Ideal EltTy.f32) S1x64x64 ![1, 0, 0] x slices_S3x64x64_S1x64x64_1_0_0)
        shapeCasts_S1x64x64_S64x64 (ix2 k j))
      main_v44.ty.elt (rfl : main_v43.ty.elt = main_v44.ty.elt) = x (ix3 (1 : Fin 3) k j) :=
  slab_apply 1 x slices_S3x64x64_S1x64x64_1_0_0 shapeCasts_S1x64x64_S64x64 (1 : Fin 3) rfl k j
theorem W2_1_apply' (x : (Proc.devRef (τ := τ) .tc main_arg6).ty.Contents (Elt Ideal)) (k : Fin 64) (j : Fin 64) :
    @shapeCast (no_index (Proc.devRef (τ := τ) .tc main_v43).ty.shape) (no_index (Elt Ideal main_v43.ty.elt)) (no_index main_v44.ty.shape)
        (@extractStridedSlice S3x64x64 (no_index (Elt Ideal EltTy.f32)) S1x64x64 ![1, 0, 0] x slices_S3x64x64_S1x64x64_1_0_0)
        shapeCasts_S1x64x64_S64x64 (ix2 k j) = x (ix3 (1 : Fin 3) k j) :=
  slab_apply 1 x slices_S3x64x64_S1x64x64_1_0_0 shapeCasts_S1x64x64_S64x64 (1 : Fin 3) rfl k j

/-- Layer 1's second perceptron bias, a `[1, 64]` array: its entry `(u, j)` is the stack's `(1, j)`. -/
theorem b2_1_apply (x : (Proc.devRef (τ := τ) .tc main_arg7).ty.Contents (Elt Ideal)) (u : Fin 1) (j : Fin 64) :
    @Eq.rec EltTy main_v46.ty.elt (fun e _ => Elt Ideal e)
      (@shapeCast (Proc.devRef (τ := τ) .tc main_v46).ty.shape (Elt Ideal main_v46.ty.elt) main_v48.ty.shape
        (fun i => @Eq.rec EltTy main_v45.ty.elt (fun e _ => Elt Ideal e)
          (@shapeCast (Proc.devRef (τ := τ) .tc main_v45).ty.shape (Elt Ideal main_v45.ty.elt) main_v46.ty.shape
            (@extractStridedSlice S3x64 (Elt Ideal EltTy.f32) S1x64 ![1, 0] x slices_S3x64_S1x64_1_0)
            shapeCasts_S1x64_S64 i)
          main_v46.ty.elt (rfl : main_v45.ty.elt = main_v46.ty.elt))
        shapeCasts_S64_S1x64 (ix2 u j))
      main_v48.ty.elt (rfl : main_v46.ty.elt = main_v48.ty.elt) = x (ix2 (1 : Fin 3) j) :=
  row_apply 1 x slices_S3x64_S1x64_1_0 shapeCasts_S1x64_S64 shapeCasts_S64_S1x64 (1 : Fin 3) rfl u j
theorem b2_1_apply' (x : (Proc.devRef (τ := τ) .tc main_arg7).ty.Contents (Elt Ideal)) (u : Fin 1) (j : Fin 64) :
    @shapeCast (no_index (Proc.devRef (τ := τ) .tc main_v46).ty.shape) (no_index (Elt Ideal main_v46.ty.elt)) (no_index main_v48.ty.shape)
        (fun i => @shapeCast (no_index (Proc.devRef (τ := τ) .tc main_v45).ty.shape) (no_index (Elt Ideal main_v45.ty.elt)) (no_index main_v46.ty.shape)
            (@extractStridedSlice S3x64 (no_index (Elt Ideal EltTy.f32)) S1x64 ![1, 0] x slices_S3x64_S1x64_1_0)
            shapeCasts_S1x64_S64 i)
        shapeCasts_S64_S1x64 (ix2 u j) = x (ix2 (1 : Fin 3) j) :=
  row_apply 1 x slices_S3x64_S1x64_1_0 shapeCasts_S1x64_S64 shapeCasts_S64_S1x64 (1 : Fin 3) rfl u j

/-- Layer 2's edge-projection matrix, a `[32, 64]` array: its entry `(k, j)` is the stack's `(2, k, j)`. -/
theorem We2_apply (x : (Proc.devRef (τ := τ) .tc main_arg2).ty.Contents (Elt Ideal)) (k : Fin 32) (j : Fin 64) :
    @Eq.rec EltTy main_v50.ty.elt (fun e _ => Elt Ideal e)
      (@shapeCast (Proc.devRef (τ := τ) .tc main_v50).ty.shape (Elt Ideal main_v50.ty.elt) main_v51.ty.shape
        (@extractStridedSlice S3x32x64 (Elt Ideal EltTy.f32) S1x32x64 ![2, 0, 0] x slices_S3x32x64_S1x32x64_2_0_0)
        shapeCasts_S1x32x64_S32x64 (ix2 k j))
      main_v51.ty.elt (rfl : main_v50.ty.elt = main_v51.ty.elt) = x (ix3 (2 : Fin 3) k j) :=
  slab_apply 2 x slices_S3x32x64_S1x32x64_2_0_0 shapeCasts_S1x32x64_S32x64 (2 : Fin 3) rfl k j
theorem We2_apply' (x : (Proc.devRef (τ := τ) .tc main_arg2).ty.Contents (Elt Ideal)) (k : Fin 32) (j : Fin 64) :
    @shapeCast (no_index (Proc.devRef (τ := τ) .tc main_v50).ty.shape) (no_index (Elt Ideal main_v50.ty.elt)) (no_index main_v51.ty.shape)
        (@extractStridedSlice S3x32x64 (no_index (Elt Ideal EltTy.f32)) S1x32x64 ![2, 0, 0] x slices_S3x32x64_S1x32x64_2_0_0)
        shapeCasts_S1x32x64_S32x64 (ix2 k j) = x (ix3 (2 : Fin 3) k j) :=
  slab_apply 2 x slices_S3x32x64_S1x32x64_2_0_0 shapeCasts_S1x32x64_S32x64 (2 : Fin 3) rfl k j

/-- Layer 2's edge-projection bias, a `[1, 64]` array: its entry `(u, j)` is the stack's `(2, j)`. -/
theorem be2_apply (x : (Proc.devRef (τ := τ) .tc main_arg3).ty.Contents (Elt Ideal)) (u : Fin 1) (j : Fin 64) :
    @Eq.rec EltTy main_v53.ty.elt (fun e _ => Elt Ideal e)
      (@shapeCast (Proc.devRef (τ := τ) .tc main_v53).ty.shape (Elt Ideal main_v53.ty.elt) main_v54.ty.shape
        (fun i => @Eq.rec EltTy main_v52.ty.elt (fun e _ => Elt Ideal e)
          (@shapeCast (Proc.devRef (τ := τ) .tc main_v52).ty.shape (Elt Ideal main_v52.ty.elt) main_v53.ty.shape
            (@extractStridedSlice S3x64 (Elt Ideal EltTy.f32) S1x64 ![2, 0] x slices_S3x64_S1x64_2_0)
            shapeCasts_S1x64_S64 i)
          main_v53.ty.elt (rfl : main_v52.ty.elt = main_v53.ty.elt))
        shapeCasts_S64_S1x64 (ix2 u j))
      main_v54.ty.elt (rfl : main_v53.ty.elt = main_v54.ty.elt) = x (ix2 (2 : Fin 3) j) :=
  row_apply 2 x slices_S3x64_S1x64_2_0 shapeCasts_S1x64_S64 shapeCasts_S64_S1x64 (2 : Fin 3) rfl u j
theorem be2_apply' (x : (Proc.devRef (τ := τ) .tc main_arg3).ty.Contents (Elt Ideal)) (u : Fin 1) (j : Fin 64) :
    @shapeCast (no_index (Proc.devRef (τ := τ) .tc main_v53).ty.shape) (no_index (Elt Ideal main_v53.ty.elt)) (no_index main_v54.ty.shape)
        (fun i => @shapeCast (no_index (Proc.devRef (τ := τ) .tc main_v52).ty.shape) (no_index (Elt Ideal main_v52.ty.elt)) (no_index main_v53.ty.shape)
            (@extractStridedSlice S3x64 (no_index (Elt Ideal EltTy.f32)) S1x64 ![2, 0] x slices_S3x64_S1x64_2_0)
            shapeCasts_S1x64_S64 i)
        shapeCasts_S64_S1x64 (ix2 u j) = x (ix2 (2 : Fin 3) j) :=
  row_apply 2 x slices_S3x64_S1x64_2_0 shapeCasts_S1x64_S64 shapeCasts_S64_S1x64 (2 : Fin 3) rfl u j

/-- Layer 2's first perceptron matrix, a `[64, 64]` array: its entry `(k, j)` is the stack's `(2, k, j)`. -/
theorem W1_2_apply (x : (Proc.devRef (τ := τ) .tc main_arg4).ty.Contents (Elt Ideal)) (k : Fin 64) (j : Fin 64) :
    @Eq.rec EltTy main_v62.ty.elt (fun e _ => Elt Ideal e)
      (@shapeCast (Proc.devRef (τ := τ) .tc main_v62).ty.shape (Elt Ideal main_v62.ty.elt) main_v63.ty.shape
        (@extractStridedSlice S3x64x64 (Elt Ideal EltTy.f32) S1x64x64 ![2, 0, 0] x slices_S3x64x64_S1x64x64_2_0_0)
        shapeCasts_S1x64x64_S64x64 (ix2 k j))
      main_v63.ty.elt (rfl : main_v62.ty.elt = main_v63.ty.elt) = x (ix3 (2 : Fin 3) k j) :=
  slab_apply 2 x slices_S3x64x64_S1x64x64_2_0_0 shapeCasts_S1x64x64_S64x64 (2 : Fin 3) rfl k j
theorem W1_2_apply' (x : (Proc.devRef (τ := τ) .tc main_arg4).ty.Contents (Elt Ideal)) (k : Fin 64) (j : Fin 64) :
    @shapeCast (no_index (Proc.devRef (τ := τ) .tc main_v62).ty.shape) (no_index (Elt Ideal main_v62.ty.elt)) (no_index main_v63.ty.shape)
        (@extractStridedSlice S3x64x64 (no_index (Elt Ideal EltTy.f32)) S1x64x64 ![2, 0, 0] x slices_S3x64x64_S1x64x64_2_0_0)
        shapeCasts_S1x64x64_S64x64 (ix2 k j) = x (ix3 (2 : Fin 3) k j) :=
  slab_apply 2 x slices_S3x64x64_S1x64x64_2_0_0 shapeCasts_S1x64x64_S64x64 (2 : Fin 3) rfl k j

/-- Layer 2's first perceptron bias, a `[1, 64]` array: its entry `(u, j)` is the stack's `(2, j)`. -/
theorem b1_2_apply (x : (Proc.devRef (τ := τ) .tc main_arg5).ty.Contents (Elt Ideal)) (u : Fin 1) (j : Fin 64) :
    @Eq.rec EltTy main_v65.ty.elt (fun e _ => Elt Ideal e)
      (@shapeCast (Proc.devRef (τ := τ) .tc main_v65).ty.shape (Elt Ideal main_v65.ty.elt) main_v70.ty.shape
        (fun i => @Eq.rec EltTy main_v64.ty.elt (fun e _ => Elt Ideal e)
          (@shapeCast (Proc.devRef (τ := τ) .tc main_v64).ty.shape (Elt Ideal main_v64.ty.elt) main_v65.ty.shape
            (@extractStridedSlice S3x64 (Elt Ideal EltTy.f32) S1x64 ![2, 0] x slices_S3x64_S1x64_2_0)
            shapeCasts_S1x64_S64 i)
          main_v65.ty.elt (rfl : main_v64.ty.elt = main_v65.ty.elt))
        shapeCasts_S64_S1x64 (ix2 u j))
      main_v70.ty.elt (rfl : main_v65.ty.elt = main_v70.ty.elt) = x (ix2 (2 : Fin 3) j) :=
  row_apply 2 x slices_S3x64_S1x64_2_0 shapeCasts_S1x64_S64 shapeCasts_S64_S1x64 (2 : Fin 3) rfl u j
theorem b1_2_apply' (x : (Proc.devRef (τ := τ) .tc main_arg5).ty.Contents (Elt Ideal)) (u : Fin 1) (j : Fin 64) :
    @shapeCast (no_index (Proc.devRef (τ := τ) .tc main_v65).ty.shape) (no_index (Elt Ideal main_v65.ty.elt)) (no_index main_v70.ty.shape)
        (fun i => @shapeCast (no_index (Proc.devRef (τ := τ) .tc main_v64).ty.shape) (no_index (Elt Ideal main_v64.ty.elt)) (no_index main_v65.ty.shape)
            (@extractStridedSlice S3x64 (no_index (Elt Ideal EltTy.f32)) S1x64 ![2, 0] x slices_S3x64_S1x64_2_0)
            shapeCasts_S1x64_S64 i)
        shapeCasts_S64_S1x64 (ix2 u j) = x (ix2 (2 : Fin 3) j) :=
  row_apply 2 x slices_S3x64_S1x64_2_0 shapeCasts_S1x64_S64 shapeCasts_S64_S1x64 (2 : Fin 3) rfl u j

/-- Layer 2's second perceptron matrix, a `[64, 64]` array: its entry `(k, j)` is the stack's `(2, k, j)`. -/
theorem W2_2_apply (x : (Proc.devRef (τ := τ) .tc main_arg6).ty.Contents (Elt Ideal)) (k : Fin 64) (j : Fin 64) :
    @Eq.rec EltTy main_v66.ty.elt (fun e _ => Elt Ideal e)
      (@shapeCast (Proc.devRef (τ := τ) .tc main_v66).ty.shape (Elt Ideal main_v66.ty.elt) main_v67.ty.shape
        (@extractStridedSlice S3x64x64 (Elt Ideal EltTy.f32) S1x64x64 ![2, 0, 0] x slices_S3x64x64_S1x64x64_2_0_0)
        shapeCasts_S1x64x64_S64x64 (ix2 k j))
      main_v67.ty.elt (rfl : main_v66.ty.elt = main_v67.ty.elt) = x (ix3 (2 : Fin 3) k j) :=
  slab_apply 2 x slices_S3x64x64_S1x64x64_2_0_0 shapeCasts_S1x64x64_S64x64 (2 : Fin 3) rfl k j
theorem W2_2_apply' (x : (Proc.devRef (τ := τ) .tc main_arg6).ty.Contents (Elt Ideal)) (k : Fin 64) (j : Fin 64) :
    @shapeCast (no_index (Proc.devRef (τ := τ) .tc main_v66).ty.shape) (no_index (Elt Ideal main_v66.ty.elt)) (no_index main_v67.ty.shape)
        (@extractStridedSlice S3x64x64 (no_index (Elt Ideal EltTy.f32)) S1x64x64 ![2, 0, 0] x slices_S3x64x64_S1x64x64_2_0_0)
        shapeCasts_S1x64x64_S64x64 (ix2 k j) = x (ix3 (2 : Fin 3) k j) :=
  slab_apply 2 x slices_S3x64x64_S1x64x64_2_0_0 shapeCasts_S1x64x64_S64x64 (2 : Fin 3) rfl k j

/-- Layer 2's second perceptron bias, a `[1, 64]` array: its entry `(u, j)` is the stack's `(2, j)`. -/
theorem b2_2_apply (x : (Proc.devRef (τ := τ) .tc main_arg7).ty.Contents (Elt Ideal)) (u : Fin 1) (j : Fin 64) :
    @Eq.rec EltTy main_v69.ty.elt (fun e _ => Elt Ideal e)
      (@shapeCast (Proc.devRef (τ := τ) .tc main_v69).ty.shape (Elt Ideal main_v69.ty.elt) main_v71.ty.shape
        (fun i => @Eq.rec EltTy main_v68.ty.elt (fun e _ => Elt Ideal e)
          (@shapeCast (Proc.devRef (τ := τ) .tc main_v68).ty.shape (Elt Ideal main_v68.ty.elt) main_v69.ty.shape
            (@extractStridedSlice S3x64 (Elt Ideal EltTy.f32) S1x64 ![2, 0] x slices_S3x64_S1x64_2_0)
            shapeCasts_S1x64_S64 i)
          main_v69.ty.elt (rfl : main_v68.ty.elt = main_v69.ty.elt))
        shapeCasts_S64_S1x64 (ix2 u j))
      main_v71.ty.elt (rfl : main_v69.ty.elt = main_v71.ty.elt) = x (ix2 (2 : Fin 3) j) :=
  row_apply 2 x slices_S3x64_S1x64_2_0 shapeCasts_S1x64_S64 shapeCasts_S64_S1x64 (2 : Fin 3) rfl u j
theorem b2_2_apply' (x : (Proc.devRef (τ := τ) .tc main_arg7).ty.Contents (Elt Ideal)) (u : Fin 1) (j : Fin 64) :
    @shapeCast (no_index (Proc.devRef (τ := τ) .tc main_v69).ty.shape) (no_index (Elt Ideal main_v69.ty.elt)) (no_index main_v71.ty.shape)
        (fun i => @shapeCast (no_index (Proc.devRef (τ := τ) .tc main_v68).ty.shape) (no_index (Elt Ideal main_v68.ty.elt)) (no_index main_v69.ty.shape)
            (@extractStridedSlice S3x64 (no_index (Elt Ideal EltTy.f32)) S1x64 ![2, 0] x slices_S3x64_S1x64_2_0)
            shapeCasts_S1x64_S64 i)
        shapeCasts_S64_S1x64 (ix2 u j) = x (ix2 (2 : Fin 3) j) :=
  row_apply 2 x slices_S3x64_S1x64_2_0 shapeCasts_S1x64_S64 shapeCasts_S64_S1x64 (2 : Fin 3) rfl u j

/-! ## The same, as what the slicing operations leave in their result arrays

From any contents `V` of the arrays, once the operations of a stretch have run in order, the array that holds a
layer's weight reads, entry by entry, the stacked argument as `V` has it. -/

theorem We0_after (V : Valuation τ sig (Elt Ideal)) (k : Fin 32) (j : Fin 64) :
    StableHlo.after (hostOps0 (F := Ideal)) V (Proc.devRef .tc main_v5) (ix2 k j)
      = V (Proc.devRef .tc main_arg2) (ix3 (0 : Fin 3) k j) := by
  after_results
  exact We0_apply _ k j

theorem be0_after (V : Valuation τ sig (Elt Ideal)) (u : Fin 1) (j : Fin 64) :
    StableHlo.after (hostOps0 (F := Ideal)) V (Proc.devRef .tc main_v8) (ix2 u j)
      = V (Proc.devRef .tc main_arg3) (ix2 (0 : Fin 3) j) := by
  after_results
  exact be0_apply _ u j

theorem W1_0_after (V : Valuation τ sig (Elt Ideal)) (k : Fin 64) (j : Fin 64) :
    StableHlo.after (hostOps1_3 (F := Ideal)) V (Proc.devRef .tc main_v17) (ix2 k j)
      = V (Proc.devRef .tc main_arg4) (ix3 (0 : Fin 3) k j) := by
  after_results
  exact W1_0_apply _ k j

theorem b1_0_after (V : Valuation τ sig (Elt Ideal)) (u : Fin 1) (j : Fin 64) :
    StableHlo.after (hostOps1_3 (F := Ideal)) V (Proc.devRef .tc main_v24) (ix2 u j)
      = V (Proc.devRef .tc main_arg5) (ix2 (0 : Fin 3) j) := by
  after_results
  exact b1_0_apply _ u j

theorem W2_0_after (V : Valuation τ sig (Elt Ideal)) (k : Fin 64) (j : Fin 64) :
    StableHlo.after (hostOps1_3 (F := Ideal)) V (Proc.devRef .tc main_v21) (ix2 k j)
      = V (Proc.devRef .tc main_arg6) (ix3 (0 : Fin 3) k j) := by
  after_results
  exact W2_0_apply _ k j

theorem b2_0_after (V : Valuation τ sig (Elt Ideal)) (u : Fin 1) (j : Fin 64) :
    StableHlo.after (hostOps1_3 (F := Ideal)) V (Proc.devRef .tc main_v25) (ix2 u j)
      = V (Proc.devRef .tc main_arg7) (ix2 (0 : Fin 3) j) := by
  after_results
  exact b2_0_apply _ u j

theorem We1_after (V : Valuation τ sig (Elt Ideal)) (k : Fin 32) (j : Fin 64) :
    StableHlo.after (hostOps2 (F := Ideal)) V (Proc.devRef .tc main_v28) (ix2 k j)
      = V (Proc.devRef .tc main_arg2) (ix3 (1 : Fin 3) k j) := by
  after_results
  exact We1_apply _ k j

theorem be1_after (V : Valuation τ sig (Elt Ideal)) (u : Fin 1) (j : Fin 64) :
    StableHlo.after (hostOps2 (F := Ideal)) V (Proc.devRef .tc main_v31) (ix2 u j)
      = V (Proc.devRef .tc main_arg3) (ix2 (1 : Fin 3) j) := by
  after_results
  exact be1_apply _ u j

theorem W1_1_after (V : Valuation τ sig (Elt Ideal)) (k : Fin 64) (j : Fin 64) :
    StableHlo.after (hostOps3_3 (F := Ideal)) V (Proc.devRef .tc main_v40) (ix2 k j)
      = V (Proc.devRef .tc main_arg4) (ix3 (1 : Fin 3) k j) := by
  after_results
  exact W1_1_apply _ k j

theorem b1_1_after (V : Valuation τ sig (Elt Ideal)) (u : Fin 1) (j : Fin 64) :
    StableHlo.after (hostOps3_3 (F := Ideal)) V (Proc.devRef .tc main_v47) (ix2 u j)
      = V (Proc.devRef .tc main_arg5) (ix2 (1 : Fin 3) j) := by
  after_results
  exact b1_1_apply _ u j

theorem W2_1_after (V : Valuation τ sig (Elt Ideal)) (k : Fin 64) (j : Fin 64) :
    StableHlo.after (hostOps3_3 (F := Ideal)) V (Proc.devRef .tc main_v44) (ix2 k j)
      = V (Proc.devRef .tc main_arg6) (ix3 (1 : Fin 3) k j) := by
  after_results
  exact W2_1_apply _ k j

theorem b2_1_after (V : Valuation τ sig (Elt Ideal)) (u : Fin 1) (j : Fin 64) :
    StableHlo.after (hostOps3_3 (F := Ideal)) V (Proc.devRef .tc main_v48) (ix2 u j)
      = V (Proc.devRef .tc main_arg7) (ix2 (1 : Fin 3) j) := by
  after_results
  exact b2_1_apply _ u j

theorem We2_after (V : Valuation τ sig (Elt Ideal)) (k : Fin 32) (j : Fin 64) :
    StableHlo.after (hostOps4 (F := Ideal)) V (Proc.devRef .tc main_v51) (ix2 k j)
      = V (Proc.devRef .tc main_arg2) (ix3 (2 : Fin 3) k j) := by
  after_results
  exact We2_apply _ k j

theorem be2_after (V : Valuation τ sig (Elt Ideal)) (u : Fin 1) (j : Fin 64) :
    StableHlo.after (hostOps4 (F := Ideal)) V (Proc.devRef .tc main_v54) (ix2 u j)
      = V (Proc.devRef .tc main_arg3) (ix2 (2 : Fin 3) j) := by
  after_results
  exact be2_apply _ u j

theorem W1_2_after (V : Valuation τ sig (Elt Ideal)) (k : Fin 64) (j : Fin 64) :
    StableHlo.after (hostOps5_3 (F := Ideal)) V (Proc.devRef .tc main_v63) (ix2 k j)
      = V (Proc.devRef .tc main_arg4) (ix3 (2 : Fin 3) k j) := by
  after_results
  exact W1_2_apply _ k j

theorem b1_2_after (V : Valuation τ sig (Elt Ideal)) (u : Fin 1) (j : Fin 64) :
    StableHlo.after (hostOps5_3 (F := Ideal)) V (Proc.devRef .tc main_v70) (ix2 u j)
      = V (Proc.devRef .tc main_arg5) (ix2 (2 : Fin 3) j) := by
  after_results
  exact b1_2_apply _ u j

theorem W2_2_after (V : Valuation τ sig (Elt Ideal)) (k : Fin 64) (j : Fin 64) :
    StableHlo.after (hostOps5_3 (F := Ideal)) V (Proc.devRef .tc main_v67) (ix2 k j)
      = V (Proc.devRef .tc main_arg6) (ix3 (2 : Fin 3) k j) := by
  after_results
  exact W2_2_apply _ k j

theorem b2_2_after (V : Valuation τ sig (Elt Ideal)) (u : Fin 1) (j : Fin 64) :
    StableHlo.after (hostOps5_3 (F := Ideal)) V (Proc.devRef .tc main_v71) (ix2 u j)
      = V (Proc.devRef .tc main_arg7) (ix2 (2 : Fin 3) j) := by
  after_results
  exact b2_2_apply _ u j

end Cert.KernelIdeal.WeightReads

end
-- ==== Proof.ChainL0.lean ====
/-
  Layer 0 of the kernel program, read off the fold of its host stretches and its two tiled regions.

  The layer's edge-projection region leaves, for every edge, its attributes projected by the layer's weights
  (`proj0`).  The host stretch that follows gathers each edge's source row out of the node states the layer
  starts from (`take0`), adds the projection (`sum0`), clamps at zero (`relu0`) and sums the messages into
  their destination rows (`agg0`); it also slices the layer's perceptron weights out of the stacked arguments
  (`w1_0` … `b2_0`).  The node-update region then leaves the perceptron of old state plus summed messages
  in every row: `layer0` says the region's output array is `Cert.Layer.inner` of the state the layer started from.
-/
import proofs.«424603_j55843164783469_3_alg».proof.Proof.ChainParts
import proofs.«424603_j55843164783469_3_alg».proof.Proof.EdgeValue
import proofs.«424603_j55843164783469_3_alg».proof.Proof.NodeValue
import proofs.«424603_j55843164783469_3_alg».proof.Proof.WeightReads

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg)

/-! ## The arguments and index vectors at the boundaries where the layer reads them -/

set_option maxHeartbeats 4000000 in
theorem a1_0 (c : Dev nD) : W0 (F := Ideal) m ρ c (Proc.devRef .tc main_arg1) = arg1 m c := by
  wdown
  all_goals rfl
set_option maxHeartbeats 4000000 in
theorem a2_0 (c : Dev nD) : W0 (F := Ideal) m ρ c (Proc.devRef .tc main_arg2) = arg2 m c := by
  wdown
  all_goals rfl
set_option maxHeartbeats 4000000 in
theorem a3_0 (c : Dev nD) : W0 (F := Ideal) m ρ c (Proc.devRef .tc main_arg3) = arg3 m c := by
  wdown
  all_goals rfl
set_option maxHeartbeats 4000000 in
theorem a4_0 (c : Dev nD) : W5 (F := Ideal) m ρ c (Proc.devRef .tc main_arg4) = arg4 m c := by
  wdown
  all_goals rfl
set_option maxHeartbeats 4000000 in
theorem a5_0 (c : Dev nD) : W5 (F := Ideal) m ρ c (Proc.devRef .tc main_arg5) = arg5 m c := by
  wdown
  all_goals rfl
set_option maxHeartbeats 4000000 in
theorem a6_0 (c : Dev nD) : W5 (F := Ideal) m ρ c (Proc.devRef .tc main_arg6) = arg6 m c := by
  wdown
  all_goals rfl
set_option maxHeartbeats 4000000 in
theorem a7_0 (c : Dev nD) : W5 (F := Ideal) m ρ c (Proc.devRef .tc main_arg7) = arg7 m c := by
  wdown
  all_goals rfl

set_option maxHeartbeats 4000000 in
/-- The source vector, where the gather reads it. -/
theorem src0 (c : Dev nD) : W2 (F := Ideal) m ρ c (Proc.devRef .tc main_v1) = SrcRange.srcK (arg8 m c) := by
  wdown
  all_goals rfl

set_option maxHeartbeats 4000000 in
/-- The destination vector, where the scatter reads it. -/
theorem dst0 (c : Dev nD) : W5 (F := Ideal) m ρ c (Proc.devRef .tc main_v3) = dstK (arg8 m c) := by
  wdown
  all_goals rfl

set_option maxHeartbeats 4000000 in
/-- The node states the layer starts from, where the gather reads them. -/
theorem hinA0 (c : Dev nD) : W2 (F := Ideal) m ρ c (Proc.devRef .tc main_arg0) = arg0 m c := by
  wdown
  all_goals rfl

set_option maxHeartbeats 4000000 in
/-- The same, where the node update reads them. -/
theorem hinN0 (c : Dev nD) : W6 (F := Ideal) m ρ c (Proc.devRef .tc main_arg0) = arg0 m c := by
  wdown
  all_goals rfl

/-! ## The layer's weights, as the two regions find them -/

theorem we_0 (c : Dev nD) (k : Fin 32) (j : Fin 64) :
    (W1 (F := Ideal) m ρ c (Proc.devRef .tc main_v5) : S32x64.Idx → EReal) (ix2 k j) = WeK m c 0 k j := by
  refine (WeightReads.We0_after (W0 m ρ c) k j).trans ?_
  rw [a2_0 m ρ c]
theorem be_0 (c : Dev nD) (j : Fin 64) :
    (W1 (F := Ideal) m ρ c (Proc.devRef .tc main_v8) : S1x64.Idx → EReal) (ix2 0 j) = beK m c 0 j := by
  refine (WeightReads.be0_after (W0 m ρ c) 0 j).trans ?_
  rw [a3_0 m ρ c]
theorem w1_0 (c : Dev nD) (k j : Fin 64) :
    (W6 (F := Ideal) m ρ c (Proc.devRef .tc main_v17) : S64x64.Idx → EReal) (ix2 k j) = W1K m c 0 k j := by
  refine (WeightReads.W1_0_after (W5 m ρ c) k j).trans ?_
  rw [a4_0 m ρ c]
theorem b1_0 (c : Dev nD) (j : Fin 64) :
    (W6 (F := Ideal) m ρ c (Proc.devRef .tc main_v24) : S1x64.Idx → EReal) (ix2 0 j) = b1K m c 0 j := by
  refine (WeightReads.b1_0_after (W5 m ρ c) 0 j).trans ?_
  rw [a5_0 m ρ c]
theorem w2_0 (c : Dev nD) (k j : Fin 64) :
    (W6 (F := Ideal) m ρ c (Proc.devRef .tc main_v21) : S64x64.Idx → EReal) (ix2 k j) = W2K m c 0 k j := by
  refine (WeightReads.W2_0_after (W5 m ρ c) k j).trans ?_
  rw [a6_0 m ρ c]
theorem b2_0 (c : Dev nD) (j : Fin 64) :
    (W6 (F := Ideal) m ρ c (Proc.devRef .tc main_v25) : S1x64.Idx → EReal) (ix2 0 j) = b2K m c 0 j := by
  refine (WeightReads.b2_0_after (W5 m ρ c) 0 j).trans ?_
  rw [a7_0 m ρ c]

/-! ## The edge-projection region -/

set_option maxHeartbeats 4000000 in
/-- Every edge's attributes projected by the layer's weights. -/
theorem proj0 (c : Dev nD) :
    W2 (F := Ideal) m ρ c (Proc.devRef .tc main_v9)
      = (fun i => Cert.Spec.projRow (fun k => arg1 m c (ix2 (i 0) k)) (WeK m c 0) (beK m c 0) (i 1) : Cert.Layer.Edges) := by
  rw [show W2 (F := Ideal) m ρ c (Proc.devRef .tc main_v9) = (dat0 (F := Ideal) (V1 m ρ) c).arrAt 3 cfg0.N from W2_arr m ρ c 3,
    EdgeValue.final0 (V1 m ρ) c]
  have e1 : V1 (F := Ideal) m ρ c (Pipeline.arrRef spec0 0) = arg1 m c := by
    refine Eq.trans ?_ (a1_0 m ρ c)
    show W1 (F := Ideal) m ρ c (Proc.devRef .tc main_arg1) = _
    wdown
    all_goals rfl
  have e2 : (fun (k : Fin 32) (j : Fin 64) => (V1 (F := Ideal) m ρ c (Pipeline.arrRef spec0 1) : S32x64.Idx → EReal) (ix2 k j))
      = WeK m c 0 := funext fun k => funext fun j => we_0 m ρ c k j
  have e3 : (fun (j : Fin 64) => (V1 (F := Ideal) m ρ c (Pipeline.arrRef spec0 2) : S1x64.Idx → EReal) (ix2 0 j))
      = beK m c 0 := funext fun j => be_0 m ρ c j
  rw [e1, e2, e3]

/-! ## The host stretch between the two regions -/

/-- The gathered source rows. -/
theorem take0 (c : Dev nD) : W3 (F := Ideal) m ρ c (Proc.devRef .tc main_v10) = gK m c (arg0 m c) := by
  refine (SrcRange.after_hostOps1_take (W2 m ρ c)).trans ?_
  rw [hinA0 m ρ c, src0 m ρ c]
  rfl

set_option maxHeartbeats 4000000 in
/-- The projection is still in place when the gather has run. -/
theorem projB0 (c : Dev nD) : W3 (F := Ideal) m ρ c (Proc.devRef .tc main_v9) = W2 m ρ c (Proc.devRef .tc main_v9) := by
  wdown
  all_goals rfl

set_option maxHeartbeats 4000000 in
/-- Gathered rows plus projection. -/
theorem sum0 (c : Dev nD) :
    W4 (F := Ideal) m ρ c (Proc.devRef .tc main_v11)
      = addf (F := Ideal) (φ := .f32) (gK m c (arg0 m c)) (W2 m ρ c (Proc.devRef .tc main_v9)) := by
  rw [← take0 m ρ c, ← projB0 m ρ c]
  show StableHlo.after (hostOps1_1 (F := Ideal)) (W3 m ρ c) (Proc.devRef .tc main_v11) = _
  after_results
  all_goals rfl

/-- The messages: the sum clamped below at zero. -/
theorem relu0' (c : Dev nD) :
    W5 (F := Ideal) m ρ c (Proc.devRef .tc main_v12) = msgK (gK m c (arg0 m c)) (W2 m ρ c (Proc.devRef .tc main_v9)) := by
  refine (relu0 (W4 m ρ c)).trans ?_
  rw [sum0 m ρ c]
  rfl

set_option maxHeartbeats 4000000 in
/-- The messages summed into their destination rows. -/
theorem agg0 (c : Dev nD) :
    W6 (F := Ideal) m ρ c (Proc.devRef .tc main_v15)
      = sK m c (msgK (gK m c (arg0 m c)) (W2 m ρ c (Proc.devRef .tc main_v9))) := by
  have h : W6 (F := Ideal) m ρ c (Proc.devRef .tc main_v15)
      = sctK (W5 m ρ c (Proc.devRef .tc main_v3)) (W5 m ρ c (Proc.devRef .tc main_v12)) := by
    show StableHlo.after (hostOps1_3 (F := Ideal)) (W5 m ρ c) (Proc.devRef .tc main_v15) = _
    after_results_simp
    all_goals rfl
  rw [h, dst0 m ρ c, relu0' m ρ c]
  rfl

/-! ## The node-update region -/

set_option maxHeartbeats 4000000 in
/-- The layer: the node-update region's output array, as a function of the states the layer started from. -/
theorem layer0 (c : Dev nD) :
    W7 (F := Ideal) m ρ c (Proc.devRef .tc main_v26)
      = Cert.Layer.inner (gK m c) (sK m c) (arg1 m c) (WeK m c 0) (beK m c 0) (W1K m c 0) (b1K m c 0)
          (W2K m c 0) (b2K m c 0) (arg0 m c) := by
  rw [show W7 (F := Ideal) m ρ c (Proc.devRef .tc main_v26) = (dat1 (F := Ideal) (V6 m ρ) c).arrAt 6 cfg1.N from W7_arr m ρ c 6,
    NodeValue.final1 (V6 m ρ) c]
  have e0 : V6 (F := Ideal) m ρ c (Pipeline.arrRef spec1 0) = arg0 m c := hinN0 m ρ c
  have e1 : V6 (F := Ideal) m ρ c (Pipeline.arrRef spec1 1)
      = sK m c (Cert.Layer.msg (gK m c (arg0 m c)) (arg1 m c) (WeK m c 0) (beK m c 0)) := by
    refine (agg0 m ρ c).trans ?_
    rw [proj0 m ρ c, msgK_eq_msg]
  have e2 : (fun (k j : Fin 64) => (V6 (F := Ideal) m ρ c (Pipeline.arrRef spec1 2) : S64x64.Idx → EReal) (ix2 k j))
      = W1K m c 0 := funext fun k => funext fun j => w1_0 m ρ c k j
  have e3 : (fun (j : Fin 64) => (V6 (F := Ideal) m ρ c (Pipeline.arrRef spec1 3) : S1x64.Idx → EReal) (ix2 0 j))
      = b1K m c 0 := funext fun j => b1_0 m ρ c j
  have e4 : (fun (k j : Fin 64) => (V6 (F := Ideal) m ρ c (Pipeline.arrRef spec1 4) : S64x64.Idx → EReal) (ix2 k j))
      = W2K m c 0 := funext fun k => funext fun j => w2_0 m ρ c k j
  have e5 : (fun (j : Fin 64) => (V6 (F := Ideal) m ρ c (Pipeline.arrRef spec1 5) : S1x64.Idx → EReal) (ix2 0 j))
      = b2K m c 0 := funext fun j => b2_0 m ρ c j
  rw [e0, e1, e2, e3, e4, e5]
  rfl

end Cert.KernelIdeal.Chain

end
-- ==== Proof.ChainL1.lean ====
/-
  Layer 1 of the kernel program, read off the fold of its host stretches and its two tiled regions.

  The layer's edge-projection region leaves, for every edge, its attributes projected by the layer's weights
  (`proj1`).  The host stretch that follows gathers each edge's source row out of the node states the layer
  starts from (`take1`), adds the projection (`sum1`), clamps at zero (`relu1`) and sums the messages into
  their destination rows (`agg1`); it also slices the layer's perceptron weights out of the stacked arguments
  (`w1_1` … `b2_1`).  The node-update region then leaves the perceptron of old state plus summed messages
  in every row: `layer1` says the region's output array is `Cert.Layer.inner` of the state the layer started from.
-/
import proofs.«424603_j55843164783469_3_alg».proof.Proof.ChainParts
import proofs.«424603_j55843164783469_3_alg».proof.Proof.EdgeValue
import proofs.«424603_j55843164783469_3_alg».proof.Proof.NodeValue
import proofs.«424603_j55843164783469_3_alg».proof.Proof.WeightReads

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg)

/-! ## The arguments and index vectors at the boundaries where the layer reads them -/

set_option maxHeartbeats 4000000 in
theorem a1_1 (c : Dev nD) : W7 (F := Ideal) m ρ c (Proc.devRef .tc main_arg1) = arg1 m c := by
  wdown
  all_goals rfl
set_option maxHeartbeats 4000000 in
theorem a2_1 (c : Dev nD) : W7 (F := Ideal) m ρ c (Proc.devRef .tc main_arg2) = arg2 m c := by
  wdown
  all_goals rfl
set_option maxHeartbeats 4000000 in
theorem a3_1 (c : Dev nD) : W7 (F := Ideal) m ρ c (Proc.devRef .tc main_arg3) = arg3 m c := by
  wdown
  all_goals rfl
set_option maxHeartbeats 4000000 in
theorem a4_1 (c : Dev nD) : W12 (F := Ideal) m ρ c (Proc.devRef .tc main_arg4) = arg4 m c := by
  wdown
  all_goals rfl
set_option maxHeartbeats 4000000 in
theorem a5_1 (c : Dev nD) : W12 (F := Ideal) m ρ c (Proc.devRef .tc main_arg5) = arg5 m c := by
  wdown
  all_goals rfl
set_option maxHeartbeats 4000000 in
theorem a6_1 (c : Dev nD) : W12 (F := Ideal) m ρ c (Proc.devRef .tc main_arg6) = arg6 m c := by
  wdown
  all_goals rfl
set_option maxHeartbeats 4000000 in
theorem a7_1 (c : Dev nD) : W12 (F := Ideal) m ρ c (Proc.devRef .tc main_arg7) = arg7 m c := by
  wdown
  all_goals rfl

set_option maxHeartbeats 4000000 in
/-- The source vector, where the gather reads it. -/
theorem src1 (c : Dev nD) : W9 (F := Ideal) m ρ c (Proc.devRef .tc main_v1) = SrcRange.srcK (arg8 m c) := by
  wdown
  all_goals rfl

set_option maxHeartbeats 4000000 in
/-- The destination vector, where the scatter reads it. -/
theorem dst1 (c : Dev nD) : W12 (F := Ideal) m ρ c (Proc.devRef .tc main_v3) = dstK (arg8 m c) := by
  wdown
  all_goals rfl

set_option maxHeartbeats 4000000 in
/-- The node states the layer starts from, where the gather reads them. -/
theorem hinA1 (c : Dev nD) : W9 (F := Ideal) m ρ c (Proc.devRef .tc main_v26) = W7 (F := Ideal) m ρ c (Proc.devRef .tc main_v26) := by
  wdown
  all_goals rfl

set_option maxHeartbeats 4000000 in
/-- The same, where the node update reads them. -/
theorem hinN1 (c : Dev nD) : W13 (F := Ideal) m ρ c (Proc.devRef .tc main_v26) = W7 (F := Ideal) m ρ c (Proc.devRef .tc main_v26) := by
  wdown
  all_goals rfl

/-! ## The layer's weights, as the two regions find them -/

theorem we_1 (c : Dev nD) (k : Fin 32) (j : Fin 64) :
    (W8 (F := Ideal) m ρ c (Proc.devRef .tc main_v28) : S32x64.Idx → EReal) (ix2 k j) = WeK m c 1 k j := by
  refine (WeightReads.We1_after (W7 m ρ c) k j).trans ?_
  rw [a2_1 m ρ c]
theorem be_1 (c : Dev nD) (j : Fin 64) :
    (W8 (F := Ideal) m ρ c (Proc.devRef .tc main_v31) : S1x64.Idx → EReal) (ix2 0 j) = beK m c 1 j := by
  refine (WeightReads.be1_after (W7 m ρ c) 0 j).trans ?_
  rw [a3_1 m ρ c]
theorem w1_1 (c : Dev nD) (k j : Fin 64) :
    (W13 (F := Ideal) m ρ c (Proc.devRef .tc main_v40) : S64x64.Idx → EReal) (ix2 k j) = W1K m c 1 k j := by
  refine (WeightReads.W1_1_after (W12 m ρ c) k j).trans ?_
  rw [a4_1 m ρ c]
theorem b1_1 (c : Dev nD) (j : Fin 64) :
    (W13 (F := Ideal) m ρ c (Proc.devRef .tc main_v47) : S1x64.Idx → EReal) (ix2 0 j) = b1K m c 1 j := by
  refine (WeightReads.b1_1_after (W12 m ρ c) 0 j).trans ?_
  rw [a5_1 m ρ c]
theorem w2_1 (c : Dev nD) (k j : Fin 64) :
    (W13 (F := Ideal) m ρ c (Proc.devRef .tc main_v44) : S64x64.Idx → EReal) (ix2 k j) = W2K m c 1 k j := by
  refine (WeightReads.W2_1_after (W12 m ρ c) k j).trans ?_
  rw [a6_1 m ρ c]
theorem b2_1 (c : Dev nD) (j : Fin 64) :
    (W13 (F := Ideal) m ρ c (Proc.devRef .tc main_v48) : S1x64.Idx → EReal) (ix2 0 j) = b2K m c 1 j := by
  refine (WeightReads.b2_1_after (W12 m ρ c) 0 j).trans ?_
  rw [a7_1 m ρ c]

/-! ## The edge-projection region -/

set_option maxHeartbeats 4000000 in
/-- Every edge's attributes projected by the layer's weights. -/
theorem proj1 (c : Dev nD) :
    W9 (F := Ideal) m ρ c (Proc.devRef .tc main_v32)
      = (fun i => Cert.Spec.projRow (fun k => arg1 m c (ix2 (i 0) k)) (WeK m c 1) (beK m c 1) (i 1) : Cert.Layer.Edges) := by
  rw [show W9 (F := Ideal) m ρ c (Proc.devRef .tc main_v32) = (dat2 (F := Ideal) (V8 m ρ) c).arrAt 3 cfg2.N from W9_arr m ρ c 3,
    EdgeValue.final2 (V8 m ρ) c]
  have e1 : V8 (F := Ideal) m ρ c (Pipeline.arrRef spec2 0) = arg1 m c := by
    refine Eq.trans ?_ (a1_1 m ρ c)
    show W8 (F := Ideal) m ρ c (Proc.devRef .tc main_arg1) = _
    wdown
    all_goals rfl
  have e2 : (fun (k : Fin 32) (j : Fin 64) => (V8 (F := Ideal) m ρ c (Pipeline.arrRef spec2 1) : S32x64.Idx → EReal) (ix2 k j))
      = WeK m c 1 := funext fun k => funext fun j => we_1 m ρ c k j
  have e3 : (fun (j : Fin 64) => (V8 (F := Ideal) m ρ c (Pipeline.arrRef spec2 2) : S1x64.Idx → EReal) (ix2 0 j))
      = beK m c 1 := funext fun j => be_1 m ρ c j
  rw [e1, e2, e3]

/-! ## The host stretch between the two regions -/

/-- The gathered source rows. -/
theorem take1 (c : Dev nD) : W10 (F := Ideal) m ρ c (Proc.devRef .tc main_v33) = gK m c (W7 (F := Ideal) m ρ c (Proc.devRef .tc main_v26)) := by
  refine (SrcRange.after_hostOps3_take (W9 m ρ c)).trans ?_
  rw [hinA1 m ρ c, src1 m ρ c]
  rfl

set_option maxHeartbeats 4000000 in
/-- The projection is still in place when the gather has run. -/
theorem projB1 (c : Dev nD) : W10 (F := Ideal) m ρ c (Proc.devRef .tc main_v32) = W9 m ρ c (Proc.devRef .tc main_v32) := by
  wdown
  all_goals rfl

set_option maxHeartbeats 4000000 in
/-- Gathered rows plus projection. -/
theorem sum1 (c : Dev nD) :
    W11 (F := Ideal) m ρ c (Proc.devRef .tc main_v34)
      = addf (F := Ideal) (φ := .f32) (gK m c (W7 (F := Ideal) m ρ c (Proc.devRef .tc main_v26))) (W9 m ρ c (Proc.devRef .tc main_v32)) := by
  rw [← take1 m ρ c, ← projB1 m ρ c]
  show StableHlo.after (hostOps3_1 (F := Ideal)) (W10 m ρ c) (Proc.devRef .tc main_v34) = _
  after_results
  all_goals rfl

/-- The messages: the sum clamped below at zero. -/
theorem relu1' (c : Dev nD) :
    W12 (F := Ideal) m ρ c (Proc.devRef .tc main_v35) = msgK (gK m c (W7 (F := Ideal) m ρ c (Proc.devRef .tc main_v26))) (W9 m ρ c (Proc.devRef .tc main_v32)) := by
  refine (relu1 (W11 m ρ c)).trans ?_
  rw [sum1 m ρ c]
  rfl

set_option maxHeartbeats 4000000 in
/-- The messages summed into their destination rows. -/
theorem agg1 (c : Dev nD) :
    W13 (F := Ideal) m ρ c (Proc.devRef .tc main_v38)
      = sK m c (msgK (gK m c (W7 (F := Ideal) m ρ c (Proc.devRef .tc main_v26))) (W9 m ρ c (Proc.devRef .tc main_v32))) := by
  have h : W13 (F := Ideal) m ρ c (Proc.devRef .tc main_v38)
      = sctK (W12 m ρ c (Proc.devRef .tc main_v3)) (W12 m ρ c (Proc.devRef .tc main_v35)) := by
    show StableHlo.after (hostOps3_3 (F := Ideal)) (W12 m ρ c) (Proc.devRef .tc main_v38) = _
    after_results_simp
    all_goals rfl
  rw [h, dst1 m ρ c, relu1' m ρ c]
  rfl

/-! ## The node-update region -/

set_option maxHeartbeats 4000000 in
/-- The layer: the node-update region's output array, as a function of the states the layer started from. -/
theorem layer1 (c : Dev nD) :
    W14 (F := Ideal) m ρ c (Proc.devRef .tc main_v49)
      = Cert.Layer.inner (gK m c) (sK m c) (arg1 m c) (WeK m c 1) (beK m c 1) (W1K m c 1) (b1K m c 1)
          (W2K m c 1) (b2K m c 1) (W7 (F := Ideal) m ρ c (Proc.devRef .tc main_v26)) := by
  rw [show W14 (F := Ideal) m ρ c (Proc.devRef .tc main_v49) = (dat3 (F := Ideal) (V13 m ρ) c).arrAt 6 cfg3.N from W14_arr m ρ c 6,
    NodeValue.final3 (V13 m ρ) c]
  have e0 : V13 (F := Ideal) m ρ c (Pipeline.arrRef spec3 0) = W7 (F := Ideal) m ρ c (Proc.devRef .tc main_v26) := hinN1 m ρ c
  have e1 : V13 (F := Ideal) m ρ c (Pipeline.arrRef spec3 1)
      = sK m c (Cert.Layer.msg (gK m c (W7 (F := Ideal) m ρ c (Proc.devRef .tc main_v26))) (arg1 m c) (WeK m c 1) (beK m c 1)) := by
    refine (agg1 m ρ c).trans ?_
    rw [proj1 m ρ c, msgK_eq_msg]
  have e2 : (fun (k j : Fin 64) => (V13 (F := Ideal) m ρ c (Pipeline.arrRef spec3 2) : S64x64.Idx → EReal) (ix2 k j))
      = W1K m c 1 := funext fun k => funext fun j => w1_1 m ρ c k j
  have e3 : (fun (j : Fin 64) => (V13 (F := Ideal) m ρ c (Pipeline.arrRef spec3 3) : S1x64.Idx → EReal) (ix2 0 j))
      = b1K m c 1 := funext fun j => b1_1 m ρ c j
  have e4 : (fun (k j : Fin 64) => (V13 (F := Ideal) m ρ c (Pipeline.arrRef spec3 4) : S64x64.Idx → EReal) (ix2 k j))
      = W2K m c 1 := funext fun k => funext fun j => w2_1 m ρ c k j
  have e5 : (fun (j : Fin 64) => (V13 (F := Ideal) m ρ c (Pipeline.arrRef spec3 5) : S1x64.Idx → EReal) (ix2 0 j))
      = b2K m c 1 := funext fun j => b2_1 m ρ c j
  rw [e0, e1, e2, e3, e4, e5]
  rfl

end Cert.KernelIdeal.Chain

end
-- ==== Proof.ChainL2.lean ====
/-
  Layer 2 of the kernel program, read off the fold of its host stretches and its two tiled regions.

  The layer's edge-projection region leaves, for every edge, its attributes projected by the layer's weights
  (`proj2`).  The host stretch that follows gathers each edge's source row out of the node states the layer
  starts from (`take2`), adds the projection (`sum2`), clamps at zero (`relu2`) and sums the messages into
  their destination rows (`agg2`); it also slices the layer's perceptron weights out of the stacked arguments
  (`w1_2` … `b2_2`).  The node-update region then leaves the perceptron of old state plus summed messages
  in every row: `layer2` says the region's output array is `Cert.Layer.last` of the state the layer started from.
-/
import proofs.«424603_j55843164783469_3_alg».proof.Proof.ChainParts
import proofs.«424603_j55843164783469_3_alg».proof.Proof.EdgeValue
import proofs.«424603_j55843164783469_3_alg».proof.Proof.NodeValue
import proofs.«424603_j55843164783469_3_alg».proof.Proof.WeightReads

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg)

/-! ## The arguments and index vectors at the boundaries where the layer reads them -/

set_option maxHeartbeats 4000000 in
theorem a1_2 (c : Dev nD) : W14 (F := Ideal) m ρ c (Proc.devRef .tc main_arg1) = arg1 m c := by
  wdown
  all_goals rfl
set_option maxHeartbeats 4000000 in
theorem a2_2 (c : Dev nD) : W14 (F := Ideal) m ρ c (Proc.devRef .tc main_arg2) = arg2 m c := by
  wdown
  all_goals rfl
set_option maxHeartbeats 4000000 in
theorem a3_2 (c : Dev nD) : W14 (F := Ideal) m ρ c (Proc.devRef .tc main_arg3) = arg3 m c := by
  wdown
  all_goals rfl
set_option maxHeartbeats 4000000 in
theorem a4_2 (c : Dev nD) : W19 (F := Ideal) m ρ c (Proc.devRef .tc main_arg4) = arg4 m c := by
  wdown
  all_goals rfl
set_option maxHeartbeats 4000000 in
theorem a5_2 (c : Dev nD) : W19 (F := Ideal) m ρ c (Proc.devRef .tc main_arg5) = arg5 m c := by
  wdown
  all_goals rfl
set_option maxHeartbeats 4000000 in
theorem a6_2 (c : Dev nD) : W19 (F := Ideal) m ρ c (Proc.devRef .tc main_arg6) = arg6 m c := by
  wdown
  all_goals rfl
set_option maxHeartbeats 4000000 in
theorem a7_2 (c : Dev nD) : W19 (F := Ideal) m ρ c (Proc.devRef .tc main_arg7) = arg7 m c := by
  wdown
  all_goals rfl

set_option maxHeartbeats 4000000 in
/-- The source vector, where the gather reads it. -/
theorem src2 (c : Dev nD) : W16 (F := Ideal) m ρ c (Proc.devRef .tc main_v1) = SrcRange.srcK (arg8 m c) := by
  wdown
  all_goals rfl

set_option maxHeartbeats 4000000 in
/-- The destination vector, where the scatter reads it. -/
theorem dst2 (c : Dev nD) : W19 (F := Ideal) m ρ c (Proc.devRef .tc main_v3) = dstK (arg8 m c) := by
  wdown
  all_goals rfl

set_option maxHeartbeats 4000000 in
/-- The node states the layer starts from, where the gather reads them. -/
theorem hinA2 (c : Dev nD) : W16 (F := Ideal) m ρ c (Proc.devRef .tc main_v49) = W14 (F := Ideal) m ρ c (Proc.devRef .tc main_v49) := by
  wdown
  all_goals rfl

set_option maxHeartbeats 4000000 in
/-- The same, where the node update reads them. -/
theorem hinN2 (c : Dev nD) : W20 (F := Ideal) m ρ c (Proc.devRef .tc main_v49) = W14 (F := Ideal) m ρ c (Proc.devRef .tc main_v49) := by
  wdown
  all_goals rfl

/-! ## The layer's weights, as the two regions find them -/

theorem we_2 (c : Dev nD) (k : Fin 32) (j : Fin 64) :
    (W15 (F := Ideal) m ρ c (Proc.devRef .tc main_v51) : S32x64.Idx → EReal) (ix2 k j) = WeK m c 2 k j := by
  refine (WeightReads.We2_after (W14 m ρ c) k j).trans ?_
  rw [a2_2 m ρ c]
theorem be_2 (c : Dev nD) (j : Fin 64) :
    (W15 (F := Ideal) m ρ c (Proc.devRef .tc main_v54) : S1x64.Idx → EReal) (ix2 0 j) = beK m c 2 j := by
  refine (WeightReads.be2_after (W14 m ρ c) 0 j).trans ?_
  rw [a3_2 m ρ c]
theorem w1_2 (c : Dev nD) (k j : Fin 64) :
    (W20 (F := Ideal) m ρ c (Proc.devRef .tc main_v63) : S64x64.Idx → EReal) (ix2 k j) = W1K m c 2 k j := by
  refine (WeightReads.W1_2_after (W19 m ρ c) k j).trans ?_
  rw [a4_2 m ρ c]
theorem b1_2 (c : Dev nD) (j : Fin 64) :
    (W20 (F := Ideal) m ρ c (Proc.devRef .tc main_v70) : S1x64.Idx → EReal) (ix2 0 j) = b1K m c 2 j := by
  refine (WeightReads.b1_2_after (W19 m ρ c) 0 j).trans ?_
  rw [a5_2 m ρ c]
theorem w2_2 (c : Dev nD) (k j : Fin 64) :
    (W20 (F := Ideal) m ρ c (Proc.devRef .tc main_v67) : S64x64.Idx → EReal) (ix2 k j) = W2K m c 2 k j := by
  refine (WeightReads.W2_2_after (W19 m ρ c) k j).trans ?_
  rw [a6_2 m ρ c]
theorem b2_2 (c : Dev nD) (j : Fin 64) :
    (W20 (F := Ideal) m ρ c (Proc.devRef .tc main_v71) : S1x64.Idx → EReal) (ix2 0 j) = b2K m c 2 j := by
  refine (WeightReads.b2_2_after (W19 m ρ c) 0 j).trans ?_
  rw [a7_2 m ρ c]

/-! ## The edge-projection region -/

set_option maxHeartbeats 4000000 in
/-- Every edge's attributes projected by the layer's weights. -/
theorem proj2 (c : Dev nD) :
    W16 (F := Ideal) m ρ c (Proc.devRef .tc main_v55)
      = (fun i => Cert.Spec.projRow (fun k => arg1 m c (ix2 (i 0) k)) (WeK m c 2) (beK m c 2) (i 1) : Cert.Layer.Edges) := by
  rw [show W16 (F := Ideal) m ρ c (Proc.devRef .tc main_v55) = (dat4 (F := Ideal) (V15 m ρ) c).arrAt 3 cfg4.N from W16_arr m ρ c 3,
    EdgeValue.final4 (V15 m ρ) c]
  have e1 : V15 (F := Ideal) m ρ c (Pipeline.arrRef spec4 0) = arg1 m c := by
    refine Eq.trans ?_ (a1_2 m ρ c)
    show W15 (F := Ideal) m ρ c (Proc.devRef .tc main_arg1) = _
    wdown
    all_goals rfl
  have e2 : (fun (k : Fin 32) (j : Fin 64) => (V15 (F := Ideal) m ρ c (Pipeline.arrRef spec4 1) : S32x64.Idx → EReal) (ix2 k j))
      = WeK m c 2 := funext fun k => funext fun j => we_2 m ρ c k j
  have e3 : (fun (j : Fin 64) => (V15 (F := Ideal) m ρ c (Pipeline.arrRef spec4 2) : S1x64.Idx → EReal) (ix2 0 j))
      = beK m c 2 := funext fun j => be_2 m ρ c j
  rw [e1, e2, e3]

/-! ## The host stretch between the two regions -/

/-- The gathered source rows. -/
theorem take2 (c : Dev nD) : W17 (F := Ideal) m ρ c (Proc.devRef .tc main_v56) = gK m c (W14 (F := Ideal) m ρ c (Proc.devRef .tc main_v49)) := by
  refine (SrcRange.after_hostOps5_take (W16 m ρ c)).trans ?_
  rw [hinA2 m ρ c, src2 m ρ c]
  rfl

set_option maxHeartbeats 4000000 in
/-- The projection is still in place when the gather has run. -/
theorem projB2 (c : Dev nD) : W17 (F := Ideal) m ρ c (Proc.devRef .tc main_v55) = W16 m ρ c (Proc.devRef .tc main_v55) := by
  wdown
  all_goals rfl

set_option maxHeartbeats 4000000 in
/-- Gathered rows plus projection. -/
theorem sum2 (c : Dev nD) :
    W18 (F := Ideal) m ρ c (Proc.devRef .tc main_v57)
      = addf (F := Ideal) (φ := .f32) (gK m c (W14 (F := Ideal) m ρ c (Proc.devRef .tc main_v49))) (W16 m ρ c (Proc.devRef .tc main_v55)) := by
  rw [← take2 m ρ c, ← projB2 m ρ c]
  show StableHlo.after (hostOps5_1 (F := Ideal)) (W17 m ρ c) (Proc.devRef .tc main_v57) = _
  after_results
  all_goals rfl

/-- The messages: the sum clamped below at zero. -/
theorem relu2' (c : Dev nD) :
    W19 (F := Ideal) m ρ c (Proc.devRef .tc main_v58) = msgK (gK m c (W14 (F := Ideal) m ρ c (Proc.devRef .tc main_v49))) (W16 m ρ c (Proc.devRef .tc main_v55)) := by
  refine (relu2 (W18 m ρ c)).trans ?_
  rw [sum2 m ρ c]
  rfl

set_option maxHeartbeats 4000000 in
/-- The messages summed into their destination rows. -/
theorem agg2 (c : Dev nD) :
    W20 (F := Ideal) m ρ c (Proc.devRef .tc main_v61)
      = sK m c (msgK (gK m c (W14 (F := Ideal) m ρ c (Proc.devRef .tc main_v49))) (W16 m ρ c (Proc.devRef .tc main_v55))) := by
  have h : W20 (F := Ideal) m ρ c (Proc.devRef .tc main_v61)
      = sctK (W19 m ρ c (Proc.devRef .tc main_v3)) (W19 m ρ c (Proc.devRef .tc main_v58)) := by
    show StableHlo.after (hostOps5_3 (F := Ideal)) (W19 m ρ c) (Proc.devRef .tc main_v61) = _
    after_results_simp
    all_goals rfl
  rw [h, dst2 m ρ c, relu2' m ρ c]
  rfl

/-! ## The node-update region -/

set_option maxHeartbeats 4000000 in
/-- The layer: the node-update region's output array, as a function of the states the layer started from. -/
theorem layer2 (c : Dev nD) :
    W21 (F := Ideal) m ρ c (Proc.devRef .tc main_v72)
      = Cert.Layer.last (gK m c) (sK m c) (arg1 m c) (WeK m c 2) (beK m c 2) (W1K m c 2) (b1K m c 2)
          (W2K m c 2) (b2K m c 2) (W14 (F := Ideal) m ρ c (Proc.devRef .tc main_v49)) := by
  rw [show W21 (F := Ideal) m ρ c (Proc.devRef .tc main_v72) = (dat5 (F := Ideal) (V20 m ρ) c).arrAt 6 cfg5.N from W21_arr m ρ c 6,
    NodeValue.final5 (V20 m ρ) c]
  have e0 : V20 (F := Ideal) m ρ c (Pipeline.arrRef spec5 0) = W14 (F := Ideal) m ρ c (Proc.devRef .tc main_v49) := hinN2 m ρ c
  have e1 : V20 (F := Ideal) m ρ c (Pipeline.arrRef spec5 1)
      = sK m c (Cert.Layer.msg (gK m c (W14 (F := Ideal) m ρ c (Proc.devRef .tc main_v49))) (arg1 m c) (WeK m c 2) (beK m c 2)) := by
    refine (agg2 m ρ c).trans ?_
    rw [proj2 m ρ c, msgK_eq_msg]
  have e2 : (fun (k j : Fin 64) => (V20 (F := Ideal) m ρ c (Pipeline.arrRef spec5 2) : S64x64.Idx → EReal) (ix2 k j))
      = W1K m c 2 := funext fun k => funext fun j => w1_2 m ρ c k j
  have e3 : (fun (j : Fin 64) => (V20 (F := Ideal) m ρ c (Pipeline.arrRef spec5 3) : S1x64.Idx → EReal) (ix2 0 j))
      = b1K m c 2 := funext fun j => b1_2 m ρ c j
  have e4 : (fun (k j : Fin 64) => (V20 (F := Ideal) m ρ c (Pipeline.arrRef spec5 4) : S64x64.Idx → EReal) (ix2 k j))
      = W2K m c 2 := funext fun k => funext fun j => w2_2 m ρ c k j
  have e5 : (fun (j : Fin 64) => (V20 (F := Ideal) m ρ c (Pipeline.arrRef spec5 5) : S1x64.Idx → EReal) (ix2 0 j))
      = b2K m c 2 := funext fun j => b2_2 m ρ c j
  rw [e0, e1, e2, e3, e4, e5]
  rfl

end Cert.KernelIdeal.Chain

end
-- ==== Proof.KernelValue.lean ====
/-
  The kernel program's returned array as a function of its arguments: the mean over the nodes of the
  three-layer network of Layer.lean, with the kernel program's own gather (`gK`) and scatter (`sK`).
  Each layer's output array is the layer function of the previous layer's output array; chaining the three and
  the closing mean gives the whole value.
-/
import proofs.«424603_j55843164783469_3_alg».proof.Proof.ChainL0
import proofs.«424603_j55843164783469_3_alg».proof.Proof.ChainL1
import proofs.«424603_j55843164783469_3_alg».proof.Proof.ChainL2

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The returned [1, 64] array: the mean over the nodes of the network's output. -/
theorem kernel_net (c : Dev nD) :
    W22 (F := Ideal) m ρ c (Proc.devRef .tc main_v76)
      = meanK (Cert.Layer.net (gK m c) (sK m c) (arg1 m c) (WeK m c) (beK m c) (W1K m c) (b1K m c) (W2K m c) (b2K m c)
          (arg0 m c)) := by
  rw [result_eq, layer2, layer1, layer0]
  rfl

end Cert.KernelIdeal.Chain

end
-- ==== Proof.RefLayers.lean ====
/-
  The reference program's node states, layer by layer, as the whole-array functions of Layer.lean.

  The reference runs three GINE layers.  In layer `l` every edge `e` receives
  `max ((h[src e] + ea[e] · We[l]) + be[l]) 0`, the messages are summed into their destination rows, and
  every node row becomes the two-layer perceptron of `h + agg` (clamped below at `0` except in the last
  layer).  Each of these values is a stage of the imported generated module, which reads every regular
  stage at an index; the gather of source rows and the scatter-add into destination rows are never opened:
  they are the two functions `gth` and `sct` below, the same in all three layers.

  The plan, the same for each layer:
  * the slice of a stacked weight array that layer `l` uses, read at an index, is the stacked array at
    `(l, ·, ·)`; the bias row broadcast over all rows, read at `(p, q)`, is the stacked bias at `(l, q)`;
  * a matrix product read at `(p, q)` is the sum over the contracted column of row `p` times column `q`;
  * hence the message stage at `(p, q)` is `max ((g + Σ ea·We) + be) 0`, which is `Layer.msg` once the sum
    is regrouped (addition of extended reals is associative without any finiteness assumption), and the
    update stage at `(p, q)` is `Spec.updRow` (or `Spec.outRow` in the last layer) written out.
  Layers 1 and 2 recompute the gather's index array and the scatter's zero array and index array with the
  same operations as layer 0, so those are equal to layer 0's by unfolding.
-/
import proofs.«424603_j55843164783469_3_alg».proof.Proof.Gen.ReferenceIdeal.Read
import proofs.«424603_j55843164783469_3_alg».proof.Proof.Layer
import Idealize.ShloMosaic.Lib.ValueIdx
import Idealize.ShloMosaic.Lib.Pipeline.Value
import Idealize.ShloMosaic.Lib.ValueLayout
import Idealize.ShloMosaic.PureOps.Ideal.Laws

namespace Cert.ReferenceIdeal.RefLayers

open Cert.ReferenceIdeal Cert.ReferenceIdeal.Read Idealize.ShloMosaic Idealize.ShloMosaic.ValueIdx
open scoped BigOperators

variable (x0 : (⟨S100000x64, .f32⟩ : BufTy).Contents (Elt Ideal)) (x1 : (⟨S1600000x32, .f32⟩ : BufTy).Contents (Elt Ideal))
  (x2 : (⟨S3x32x64, .f32⟩ : BufTy).Contents (Elt Ideal)) (x3 : (⟨S3x64, .f32⟩ : BufTy).Contents (Elt Ideal))
  (x4 : (⟨S3x64x64, .f32⟩ : BufTy).Contents (Elt Ideal)) (x5 : (⟨S3x64, .f32⟩ : BufTy).Contents (Elt Ideal))
  (x6 : (⟨S3x64x64, .f32⟩ : BufTy).Contents (Elt Ideal)) (x7 : (⟨S3x64, .f32⟩ : BufTy).Contents (Elt Ideal))
  (x8 : (⟨S2x1600000, .i32⟩ : BufTy).Contents (Elt Ideal))

/-! ## The two irregular steps, and the stacked weights by layer -/

/-- The reference's gather: each edge's row is the node row its (wrapped) source index names. -/
noncomputable def gth (x8 : (⟨S2x1600000, .i32⟩ : BufTy).Contents (Elt Ideal)) : Cert.Layer.Nodes → Cert.Layer.Edges :=
  fun H => Host.gather gather_S100000x64_S1600000x1_S1600000x64_1_0_n_n_0_1_164 H (val_main_v9 (F := Ideal) x8)

/-- The reference's scatter-add: starting from zeros, every edge row is added into its destination node row. -/
noncomputable def sct (x8 : (⟨S2x1600000, .i32⟩ : BufTy).Contents (Elt Ideal)) : Cert.Layer.Edges → Cert.Layer.Nodes :=
  fun M => Host.scatterAdd (F := Ideal) (φ := .f32) scatter_S100000x64_S1600000x1_S1600000x64_1_0_0_1
    (val_main_v21 (F := Ideal)) (val_main_v22 (F := Ideal) x8) M

/-- The edge projection's weights, `We l k j`. -/
abbrev We (x2 : (⟨S3x32x64, .f32⟩ : BufTy).Contents (Elt Ideal)) : Fin 3 → Fin 32 → Fin 64 → EReal :=
  fun l k j => x2 (ix3 l k j)
/-- The edge projection's bias, `be l j`. -/
abbrev be (x3 : (⟨S3x64, .f32⟩ : BufTy).Contents (Elt Ideal)) : Fin 3 → Fin 64 → EReal := fun l j => x3 (ix2 l j)
/-- The perceptron's first weights, `W1 l k j`. -/
abbrev W1 (x4 : (⟨S3x64x64, .f32⟩ : BufTy).Contents (Elt Ideal)) : Fin 3 → Fin 64 → Fin 64 → EReal :=
  fun l k j => x4 (ix3 l k j)
/-- The perceptron's first bias, `b1 l j`. -/
abbrev b1 (x5 : (⟨S3x64, .f32⟩ : BufTy).Contents (Elt Ideal)) : Fin 3 → Fin 64 → EReal := fun l j => x5 (ix2 l j)
/-- The perceptron's second weights, `W2 l k j`. -/
abbrev W2 (x6 : (⟨S3x64x64, .f32⟩ : BufTy).Contents (Elt Ideal)) : Fin 3 → Fin 64 → Fin 64 → EReal :=
  fun l k j => x6 (ix3 l k j)
/-- The perceptron's second bias, `b2 l j`. -/
abbrev b2 (x7 : (⟨S3x64, .f32⟩ : BufTy).Contents (Elt Ideal)) : Fin 3 → Fin 64 → EReal := fun l j => x7 (ix2 l j)

/-! ## From a value at every index to the whole-array functions

An array that at every `(p, q)` reads as the written-out row formula is the corresponding function of
Layer.lean.  The message's sum `(g + Σ) + b` is regrouped to `g + (Σ + b)` here, once for all layers. -/

/-- An edge array reading `max ((g + Σₖ ea·w) + b) 0` at every index is the layer's message array. -/
theorem msg_ext (g M : Cert.Layer.Edges) (EA : Cert.Layer.EAttr) (w : Fin 32 → Fin 64 → EReal) (b : Fin 64 → EReal)
    (h : ∀ (p : Fin 1600000) (q : Fin 64),
      M (ix2 p q) = max (g (ix2 p q) + (∑ k : Fin 32, EA (ix2 p k) * w k q) + b q) 0) :
    M = Cert.Layer.msg g EA w b := by
  funext i
  obtain ⟨p, q, rfl⟩ : ∃ (p : Fin 1600000) (q : Fin 64), i = ix2 p q := ⟨i 0, i 1, eq_ix2 i⟩
  rw [h, add_assoc]
  rfl

/-- A node array reading the clamped perceptron of `H + agg` at every index is the inner layer's update. -/
theorem upd_ext (H agg N : Cert.Layer.Nodes) (w1 : Fin 64 → Fin 64 → EReal) (c1 : Fin 64 → EReal)
    (w2 : Fin 64 → Fin 64 → EReal) (c2 : Fin 64 → EReal)
    (h : ∀ (p : Fin 100000) (q : Fin 64),
      N (ix2 p q) = max ((∑ k : Fin 64,
        max ((∑ k' : Fin 64, (H (ix2 p k') + agg (ix2 p k')) * w1 k' k) + c1 k) 0 * w2 k q) + c2 q) 0) :
    N = Cert.Layer.upd H agg w1 c1 w2 c2 := by
  funext i
  obtain ⟨p, q, rfl⟩ : ∃ (p : Fin 100000) (q : Fin 64), i = ix2 p q := ⟨i 0, i 1, eq_ix2 i⟩
  rw [h]
  rfl

/-- A node array reading the unclamped perceptron of `H + agg` at every index is the last layer's update. -/
theorem out_ext (H agg N : Cert.Layer.Nodes) (w1 : Fin 64 → Fin 64 → EReal) (c1 : Fin 64 → EReal)
    (w2 : Fin 64 → Fin 64 → EReal) (c2 : Fin 64 → EReal)
    (h : ∀ (p : Fin 100000) (q : Fin 64),
      N (ix2 p q) = (∑ k : Fin 64,
        max ((∑ k' : Fin 64, (H (ix2 p k') + agg (ix2 p k')) * w1 k' k) + c1 k) 0 * w2 k q) + c2 q) :
    N = Cert.Layer.out H agg w1 c1 w2 c2 := by
  funext i
  obtain ⟨p, q, rfl⟩ : ∃ (p : Fin 100000) (q : Fin 64), i = ix2 p q := ⟨i 0, i 1, eq_ix2 i⟩
  rw [h]
  rfl

/-! ## Layer 0 -/

/-- Layer 0's slice of the edge weights: row `k`, column `q` of it is `We[0][k][q]` (the flattened position `k·64 + q` splits back into `k` and `q`). -/
theorem v12_at (k : Fin 32) (q : Fin 64) : val_main_v12 (F := Ideal) x2 (ix2 k q) = x2 (ix3 0 k q) := by
  rw [val_main_v12_apply, val_main_v11_apply]
  refine congrArg x2 (funext fun a => Fin.ext ?_)
  have hk := k.isLt
  have hq := q.isLt
  match a with
  | ⟨0, _⟩ => rfl
  | ⟨1, _⟩ => show (k.val * 64 + q.val) / 64 % 32 = k.val; omega
  | ⟨2, _⟩ => show (k.val * 64 + q.val) % 64 = q.val; omega

/-- The projected edge attributes of layer 0 at edge `p`, column `q`: the sum over the 32 attribute columns. -/
theorem v13_at (p : Fin 1600000) (q : Fin 64) :
    val_main_v13 (F := Ideal) x1 x2 (ix2 p q) = ∑ k : Fin 32, x1 (ix2 p k) * x2 (ix3 0 k q) := by
  rw [val_main_v13_apply]
  refine Finset.sum_congr rfl fun k _ => ?_
  have hl : lidx_main_v13 (ix2 p q) k = ix2 p k :=
    funext fun a => by match a with | ⟨0, _⟩ => rfl | ⟨1, _⟩ => rfl
  have hr : ridx_main_v13 (ix2 p q) k = ix2 k q :=
    funext fun a => by match a with | ⟨0, _⟩ => rfl | ⟨1, _⟩ => rfl
  rw [hl, hr, v12_at]

/-- Layer 0's edge bias, broadcast over all edges: at `(p, q)` it is `be[0][q]`. -/
theorem v18_at (p : Fin 1600000) (q : Fin 64) : val_main_v18 (F := Ideal) x3 (ix2 p q) = x3 (ix2 0 q) := by
  rw [val_main_v18_apply, val_main_v17_apply, val_main_v16_apply, val_main_v15_apply]
  refine congrArg x3 (funext fun a => Fin.ext ?_)
  have hq := q.isLt
  match a with
  | ⟨0, _⟩ => rfl
  | ⟨1, _⟩ => show q.val % 64 = q.val; omega

/-- The message stage of layer 0 is `Layer.msg` of the gathered input rows. -/
theorem v20_eq : val_main_v20 (F := Ideal) x0 x1 x2 x3 x8 = Cert.Layer.msg (gth x8 x0) x1 (We x2 0) (be x3 0) := by
  refine msg_ext _ _ _ _ _ fun p q => ?_
  rw [val_main_v20_apply, val_main_v19_apply, val_main_v14_apply, v13_at, v18_at, val_main_call0_v0_apply,
    val_main_call0_cst_apply]
  simp only [Ideal.maximumf_def, Ideal.addf_def, Ideal.ofBits_def, Ideal.ofBits_zero_f32]
  rfl

/-- The aggregated messages of layer 0: the scatter-add of that message array. -/
theorem v23_eq : val_main_v23 (F := Ideal) x0 x1 x2 x3 x8
    = sct x8 (Cert.Layer.msg (gth x8 x0) x1 (We x2 0) (be x3 0)) := by
  rw [← v20_eq]
  rfl

/-- Layer 0's slice of the first perceptron weights at `(k', k)` is `W1[0][k'][k]`. -/
theorem v26_at (k' k : Fin 64) : val_main_v26 (F := Ideal) x4 (ix2 k' k) = x4 (ix3 0 k' k) := by
  rw [val_main_v26_apply, val_main_v25_apply]
  refine congrArg x4 (funext fun a => Fin.ext ?_)
  have hk' := k'.isLt
  have hk := k.isLt
  match a with
  | ⟨0, _⟩ => rfl
  | ⟨1, _⟩ => show (k'.val * 64 + k.val) / 64 % 64 = k'.val; omega
  | ⟨2, _⟩ => show (k'.val * 64 + k.val) % 64 = k.val; omega

/-- The first product of layer 0 at node `p`, hidden column `k`: row `p` of `h + agg` against column `k`. -/
theorem v27_at (p : Fin 100000) (k : Fin 64) :
    val_main_v27 (F := Ideal) x0 x1 x2 x3 x4 x8 (ix2 p k)
      = ∑ k' : Fin 64, (x0 (ix2 p k') + val_main_v23 (F := Ideal) x0 x1 x2 x3 x8 (ix2 p k')) * x4 (ix3 0 k' k) := by
  rw [val_main_v27_apply]
  refine Finset.sum_congr rfl fun k' _ => ?_
  have hl : lidx_main_v27 (ix2 p k) k' = ix2 p k' :=
    funext fun a => by match a with | ⟨0, _⟩ => rfl | ⟨1, _⟩ => rfl
  have hr : ridx_main_v27 (ix2 p k) k' = ix2 k' k :=
    funext fun a => by match a with | ⟨0, _⟩ => rfl | ⟨1, _⟩ => rfl
  rw [hl, hr, v26_at]
  rfl

/-- Layer 0's first perceptron bias, broadcast over all nodes: at `(p, k)` it is `b1[0][k]`. -/
theorem v31_at (p : Fin 100000) (k : Fin 64) : val_main_v31 (F := Ideal) x5 (ix2 p k) = x5 (ix2 0 k) := by
  rw [val_main_v31_apply, val_main_v30_apply, val_main_v29_apply, val_main_v28_apply]
  refine congrArg x5 (funext fun a => Fin.ext ?_)
  have hk := k.isLt
  match a with
  | ⟨0, _⟩ => rfl
  | ⟨1, _⟩ => show k.val % 64 = k.val; omega

/-- The hidden row of layer 0 at `(p, k)`: the product plus bias, clamped below at `0`. -/
theorem v33_at (p : Fin 100000) (k : Fin 64) :
    val_main_v33 (F := Ideal) x0 x1 x2 x3 x4 x5 x8 (ix2 p k)
      = max ((∑ k' : Fin 64, (x0 (ix2 p k') + val_main_v23 (F := Ideal) x0 x1 x2 x3 x8 (ix2 p k')) * x4 (ix3 0 k' k))
          + x5 (ix2 0 k)) 0 := by
  rw [val_main_v33_apply, val_main_v32_apply, v27_at, v31_at, val_main_call1_v0_apply, val_main_call1_cst_apply]
  simp only [Ideal.maximumf_def, Ideal.addf_def, Ideal.ofBits_def, Ideal.ofBits_zero_f32]

/-- Layer 0's slice of the second perceptron weights at `(k, j)` is `W2[0][k][j]`. -/
theorem v35_at (k j : Fin 64) : val_main_v35 (F := Ideal) x6 (ix2 k j) = x6 (ix3 0 k j) := by
  rw [val_main_v35_apply, val_main_v34_apply]
  refine congrArg x6 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The second product of layer 0 at `(p, q)`: the hidden row `p` against column `q`. -/
theorem v36_at (p : Fin 100000) (q : Fin 64) :
    val_main_v36 (F := Ideal) x0 x1 x2 x3 x4 x5 x6 x8 (ix2 p q)
      = ∑ k : Fin 64, val_main_v33 (F := Ideal) x0 x1 x2 x3 x4 x5 x8 (ix2 p k) * x6 (ix3 0 k q) := by
  rw [val_main_v36_apply]
  refine Finset.sum_congr rfl fun k _ => ?_
  have hl : lidx_main_v36 (ix2 p q) k = ix2 p k :=
    funext fun a => by match a with | ⟨0, _⟩ => rfl | ⟨1, _⟩ => rfl
  have hr : ridx_main_v36 (ix2 p q) k = ix2 k q :=
    funext fun a => by match a with | ⟨0, _⟩ => rfl | ⟨1, _⟩ => rfl
  rw [hl, hr, v35_at]

/-- Layer 0's second perceptron bias, broadcast over all nodes: at `(p, q)` it is `b2[0][q]`. -/
theorem v40_at (p : Fin 100000) (q : Fin 64) : val_main_v40 (F := Ideal) x7 (ix2 p q) = x7 (ix2 0 q) := by
  rw [val_main_v40_apply, val_main_v39_apply, val_main_v38_apply, val_main_v37_apply]
  refine congrArg x7 (funext fun a => Fin.ext ?_)
  have hq := q.isLt
  match a with
  | ⟨0, _⟩ => rfl
  | ⟨1, _⟩ => show q.val % 64 = q.val; omega

/-- The node states after layer 0 are `Layer.inner` of the input features at the weights of layer 0. -/
theorem v42_eq : val_main_v42 (F := Ideal) x0 x1 x2 x3 x4 x5 x6 x7 x8
    = Cert.Layer.inner (gth x8) (sct x8) x1 (We x2 0) (be x3 0) (W1 x4 0) (b1 x5 0) (W2 x6 0) (b2 x7 0) x0 := by
  refine upd_ext x0 (sct x8 (Cert.Layer.msg (gth x8 x0) x1 (We x2 0) (be x3 0))) _ _ _ _ _ fun p q => ?_
  rw [val_main_v42_apply, val_main_v41_apply, v36_at, v40_at, val_main_call2_v0_apply, val_main_call2_cst_apply]
  simp only [v33_at, v23_eq, Ideal.maximumf_def, Ideal.addf_def, Ideal.ofBits_def, Ideal.ofBits_zero_f32]

/-! ## Layer 1 -/

/-- Layer 1 wraps the source indices again by the same operations: the same index array. -/
theorem v48_eq : val_main_v48 (F := Ideal) x8 = val_main_v9 (F := Ideal) x8 := rfl

/-- Layer 1's zero array for the scatter is layer 0's. -/
theorem v60_eq : val_main_v60 (F := Ideal) = val_main_v21 (F := Ideal) := rfl

/-- Layer 1's destination index array is layer 0's. -/
theorem v61_eq : val_main_v61 (F := Ideal) x8 = val_main_v22 (F := Ideal) x8 := rfl

/-- Layer 1 gathers the source rows out of the states after layer 0. -/
theorem v49_eq : val_main_v49 (F := Ideal) x0 x1 x2 x3 x4 x5 x6 x7 x8
    = gth x8 (val_main_v42 (F := Ideal) x0 x1 x2 x3 x4 x5 x6 x7 x8) := by
  unfold val_main_v49 gth
  rw [v48_eq]

/-- Layer 1's slice of the edge weights at `(k, q)` is `We[1][k][q]`. -/
theorem v51_at (k : Fin 32) (q : Fin 64) : val_main_v51 (F := Ideal) x2 (ix2 k q) = x2 (ix3 1 k q) := by
  rw [val_main_v51_apply, val_main_v50_apply]
  refine congrArg x2 (funext fun a => Fin.ext ?_)
  have hk := k.isLt
  have hq := q.isLt
  match a with
  | ⟨0, _⟩ => rfl
  | ⟨1, _⟩ => show (k.val * 64 + q.val) / 64 % 32 = k.val; omega
  | ⟨2, _⟩ => show (k.val * 64 + q.val) % 64 = q.val; omega

/-- The projected edge attributes of layer 1 at `(p, q)`. -/
theorem v52_at (p : Fin 1600000) (q : Fin 64) :
    val_main_v52 (F := Ideal) x1 x2 (ix2 p q) = ∑ k : Fin 32, x1 (ix2 p k) * x2 (ix3 1 k q) := by
  rw [val_main_v52_apply]
  refine Finset.sum_congr rfl fun k _ => ?_
  have hl : lidx_main_v52 (ix2 p q) k = ix2 p k :=
    funext fun a => by match a with | ⟨0, _⟩ => rfl | ⟨1, _⟩ => rfl
  have hr : ridx_main_v52 (ix2 p q) k = ix2 k q :=
    funext fun a => by match a with | ⟨0, _⟩ => rfl | ⟨1, _⟩ => rfl
  rw [hl, hr, v51_at]

/-- Layer 1's edge bias at `(p, q)` is `be[1][q]`. -/
theorem v57_at (p : Fin 1600000) (q : Fin 64) : val_main_v57 (F := Ideal) x3 (ix2 p q) = x3 (ix2 1 q) := by
  rw [val_main_v57_apply, val_main_v56_apply, val_main_v55_apply, val_main_v54_apply]
  refine congrArg x3 (funext fun a => Fin.ext ?_)
  have hq := q.isLt
  match a with
  | ⟨0, _⟩ => rfl
  | ⟨1, _⟩ => show q.val % 64 = q.val; omega

/-- The message stage of layer 1 is `Layer.msg` of the rows gathered from the states after layer 0. -/
theorem v59_eq : val_main_v59 (F := Ideal) x0 x1 x2 x3 x4 x5 x6 x7 x8
    = Cert.Layer.msg (gth x8 (val_main_v42 (F := Ideal) x0 x1 x2 x3 x4 x5 x6 x7 x8)) x1 (We x2 1) (be x3 1) := by
  refine msg_ext _ _ _ _ _ fun p q => ?_
  rw [val_main_v59_apply, val_main_v58_apply, val_main_v53_apply, v49_eq, v52_at, v57_at, val_main_call3_v0_apply,
    val_main_call3_cst_apply]
  simp only [Ideal.maximumf_def, Ideal.addf_def, Ideal.ofBits_def, Ideal.ofBits_zero_f32]

/-- The aggregated messages of layer 1. -/
theorem v62_eq : val_main_v62 (F := Ideal) x0 x1 x2 x3 x4 x5 x6 x7 x8
    = sct x8 (Cert.Layer.msg (gth x8 (val_main_v42 (F := Ideal) x0 x1 x2 x3 x4 x5 x6 x7 x8)) x1 (We x2 1) (be x3 1)) := by
  rw [← v59_eq]
  unfold val_main_v62 sct
  rw [v60_eq, v61_eq]

/-- Layer 1's slice of the first perceptron weights at `(k', k)` is `W1[1][k'][k]`. -/
theorem v65_at (k' k : Fin 64) : val_main_v65 (F := Ideal) x4 (ix2 k' k) = x4 (ix3 1 k' k) := by
  rw [val_main_v65_apply, val_main_v64_apply]
  refine congrArg x4 (funext fun a => Fin.ext ?_)
  have hk' := k'.isLt
  have hk := k.isLt
  match a with
  | ⟨0, _⟩ => rfl
  | ⟨1, _⟩ => show (k'.val * 64 + k.val) / 64 % 64 = k'.val; omega
  | ⟨2, _⟩ => show (k'.val * 64 + k.val) % 64 = k.val; omega

/-- The first product of layer 1 at `(p, k)`. -/
theorem v66_at (p : Fin 100000) (k : Fin 64) :
    val_main_v66 (F := Ideal) x0 x1 x2 x3 x4 x5 x6 x7 x8 (ix2 p k)
      = ∑ k' : Fin 64, (val_main_v42 (F := Ideal) x0 x1 x2 x3 x4 x5 x6 x7 x8 (ix2 p k')
          + val_main_v62 (F := Ideal) x0 x1 x2 x3 x4 x5 x6 x7 x8 (ix2 p k')) * x4 (ix3 1 k' k) := by
  rw [val_main_v66_apply]
  refine Finset.sum_congr rfl fun k' _ => ?_
  have hl : lidx_main_v66 (ix2 p k) k' = ix2 p k' :=
    funext fun a => by match a with | ⟨0, _⟩ => rfl | ⟨1, _⟩ => rfl
  have hr : ridx_main_v66 (ix2 p k) k' = ix2 k' k :=
    funext fun a => by match a with | ⟨0, _⟩ => rfl | ⟨1, _⟩ => rfl
  rw [hl, hr, v65_at]
  rfl

/-- Layer 1's first perceptron bias at `(p, k)` is `b1[1][k]`. -/
theorem v70_at (p : Fin 100000) (k : Fin 64) : val_main_v70 (F := Ideal) x5 (ix2 p k) = x5 (ix2 1 k) := by
  rw [val_main_v70_apply, val_main_v69_apply, val_main_v68_apply, val_main_v67_apply]
  refine congrArg x5 (funext fun a => Fin.ext ?_)
  have hk := k.isLt
  match a with
  | ⟨0, _⟩ => rfl
  | ⟨1, _⟩ => show k.val % 64 = k.val; omega

/-- The hidden row of layer 1 at `(p, k)`. -/
theorem v72_at (p : Fin 100000) (k : Fin 64) :
    val_main_v72 (F := Ideal) x0 x1 x2 x3 x4 x5 x6 x7 x8 (ix2 p k)
      = max ((∑ k' : Fin 64, (val_main_v42 (F := Ideal) x0 x1 x2 x3 x4 x5 x6 x7 x8 (ix2 p k')
          + val_main_v62 (F := Ideal) x0 x1 x2 x3 x4 x5 x6 x7 x8 (ix2 p k')) * x4 (ix3 1 k' k))
          + x5 (ix2 1 k)) 0 := by
  rw [val_main_v72_apply, val_main_v71_apply, v66_at, v70_at, val_main_call4_v0_apply, val_main_call4_cst_apply]
  simp only [Ideal.maximumf_def, Ideal.addf_def, Ideal.ofBits_def, Ideal.ofBits_zero_f32]

/-- Layer 1's slice of the second perceptron weights at `(k, j)` is `W2[1][k][j]`. -/
theorem v74_at (k j : Fin 64) : val_main_v74 (F := Ideal) x6 (ix2 k j) = x6 (ix3 1 k j) := by
  rw [val_main_v74_apply, val_main_v73_apply]
  refine congrArg x6 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The second product of layer 1 at `(p, q)`. -/
theorem v75_at (p : Fin 100000) (q : Fin 64) :
    val_main_v75 (F := Ideal) x0 x1 x2 x3 x4 x5 x6 x7 x8 (ix2 p q)
      = ∑ k : Fin 64, val_main_v72 (F := Ideal) x0 x1 x2 x3 x4 x5 x6 x7 x8 (ix2 p k) * x6 (ix3 1 k q) := by
  rw [val_main_v75_apply]
  refine Finset.sum_congr rfl fun k _ => ?_
  have hl : lidx_main_v75 (ix2 p q) k = ix2 p k :=
    funext fun a => by match a with | ⟨0, _⟩ => rfl | ⟨1, _⟩ => rfl
  have hr : ridx_main_v75 (ix2 p q) k = ix2 k q :=
    funext fun a => by match a with | ⟨0, _⟩ => rfl | ⟨1, _⟩ => rfl
  rw [hl, hr, v74_at]

/-- Layer 1's second perceptron bias at `(p, q)` is `b2[1][q]`. -/
theorem v79_at (p : Fin 100000) (q : Fin 64) : val_main_v79 (F := Ideal) x7 (ix2 p q) = x7 (ix2 1 q) := by
  rw [val_main_v79_apply, val_main_v78_apply, val_main_v77_apply, val_main_v76_apply]
  refine congrArg x7 (funext fun a => Fin.ext ?_)
  have hq := q.isLt
  match a with
  | ⟨0, _⟩ => rfl
  | ⟨1, _⟩ => show q.val % 64 = q.val; omega

/-- The node states after layer 1 are `Layer.inner` of the states after layer 0 at the weights of layer 1. -/
theorem v81_eq : val_main_v81 (F := Ideal) x0 x1 x2 x3 x4 x5 x6 x7 x8
    = Cert.Layer.inner (gth x8) (sct x8) x1 (We x2 1) (be x3 1) (W1 x4 1) (b1 x5 1) (W2 x6 1) (b2 x7 1)
        (val_main_v42 (F := Ideal) x0 x1 x2 x3 x4 x5 x6 x7 x8) := by
  refine upd_ext (val_main_v42 (F := Ideal) x0 x1 x2 x3 x4 x5 x6 x7 x8)
    (sct x8 (Cert.Layer.msg (gth x8 (val_main_v42 (F := Ideal) x0 x1 x2 x3 x4 x5 x6 x7 x8)) x1 (We x2 1) (be x3 1)))
    _ _ _ _ _ fun p q => ?_
  rw [val_main_v81_apply, val_main_v80_apply, v75_at, v79_at, val_main_call5_v0_apply, val_main_call5_cst_apply]
  simp only [v72_at, v62_eq, Ideal.maximumf_def, Ideal.addf_def, Ideal.ofBits_def, Ideal.ofBits_zero_f32]

/-! ## Layer 2 -/

/-- Layer 2 wraps the source indices again by the same operations: the same index array. -/
theorem v87_eq : val_main_v87 (F := Ideal) x8 = val_main_v9 (F := Ideal) x8 := rfl

/-- Layer 2's zero array for the scatter is layer 0's. -/
theorem v99_eq : val_main_v99 (F := Ideal) = val_main_v21 (F := Ideal) := rfl

/-- Layer 2's destination index array is layer 0's. -/
theorem v100_eq : val_main_v100 (F := Ideal) x8 = val_main_v22 (F := Ideal) x8 := rfl

/-- Layer 2 gathers the source rows out of the states after layer 1. -/
theorem v88_eq : val_main_v88 (F := Ideal) x0 x1 x2 x3 x4 x5 x6 x7 x8
    = gth x8 (val_main_v81 (F := Ideal) x0 x1 x2 x3 x4 x5 x6 x7 x8) := by
  unfold val_main_v88 gth
  rw [v87_eq]

/-- Layer 2's slice of the edge weights at `(k, q)` is `We[2][k][q]`. -/
theorem v90_at (k : Fin 32) (q : Fin 64) : val_main_v90 (F := Ideal) x2 (ix2 k q) = x2 (ix3 2 k q) := by
  rw [val_main_v90_apply, val_main_v89_apply]
  refine congrArg x2 (funext fun a => Fin.ext ?_)
  have hk := k.isLt
  have hq := q.isLt
  match a with
  | ⟨0, _⟩ => rfl
  | ⟨1, _⟩ => show (k.val * 64 + q.val) / 64 % 32 = k.val; omega
  | ⟨2, _⟩ => show (k.val * 64 + q.val) % 64 = q.val; omega

/-- The projected edge attributes of layer 2 at `(p, q)`. -/
theorem v91_at (p : Fin 1600000) (q : Fin 64) :
    val_main_v91 (F := Ideal) x1 x2 (ix2 p q) = ∑ k : Fin 32, x1 (ix2 p k) * x2 (ix3 2 k q) := by
  rw [val_main_v91_apply]
  refine Finset.sum_congr rfl fun k _ => ?_
  have hl : lidx_main_v91 (ix2 p q) k = ix2 p k :=
    funext fun a => by match a with | ⟨0, _⟩ => rfl | ⟨1, _⟩ => rfl
  have hr : ridx_main_v91 (ix2 p q) k = ix2 k q :=
    funext fun a => by match a with | ⟨0, _⟩ => rfl | ⟨1, _⟩ => rfl
  rw [hl, hr, v90_at]

/-- Layer 2's edge bias at `(p, q)` is `be[2][q]`. -/
theorem v96_at (p : Fin 1600000) (q : Fin 64) : val_main_v96 (F := Ideal) x3 (ix2 p q) = x3 (ix2 2 q) := by
  rw [val_main_v96_apply, val_main_v95_apply, val_main_v94_apply, val_main_v93_apply]
  refine congrArg x3 (funext fun a => Fin.ext ?_)
  have hq := q.isLt
  match a with
  | ⟨0, _⟩ => rfl
  | ⟨1, _⟩ => show q.val % 64 = q.val; omega

/-- The message stage of layer 2 is `Layer.msg` of the rows gathered from the states after layer 1. -/
theorem v98_eq : val_main_v98 (F := Ideal) x0 x1 x2 x3 x4 x5 x6 x7 x8
    = Cert.Layer.msg (gth x8 (val_main_v81 (F := Ideal) x0 x1 x2 x3 x4 x5 x6 x7 x8)) x1 (We x2 2) (be x3 2) := by
  refine msg_ext _ _ _ _ _ fun p q => ?_
  rw [val_main_v98_apply, val_main_v97_apply, val_main_v92_apply, v88_eq, v91_at, v96_at, val_main_call6_v0_apply,
    val_main_call6_cst_apply]
  simp only [Ideal.maximumf_def, Ideal.addf_def, Ideal.ofBits_def, Ideal.ofBits_zero_f32]

/-- The aggregated messages of layer 2. -/
theorem v101_eq : val_main_v101 (F := Ideal) x0 x1 x2 x3 x4 x5 x6 x7 x8
    = sct x8 (Cert.Layer.msg (gth x8 (val_main_v81 (F := Ideal) x0 x1 x2 x3 x4 x5 x6 x7 x8)) x1 (We x2 2) (be x3 2)) := by
  rw [← v98_eq]
  unfold val_main_v101 sct
  rw [v99_eq, v100_eq]

/-- Layer 2's slice of the first perceptron weights at `(k', k)` is `W1[2][k'][k]`. -/
theorem v104_at (k' k : Fin 64) : val_main_v104 (F := Ideal) x4 (ix2 k' k) = x4 (ix3 2 k' k) := by
  rw [val_main_v104_apply, val_main_v103_apply]
  refine congrArg x4 (funext fun a => Fin.ext ?_)
  have hk' := k'.isLt
  have hk := k.isLt
  match a with
  | ⟨0, _⟩ => rfl
  | ⟨1, _⟩ => show (k'.val * 64 + k.val) / 64 % 64 = k'.val; omega
  | ⟨2, _⟩ => show (k'.val * 64 + k.val) % 64 = k.val; omega

/-- The first product of layer 2 at `(p, k)`. -/
theorem v105_at (p : Fin 100000) (k : Fin 64) :
    val_main_v105 (F := Ideal) x0 x1 x2 x3 x4 x5 x6 x7 x8 (ix2 p k)
      = ∑ k' : Fin 64, (val_main_v81 (F := Ideal) x0 x1 x2 x3 x4 x5 x6 x7 x8 (ix2 p k')
          + val_main_v101 (F := Ideal) x0 x1 x2 x3 x4 x5 x6 x7 x8 (ix2 p k')) * x4 (ix3 2 k' k) := by
  rw [val_main_v105_apply]
  refine Finset.sum_congr rfl fun k' _ => ?_
  have hl : lidx_main_v105 (ix2 p k) k' = ix2 p k' :=
    funext fun a => by match a with | ⟨0, _⟩ => rfl | ⟨1, _⟩ => rfl
  have hr : ridx_main_v105 (ix2 p k) k' = ix2 k' k :=
    funext fun a => by match a with | ⟨0, _⟩ => rfl | ⟨1, _⟩ => rfl
  rw [hl, hr, v104_at]
  rfl

/-- Layer 2's first perceptron bias at `(p, k)` is `b1[2][k]`. -/
theorem v109_at (p : Fin 100000) (k : Fin 64) : val_main_v109 (F := Ideal) x5 (ix2 p k) = x5 (ix2 2 k) := by
  rw [val_main_v109_apply, val_main_v108_apply, val_main_v107_apply, val_main_v106_apply]
  refine congrArg x5 (funext fun a => Fin.ext ?_)
  have hk := k.isLt
  match a with
  | ⟨0, _⟩ => rfl
  | ⟨1, _⟩ => show k.val % 64 = k.val; omega

/-- The hidden row of layer 2 at `(p, k)`. -/
theorem v111_at (p : Fin 100000) (k : Fin 64) :
    val_main_v111 (F := Ideal) x0 x1 x2 x3 x4 x5 x6 x7 x8 (ix2 p k)
      = max ((∑ k' : Fin 64, (val_main_v81 (F := Ideal) x0 x1 x2 x3 x4 x5 x6 x7 x8 (ix2 p k')
          + val_main_v101 (F := Ideal) x0 x1 x2 x3 x4 x5 x6 x7 x8 (ix2 p k')) * x4 (ix3 2 k' k))
          + x5 (ix2 2 k)) 0 := by
  rw [val_main_v111_apply, val_main_v110_apply, v105_at, v109_at, val_main_call7_v0_apply, val_main_call7_cst_apply]
  simp only [Ideal.maximumf_def, Ideal.addf_def, Ideal.ofBits_def, Ideal.ofBits_zero_f32]

/-- Layer 2's slice of the second perceptron weights at `(k, j)` is `W2[2][k][j]`. -/
theorem v113_at (k j : Fin 64) : val_main_v113 (F := Ideal) x6 (ix2 k j) = x6 (ix3 2 k j) := by
  rw [val_main_v113_apply, val_main_v112_apply]
  refine congrArg x6 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The second product of layer 2 at `(p, q)`. -/
theorem v114_at (p : Fin 100000) (q : Fin 64) :
    val_main_v114 (F := Ideal) x0 x1 x2 x3 x4 x5 x6 x7 x8 (ix2 p q)
      = ∑ k : Fin 64, val_main_v111 (F := Ideal) x0 x1 x2 x3 x4 x5 x6 x7 x8 (ix2 p k) * x6 (ix3 2 k q) := by
  rw [val_main_v114_apply]
  refine Finset.sum_congr rfl fun k _ => ?_
  have hl : lidx_main_v114 (ix2 p q) k = ix2 p k :=
    funext fun a => by match a with | ⟨0, _⟩ => rfl | ⟨1, _⟩ => rfl
  have hr : ridx_main_v114 (ix2 p q) k = ix2 k q :=
    funext fun a => by match a with | ⟨0, _⟩ => rfl | ⟨1, _⟩ => rfl
  rw [hl, hr, v113_at]

/-- Layer 2's second perceptron bias at `(p, q)` is `b2[2][q]`. -/
theorem v118_at (p : Fin 100000) (q : Fin 64) : val_main_v118 (F := Ideal) x7 (ix2 p q) = x7 (ix2 2 q) := by
  rw [val_main_v118_apply, val_main_v117_apply, val_main_v116_apply, val_main_v115_apply]
  refine congrArg x7 (funext fun a => Fin.ext ?_)
  have hq := q.isLt
  match a with
  | ⟨0, _⟩ => rfl
  | ⟨1, _⟩ => show q.val % 64 = q.val; omega

/-- The node states after layer 2 (no closing clamp) are `Layer.last` of the states after layer 1. -/
theorem v119_eq : val_main_v119 (F := Ideal) x0 x1 x2 x3 x4 x5 x6 x7 x8
    = Cert.Layer.last (gth x8) (sct x8) x1 (We x2 2) (be x3 2) (W1 x4 2) (b1 x5 2) (W2 x6 2) (b2 x7 2)
        (val_main_v81 (F := Ideal) x0 x1 x2 x3 x4 x5 x6 x7 x8) := by
  refine out_ext (val_main_v81 (F := Ideal) x0 x1 x2 x3 x4 x5 x6 x7 x8)
    (sct x8 (Cert.Layer.msg (gth x8 (val_main_v81 (F := Ideal) x0 x1 x2 x3 x4 x5 x6 x7 x8)) x1 (We x2 2) (be x3 2)))
    _ _ _ _ _ fun p q => ?_
  rw [val_main_v119_apply, v114_at, v118_at]
  simp only [v111_at, v101_eq, Ideal.addf_def]

/-! ## The three layers together -/

/-- The reference's node states before the mean are the three-layer network of Layer.lean applied to the input features, with the reference's own gather and scatter-add as the two irregular steps. -/
theorem v119_eq_net
    (x0 : (⟨S100000x64, .f32⟩ : BufTy).Contents (Elt Ideal)) (x1 : (⟨S1600000x32, .f32⟩ : BufTy).Contents (Elt Ideal))
    (x2 : (⟨S3x32x64, .f32⟩ : BufTy).Contents (Elt Ideal)) (x3 : (⟨S3x64, .f32⟩ : BufTy).Contents (Elt Ideal))
    (x4 : (⟨S3x64x64, .f32⟩ : BufTy).Contents (Elt Ideal)) (x5 : (⟨S3x64, .f32⟩ : BufTy).Contents (Elt Ideal))
    (x6 : (⟨S3x64x64, .f32⟩ : BufTy).Contents (Elt Ideal)) (x7 : (⟨S3x64, .f32⟩ : BufTy).Contents (Elt Ideal))
    (x8 : (⟨S2x1600000, .i32⟩ : BufTy).Contents (Elt Ideal)) :
    val_main_v119 (F := Ideal) x0 x1 x2 x3 x4 x5 x6 x7 x8
      = Cert.Layer.net (gth x8) (sct x8) x1 (We x2) (be x3) (W1 x4) (b1 x5) (W2 x6) (b2 x7) x0 := by
  rw [v119_eq, v81_eq, v42_eq]
  rfl

end Cert.ReferenceIdeal.RefLayers
-- ==== Proof.lean ====
/-
  A three-layer GINE network — per layer: project the edge attributes, gather each edge's source row, add, clamp
  at zero, sum the messages into their destination rows, and update every node by a two-layer perceptron of its
  state plus its summed messages; at the end the mean over the nodes — computed by a program whose two regular
  stages (the projection and the node update) are tiled kernels, against the same network written with whole-array
  operations.

  On the extended reals the two agree.  The kernel program rounds its matrix-product operands to a narrower
  format, which is the identity here; a tiled product into a zero accumulator and the whole product are the same
  sums; and the one difference in grouping — the kernel program adds the bias to the projection before adding the
  gathered row, the reference adds the gathered row first — is associativity of addition, which holds on the
  extended reals with no finiteness assumption.  The kernel program gathers source rows with a fill value for an
  index outside the table where the reference clamps the index; the two gathers agree exactly when every source
  index addresses a row, `-100000 ≤ src < 100000` with negative indices counted from the end — which the
  precondition states.  So both programs end at the mean of `Cert.Layer.net` of the arguments: the kernel
  program by reading its run off the frame (KernelValue.lean), the reference by reading its run one operation
  at a time (RefLayers.lean).  The ideal pass rewrote nothing, so `preserves` asks nothing.
-/
import proofs.«424603_j55843164783469_3_alg».proof.Defs
import proofs.«424603_j55843164783469_3_alg».proof.Proof.Gen.Kernel
import proofs.«424603_j55843164783469_3_alg».proof.Proof.Gen.Kernel.Frame
import proofs.«424603_j55843164783469_3_alg».proof.Proof.Gen.KernelIdeal
import proofs.«424603_j55843164783469_3_alg».proof.Proof.Gen.KernelIdeal.Frame
import proofs.«424603_j55843164783469_3_alg».proof.Proof.Gen.ReferenceIdeal
import proofs.«424603_j55843164783469_3_alg».proof.Proof.Gen.Pre_finite_inputs
import proofs.«424603_j55843164783469_3_alg».proof.Proof.Gen.ReferenceIdeal.Run
import proofs.«424603_j55843164783469_3_alg».proof.Proof.Gen.ReferenceIdeal.Read
import proofs.«424603_j55843164783469_3_alg».proof.Proof.RunNamed
import proofs.«424603_j55843164783469_3_alg».proof.Proof.KernelValue
import proofs.«424603_j55843164783469_3_alg».proof.Proof.RefLayers
import proofs.«424603_j55843164783469_3_alg».proof.Proof.SrcRange
import Idealize.ShloMosaic.Adequacy
import Idealize.ShloMosaic.Init

set_option maxRecDepth 16384

noncomputable section

namespace Cert.Proof

open Idealize.ShloMosaic Idealize.ShloMosaic.TcCoe Idealize.SL.Sem

/-- With every source index addressing a row, the kernel program's filled gather is the reference's gather. -/
theorem gK_eq (m : (ℓ : Loc Cert.KernelIdeal.nD Cert.KernelIdeal.τ Cert.KernelIdeal.sig) → Buf (Elt Ideal) ℓ)
    (c : Dev Cert.KernelIdeal.nD) (hr : Cert.KernelIdeal.SrcRange.InRange (Cert.KernelIdeal.Chain.arg8 m c)) :
    Cert.KernelIdeal.Chain.gK m c = Cert.ReferenceIdeal.RefLayers.gth (Cert.KernelIdeal.Chain.arg8 m c) := by
  funext H
  refine (Cert.KernelIdeal.SrcRange.takeK_eq_gather H _ hr).trans ?_
  rfl

/-- The two programs sum messages into destination rows by the same operation from the same zeros. -/
theorem sK_eq (m : (ℓ : Loc Cert.KernelIdeal.nD Cert.KernelIdeal.τ Cert.KernelIdeal.sig) → Buf (Elt Ideal) ℓ)
    (c : Dev Cert.KernelIdeal.nD) :
    Cert.KernelIdeal.Chain.sK m c = Cert.ReferenceIdeal.RefLayers.sct (Cert.KernelIdeal.Chain.arg8 m c) := by
  funext M
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean over the nodes of the same three-layer network of the arguments. -/
theorem algebraic : Cert.algebraic_KernelIdeal_ReferenceIdeal := by
  intro m ρ m' ρ' hpre hagree
  have hr : ∀ c, Cert.KernelIdeal.SrcRange.InRange (Cert.KernelIdeal.Chain.arg8 m c) := fun c =>
    Cert.KernelIdeal.SrcRange.inRange_of_pre _ _ _ _ _ _ _ _ _ (hpre c)
  refine ⟨fun c => Cert.KernelIdeal.Chain.meanK (Cert.Layer.net (Cert.KernelIdeal.Chain.gK m c) (Cert.KernelIdeal.Chain.sK m c)
      (Cert.KernelIdeal.Chain.arg1 m c) (Cert.KernelIdeal.Chain.WeK m c) (Cert.KernelIdeal.Chain.beK m c)
      (Cert.KernelIdeal.Chain.W1K m c) (Cert.KernelIdeal.Chain.b1K m c) (Cert.KernelIdeal.Chain.W2K m c)
      (Cert.KernelIdeal.Chain.b2K m c) (Cert.KernelIdeal.Chain.arg0 m c)), ?_, ?_⟩
  · exact (θ_run Cert.KernelIdeal.defs _ _).mono
      (fun r h c => ⟨(h c).1.trans (Cert.KernelIdeal.Chain.kernel_net m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v123_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    refine (show Cert.ReferenceIdeal.Read.val_main_v123 (F := Ideal) _ _ _ _ _ _ _ _ _
        = Cert.KernelIdeal.Chain.meanK (Cert.ReferenceIdeal.Read.val_main_v119 (F := Ideal) _ _ _ _ _ _ _ _ _) from rfl).trans ?_
    beta_reduce
    rw [Cert.ReferenceIdeal.RefLayers.v119_eq_net, gK_eq m c (hr c), sK_eq m c]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
